-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80x512x512 : Shape := ⟨3, ![80, 512, 512]⟩
abbrev S100x512x512 : Shape := ⟨3, ![100, 512, 512]⟩
abbrev S100 : Shape := ⟨1, ![100]⟩
abbrev S_ : Shape := ⟨0, ![]⟩

class Facts : Prop where
  bcast_S_S80x512x512 : S_.BroadcastsInDim S80x512x512 (![] : Fin 0 → Fin S80x512x512.rank)
  reducesTo_S80x512x512_S_d0_1_2 : S80x512x512.ReducesTo [0, 1, 2] S_
  h_S_ : 0 < S_.numel
  bcast_S_S100 : S_.BroadcastsInDim S100 (![] : Fin 0 → Fin S100.rank)
  reducesTo_S100_S_d0 : S100.ReducesTo [0] S_

variable [Facts]

def fn {F : FTy → Type} [FloatOps F] (main_arg0 : FVec F S80x512x512 .f32) (main_arg1 : IVec S100x512x512 1) (main_arg2 : IVec S100 32) : IVec S_ 1 :=
  let main_v0 : FVec F S80x512x512 .f32 := Host.absf main_arg0
  let main_cst : FVec F S_ .f32 := constant S_ .f32 0x7F800000#32
  let main_v1 : FVec F S80x512x512 .f32 := broadcastInDim S80x512x512 ![] bcast_S_S80x512x512 main_cst
  let main_v2 : IVec S80x512x512 1 := cmpf .olt main_v0 main_v1
  let main_c : IVec S_ 1 := constantI S_ 1 1#1
  let main_v3 : IVec S_ 1 := (fun x v => Host.reduce IntOp.andi x v reducesTo_S80x512x512_S_d0_1_2 h_S_) main_v2 main_c
  let main_c_0 : IVec S_ 32 := constantI S_ 32 0#32
  let main_v4 : IVec S100 32 := broadcastInDim S100 ![] bcast_S_S100 main_c_0
  let main_v5 : IVec S100 1 := cmpi .sge main_arg2 main_v4
  let main_c_1 : IVec S_ 32 := constantI S_ 32 80#32
  let main_v6 : IVec S100 32 := broadcastInDim S100 ![] bcast_S_S100 main_c_1
  let main_v7 : IVec S100 1 := cmpi .slt main_arg2 main_v6
  let main_v8 : IVec S100 1 := andi main_v5 main_v7
  let main_c_2 : IVec S_ 1 := constantI S_ 1 1#1
  let main_v9 : IVec S_ 1 := (fun x v => Host.reduce IntOp.andi x v reducesTo_S100_S_d0 h_S_) main_v8 main_c_2
  let main_v10 : IVec S_ 1 := andi main_v3 main_v9
  main_v10
-- ==== Kernel.lean ====
abbrev S80x512x512 : Shape := ⟨3, ![80, 512, 512]⟩
abbrev S100x512x512 : Shape := ⟨3, ![100, 512, 512]⟩
abbrev S100 : Shape := ⟨1, ![100]⟩
abbrev S_ : Shape := ⟨0, ![]⟩
abbrev S100x1 : Shape := ⟨2, ![100, 1]⟩
abbrev S2x8x128 : Shape := ⟨3, ![2, 8, 128]⟩
abbrev S1x512x512 : Shape := ⟨3, ![1, 512, 512]⟩
abbrev S1 : Shape := ⟨1, ![1]⟩
abbrev S1x8x128 : Shape := ⟨3, ![1, 8, 128]⟩
abbrev S512x512 : Shape := ⟨2, ![512, 512]⟩
abbrev S512 : Shape := ⟨1, ![512]⟩
abbrev S512x1 : Shape := ⟨2, ![512, 1]⟩
abbrev S1x1 : Shape := ⟨2, ![1, 1]⟩
abbrev S2x1024 : Shape := ⟨2, ![2, 1024]⟩
abbrev S2x50 : Shape := ⟨2, ![2, 50]⟩
abbrev S1x100 : Shape := ⟨2, ![1, 100]⟩
abbrev S100x100 : Shape := ⟨2, ![100, 100]⟩

abbrev nBuf : Space → Nat
  | .hbm => 136
  | .vmem => 10
  | .smem => 2
  | _ => 0

abbrev hbmTy0_0 (i : Nat) : BufTy := match i % 128 with
  | 0 => ⟨S80x512x512, .f32⟩
  | 1 => ⟨S100x512x512, .i1⟩
  | 2 => ⟨S100, .i32⟩
  | 3 => ⟨S_, .i32⟩
  | 4 => ⟨S_, .i32⟩
  | 5 => ⟨S_, .i32⟩
  | 6 => ⟨S100, .i32⟩
  | 7 => ⟨S100, .i32⟩
  | 8 => ⟨S_, .i32⟩
  | 9 => ⟨S100, .i32⟩
  | 10 => ⟨S100, .i32⟩
  | 11 => ⟨S100, .i32⟩
  | 12 => ⟨S100, .i32⟩
  | 13 => ⟨S_, .i32⟩
  | 14 => ⟨S100, .i32⟩
  | 15 => ⟨S100, .i1⟩
  | 16 => ⟨S_, .i32⟩
  | 17 => ⟨S100, .i32⟩
  | 18 => ⟨S100, .i32⟩
  | 19 => ⟨S100, .i32⟩
  | 20 => ⟨S100x1, .i32⟩
  | 21 => ⟨S100, .i32⟩
  | 22 => ⟨S100, .i32⟩
  | 23 => ⟨S100, .i32⟩
  | 24 => ⟨S100x512x512, .i32⟩
  | 25 => ⟨S2x8x128, .f32⟩
  | 26 => ⟨S2x8x128, .f32⟩
  | 27 => ⟨S2x8x128, .f32⟩
  | 28 => ⟨S2x1024, .f32⟩
  | 29 => ⟨S2x50, .f32⟩
  | 30 => ⟨S100, .f32⟩
  | 31 => ⟨S2x1024, .f32⟩
  | 32 => ⟨S2x50, .f32⟩
  | 33 => ⟨S100, .f32⟩
  | 34 => ⟨S2x1024, .f32⟩
  | 35 => ⟨S2x50, .f32⟩
  | 36 => ⟨S100, .f32⟩
  | 37 => ⟨S_, .i32⟩
  | 38 => ⟨S100, .i32⟩
  | 39 => ⟨S100, .i1⟩
  | 40 => ⟨S_, .i32⟩
  | 41 => ⟨S100, .i32⟩
  | 42 => ⟨S100, .i32⟩
  | 43 => ⟨S100, .i32⟩
  | 44 => ⟨S100x1, .i32⟩
  | 45 => ⟨S100, .f32⟩
  | 46 => ⟨S_, .i32⟩
  | 47 => ⟨S100, .i32⟩
  | 48 => ⟨S100, .i1⟩
  | 49 => ⟨S_, .i32⟩
  | 50 => ⟨S100, .i32⟩
  | 51 => ⟨S100, .i32⟩
  | 52 => ⟨S100, .i32⟩
  | 53 => ⟨S100x1, .i32⟩
  | 54 => ⟨S100, .f32⟩
  | 55 => ⟨S_, .i32⟩
  | 56 => ⟨S100, .i32⟩
  | 57 => ⟨S100, .i1⟩
  | 58 => ⟨S_, .i32⟩
  | 59 => ⟨S100, .i32⟩
  | 60 => ⟨S100, .i32⟩
  | 61 => ⟨S100, .i32⟩
  | 62 => ⟨S100x1, .i32⟩
  | 63 => ⟨S100, .f32⟩
  | 64 => ⟨S_, .f32⟩
  | 65 => ⟨S100, .f32⟩
  | 66 => ⟨S100, .i1⟩
  | 67 => ⟨S_, .f32⟩
  | 68 => ⟨S_, .f32⟩
  | 69 => ⟨S100, .f32⟩
  | 70 => ⟨S100, .f32⟩
  | 71 => ⟨S100, .f32⟩
  | 72 => ⟨S_, .f32⟩
  | 73 => ⟨S_, .f32⟩
  | 74 => ⟨S100, .f32⟩
  | 75 => ⟨S100, .f32⟩
  | 76 => ⟨S100, .f32⟩
  | 77 => ⟨S100, .f32⟩
  | 78 => ⟨S100, .f32⟩
  | 79 => ⟨S_, .f32⟩
  | 80 => ⟨S_, .f32⟩
  | 81 => ⟨S100, .f32⟩
  | 82 => ⟨S100, .f32⟩
  | 83 => ⟨S100x1, .i32⟩
  | 84 => ⟨S1x100, .i32⟩
  | 85 => ⟨S100x100, .i32⟩
  | 86 => ⟨S100x100, .i32⟩
  | 87 => ⟨S100x100, .i1⟩
  | 88 => ⟨S_, .i1⟩
  | 89 => ⟨S100x100, .i1⟩
  | 90 => ⟨S100x100, .i32⟩
  | 91 => ⟨S_, .i32⟩
  | 92 => ⟨S100x100, .i32⟩
  | 93 => ⟨S100x100, .i32⟩
  | 94 => ⟨S100x100, .i32⟩
  | 95 => ⟨S100x100, .i1⟩
  | 96 => ⟨S_, .i1⟩
  | 97 => ⟨S100x100, .i1⟩
  | 98 => ⟨S100x100, .i1⟩
  | 99 => ⟨S100x1, .f32⟩
  | 100 => ⟨S1x100, .f32⟩
  | 101 => ⟨S100x100, .f32⟩
  | 102 => ⟨S100x100, .f32⟩
  | 103 => ⟨S100x100, .f32⟩
  | 104 => ⟨S100x100, .f32⟩
  | 105 => ⟨S_, .f32⟩
  | 106 => ⟨S100x100, .f32⟩
  | 107 => ⟨S100x100, .f32⟩
  | 108 => ⟨S_, .f32⟩
  | 109 => ⟨S100x100, .f32⟩
  | 110 => ⟨S100x100, .f32⟩
  | 111 => ⟨S100x100, .i1⟩
  | 112 => ⟨S_, .f32⟩
  | 113 => ⟨S_, .f32⟩
  | 114 => ⟨S100x100, .f32⟩
  | 115 => ⟨S100x100, .f32⟩
  | 116 => ⟨S_, .f32⟩
  | 117 => ⟨S_, .f32⟩
  | 118 => ⟨S100, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S80x512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1, .f32⟩
  | _ => ⟨S80x512x512, .f32⟩

abbrev hbmTy (i : Nat) : BufTy := match i / 128 with
  | 0 => hbmTy0_0 i
  | 1 => hbmTy0_1 i
  | _ => ⟨S80x512x512, .f32⟩

abbrev bufTy : (tb : Table) → Fin (tcTables nBuf tb) → BufTy
  | .hbm, ⟨i, _⟩ => hbmTy i
  | .local _ .vmem, ⟨0, _⟩ => ⟨S1x512x512, .f32⟩
  | .local _ .vmem, ⟨1, _⟩ => ⟨S1x512x512, .f32⟩
  | .local _ .vmem, ⟨2, _⟩ => ⟨S1x512x512, .i32⟩
  | .local _ .vmem, ⟨3, _⟩ => ⟨S1x512x512, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .smem, ⟨0, _⟩ => ⟨S100, .i32⟩
  | .local _ .smem, ⟨1, _⟩ => ⟨S100, .i32⟩
  | _, _ => ⟨S80x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1_0 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call2_v0 : Ref sig .tc := ⟨.hbm, 21, rfl⟩
abbrev main_call2_v1_0 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_call3_v0 : Ref sig .tc := ⟨.hbm, 68, rfl⟩
abbrev main_call3_v1 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_call4_v0 : Ref sig .tc := ⟨.hbm, 73, rfl⟩
abbrev main_call4_v1 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_call5_v0 : Ref sig .tc := ⟨.hbm, 80, rfl⟩
abbrev main_call5_v1 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_12 : Ref sig .tc := ⟨.hbm, 88, rfl⟩
abbrev main_v56 : Ref sig .tc := ⟨.hbm, 89, rfl⟩
abbrev main_call6_v0 : Ref sig .tc := ⟨.hbm, 90, rfl⟩
abbrev main_call6_c : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_0 : Ref sig .tc := ⟨.hbm, 96, rfl⟩
abbrev main_call6_v5 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_13 : Ref sig .tc := ⟨.hbm, 105, rfl⟩
abbrev main_v64 : Ref sig .tc := ⟨.hbm, 106, rfl⟩
abbrev main_v65 : Ref sig .tc := ⟨.hbm, 107, rfl⟩
abbrev main_cst_14 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_15 : Ref sig .tc := ⟨.hbm, 112, rfl⟩
abbrev main_call7_v0 : Ref sig .tc := ⟨.hbm, 113, rfl⟩
abbrev main_call7_v1 : Ref sig .tc := ⟨.hbm, 114, rfl⟩
abbrev main_v69 : Ref sig .tc := ⟨.hbm, 115, rfl⟩
abbrev main_cst_16 : Ref sig .tc := ⟨.hbm, 116, rfl⟩
abbrev main_v70 : Ref sig .tc := ⟨.hbm, 117, rfl⟩
abbrev main_v71 : Ref sig .tc := ⟨.hbm, 118, rfl⟩
abbrev main_cst_17 : Ref sig .tc := ⟨.hbm, 119, rfl⟩
abbrev main_v72 : Ref sig .tc := ⟨.hbm, 120, rfl⟩
abbrev main_cst_18 : Ref sig .tc := ⟨.hbm, 121, rfl⟩
abbrev main_v73 : Ref sig .tc := ⟨.hbm, 122, rfl⟩
abbrev main_cst_19 : Ref sig .tc := ⟨.hbm, 123, rfl⟩
abbrev main_v74 : Ref sig .tc := ⟨.hbm, 124, rfl⟩
abbrev main_cst_20 : Ref sig .tc := ⟨.hbm, 125, rfl⟩
abbrev main_v75 : Ref sig .tc := ⟨.hbm, 126, rfl⟩
abbrev main_cst_21 : Ref sig .tc := ⟨.hbm, 127, rfl⟩
abbrev main_v76 : Ref sig .tc := ⟨.hbm, 128, rfl⟩
abbrev main_cst_22 : Ref sig .tc := ⟨.hbm, 129, rfl⟩
abbrev main_v77 : Ref sig .tc := ⟨.hbm, 130, rfl⟩
abbrev main_v78 : Ref sig .tc := ⟨.hbm, 131, rfl⟩
abbrev main_cst_23 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v8 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 50], ![false, false]⟩

abbrev pre0 : Pipeline.Prefetch sig := ⟨2, ![main_v8.idx, main_v1.idx], fun | 0 => main_v8.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c50_i32 : BitVec 32 := 50#32
  let v0 : BitVec 32 := Scalar.muli arg0 c50_i32
  let arg1 : BitVec 32 := BitVec.ofNat 32 (i 1).val
  let v1 : BitVec 32 := Scalar.addi v0 arg1
  let v2 : Index := Scalar.indexCast v1
  ![v2.toNat]
def cc0_transform_0 (k0_off1_inb : ∀ i : grid0.Coords, ∀ a, (k0_off1 i) a + S1.size a ≤ S100.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let v2 : Index := Scalar.indexCast v1
  let v3 : BitVec 32 := pf.at 0 (Rect.unit (s := S100) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_1 (k0_off1_inb : ∀ i : grid0.Coords, ∀ a, (k0_off1 i) a + S1.size a ≤ S100.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let v2 : Index := Scalar.indexCast v1
  let v3 : BitVec 32 := pf.at 1 (Rect.unit (s := S100) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S100 : S_.BroadcastsInDim S100 (![] : Fin 0 → Fin S100.rank)
  bcast_S100_S100x1_0 : S100.BroadcastsInDim S100x1 (![0] : Fin 1 → Fin S100x1.rank)
  natLt_1_32 : 1 < 32
  numel1_S1 : S1.numel = 1
  inb_S1x8x128_S1x8x128_0_0_0 : ∀ a, (![0, 0, 0] : Fin 3 → Nat) a + S1x8x128.size a ≤ S1x8x128.size a
  h_S1x8x128 : 0 < S1x8x128.numel
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inpos_S1x1_p0_0 : ∀ a, (![0, 0] : Fin 2 → Nat) a < S1x1.size a
  iota_S1x8x128_d1_w32 : S1x8x128.Iotas .tc 32 [1]
  iota_S1x8x128_d2_w32 : S1x8x128.Iotas .tc 32 [2]
  shapeCasts_S1x8x128_S1x8x128 : S1x8x128.ShapeCasts S1x8x128
  shapeCasts_S2x8x128_S2x1024 : S2x8x128.ShapeCasts S2x1024
  slices_S2x1024_S2x50_0_0 : S2x1024.Slices ![0, 0] S2x50
  shapeCasts_S2x50_S100 : S2x50.ShapeCasts S100
  bcast_S100_S1x100_1 : S100.BroadcastsInDim S1x100 (![1] : Fin 1 → Fin S1x100.rank)
  bcast_S100x1_S100x100_0_1 : S100x1.BroadcastsInDim S100x100 (![0, 1] : Fin 2 → Fin S100x100.rank)
  bcast_S1x100_S100x100_0_1 : S1x100.BroadcastsInDim S100x100 (![0, 1] : Fin 2 → Fin S100x100.rank)
  bcast_S_S100x100 : S_.BroadcastsInDim S100x100 (![] : Fin 0 → Fin S100x100.rank)
  reducesTo_S100x100_S_d0_1 : S100x100.ReducesTo [0, 1] S_
  h_S_ : 0 < S_.numel
  reducesTo_S100_S_d0 : S100.ReducesTo [0] S_
  shapeCasts_S_S1 : S_.ShapeCasts S1
  gather_S100_S100x1_S100_n_0_n_n_0_1_1_wf : GatherDims.WF S100 S100x1 S100 [] [0] [] [0] [] 1 ![1]
  hrank0 : 0 < grid0.rank
  k0_off1_inb : ∀ i : grid0.Coords, ∀ a, (k0_off1 i) a + S1.size a ≤ S100.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S100_S100x1_S100_n_0_n_n_0_1_1 : GatherDims S100 S100x1 S100 where
  offsetDims := []
  collapsedSliceDims := [0]
  operandBatchingDims := []
  startIndicesBatchingDims := []
  startIndexMap := [0]
  indexVectorDim := 1
  sliceSizes := ![1]
  wf := gather_S100_S100x1_S100_n_0_n_n_0_1_1_wf

abbrev spec0_0 : Pipeline.WinSpec sig grid0.rank :=
  Pipeline.WinSpec.ofSpec (Memref.whole main_arg0) S1x512x512.size reads0_0 false false 2 stage0_0 sem0_0 nbuf0_0 hstage0_0

abbrev spec0_1 : Pipeline.WinSpec sig grid0.rank :=
  Pipeline.WinSpec.ofSpec (Memref.whole main_v10) S1x512x512.size reads0_1 false false 2 stage0_1 sem0_1 nbuf0_1 hstage0_1

abbrev spec0_2 : Pipeline.WinSpec sig grid0.rank :=
  Pipeline.WinSpec.ofSpec (Memref.whole main_v11_0) S1x8x128.size reads0_2 true false 2 stage0_2 sem0_2 nbuf0_2 hstage0_2

abbrev spec0_3 : Pipeline.WinSpec sig grid0.rank :=
  Pipeline.WinSpec.ofSpec (Memref.whole main_v11_1) S1x8x128.size reads0_3 true false 2 stage0_3 sem0_3 nbuf0_3 hstage0_3

abbrev spec0_4 : Pipeline.WinSpec sig grid0.rank :=
  Pipeline.WinSpec.ofSpec (Memref.whole main_v11_2) S1x8x128.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x512.size a ≤ S80x512x512.size a), EltTy.bits .f32 = 32 ∨ (Rect.block (s := S80x512x512) S1x512x512.size (cc0_transform_0 k0_off1_inb numel1_S1 pf i) h).WholeWords (EltTy.packing .f32)) ∧
  (∀ i : grid0.Coords, ∃ h : (∀ a, (cc0_transform_1 k0_off1_inb numel1_S1 pf i a + 1) * S1x512x512.size a ≤ S100x512x512.size a), EltTy.bits .i32 = 32 ∨ (Rect.block (s := S100x512x512) S1x512x512.size (cc0_transform_1 k0_off1_inb numel1_S1 pf i) h).WholeWords (EltTy.packing .i32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S80x512x512 : Shape := ⟨3, ![80, 512, 512]⟩
abbrev S100x512x512 : Shape := ⟨3, ![100, 512, 512]⟩
abbrev S100 : Shape := ⟨1, ![100]⟩
abbrev S_ : Shape := ⟨0, ![]⟩
abbrev S100x1 : Shape := ⟨2, ![100, 1]⟩
abbrev S1x100 : Shape := ⟨2, ![1, 100]⟩
abbrev S100x100 : Shape := ⟨2, ![100, 100]⟩
abbrev S1 : Shape := ⟨1, ![1]⟩

abbrev nBuf : Space → Nat
  | .hbm => 94
  | .vmem => 0
  | .smem => 0
  | _ => 0

abbrev bufTy : (tb : Table) → Fin (tcTables nBuf tb) → BufTy
  | .hbm, ⟨0, _⟩ => ⟨S80x512x512, .f32⟩
  | .hbm, ⟨1, _⟩ => ⟨S100x512x512, .i1⟩
  | .hbm, ⟨2, _⟩ => ⟨S100, .i32⟩
  | .hbm, ⟨3, _⟩ => ⟨S100x512x512, .f32⟩
  | .hbm, ⟨4, _⟩ => ⟨S_, .i32⟩
  | .hbm, ⟨5, _⟩ => ⟨S100, .i32⟩
  | .hbm, ⟨6, _⟩ => ⟨S100, .i1⟩
  | .hbm, ⟨7, _⟩ => ⟨S_, .i32⟩
  | .hbm, ⟨8, _⟩ => ⟨S100, .i32⟩
  | .hbm, ⟨9, _⟩ => ⟨S100, .i32⟩
  | .hbm, ⟨10, _⟩ => ⟨S100, .i32⟩
  | .hbm, ⟨11, _⟩ => ⟨S100x1, .i32⟩
  | .hbm, ⟨12, _⟩ => ⟨S100x512x512, .f32⟩
  | .hbm, ⟨13, _⟩ => ⟨S_, .f32⟩
  | .hbm, ⟨14, _⟩ => ⟨S100, .f32⟩
  | .hbm, ⟨15, _⟩ => ⟨S100x512x512, .f32⟩
  | .hbm, ⟨16, _⟩ => ⟨S_, .f32⟩
  | .hbm, ⟨17, _⟩ => ⟨S100, .f32⟩
  | .hbm, ⟨18, _⟩ => ⟨S100x512x512, .f32⟩
  | .hbm, ⟨19, _⟩ => ⟨S100x512x512, .f32⟩
  | .hbm, ⟨20, _⟩ => ⟨S_, .f32⟩
  | .hbm, ⟨21, _⟩ => ⟨S100, .f32⟩
  | .hbm, ⟨22, _⟩ => ⟨S_, .f32⟩
  | .hbm, ⟨23, _⟩ => ⟨S100, .f32⟩
  | .hbm, ⟨24, _⟩ => ⟨S100, .i1⟩
  | .hbm, ⟨25, _⟩ => ⟨S_, .f32⟩
  | .hbm, ⟨26, _⟩ => ⟨S_, .f32⟩
  | .hbm, ⟨27, _⟩ => ⟨S100, .f32⟩
  | .hbm, ⟨28, _⟩ => ⟨S100, .f32⟩
  | .hbm, ⟨29, _⟩ => ⟨S100, .f32⟩
  | .hbm, ⟨30, _⟩ => ⟨S_, .f32⟩
  | .hbm, ⟨31, _⟩ => ⟨S_, .f32⟩
  | .hbm, ⟨32, _⟩ => ⟨S100, .f32⟩
  | .hbm, ⟨33, _⟩ => ⟨S100, .f32⟩
  | .hbm, ⟨34, _⟩ => ⟨S100, .f32⟩
  | .hbm, ⟨35, _⟩ => ⟨S100, .f32⟩
  | .hbm, ⟨36, _⟩ => ⟨S100, .f32⟩
  | .hbm, ⟨37, _⟩ => ⟨S_, .f32⟩
  | .hbm, ⟨38, _⟩ => ⟨S_, .f32⟩
  | .hbm, ⟨39, _⟩ => ⟨S100, .f32⟩
  | .hbm, ⟨40, _⟩ => ⟨S100, .f32⟩
  | .hbm, ⟨41, _⟩ => ⟨S100x1, .i32⟩
  | .hbm, ⟨42, _⟩ => ⟨S1x100, .i32⟩
  | .hbm, ⟨43, _⟩ => ⟨S100x100, .i32⟩
  | .hbm, ⟨44, _⟩ => ⟨S100x100, .i32⟩
  | .hbm, ⟨45, _⟩ => ⟨S100x100, .i1⟩
  | .hbm, ⟨46, _⟩ => ⟨S_, .i1⟩
  | .hbm, ⟨47, _⟩ => ⟨S100x100, .i1⟩
  | .hbm, ⟨48, _⟩ => ⟨S100x100, .i32⟩
  | .hbm, ⟨49, _⟩ => ⟨S_, .i32⟩
  | .hbm, ⟨50, _⟩ => ⟨S100x100, .i32⟩
  | .hbm, ⟨51, _⟩ => ⟨S100x100, .i32⟩
  | .hbm, ⟨52, _⟩ => ⟨S100x100, .i32⟩
  | .hbm, ⟨53, _⟩ => ⟨S100x100, .i1⟩
  | .hbm, ⟨54, _⟩ => ⟨S_, .i1⟩
  | .hbm, ⟨55, _⟩ => ⟨S100x100, .i1⟩
  | .hbm, ⟨56, _⟩ => ⟨S100x100, .i1⟩
  | .hbm, ⟨57, _⟩ => ⟨S100x1, .f32⟩
  | .hbm, ⟨58, _⟩ => ⟨S1x100, .f32⟩
  | .hbm, ⟨59, _⟩ => ⟨S100x100, .f32⟩
  | .hbm, ⟨60, _⟩ => ⟨S100x100, .f32⟩
  | .hbm, ⟨61, _⟩ => ⟨S100x100, .f32⟩
  | .hbm, ⟨62, _⟩ => ⟨S100x100, .f32⟩
  | .hbm, ⟨63, _⟩ => ⟨S_, .f32⟩
  | .hbm, ⟨64, _⟩ => ⟨S100x100, .f32⟩
  | .hbm, ⟨65, _⟩ => ⟨S100x100, .f32⟩
  | .hbm, ⟨66, _⟩ => ⟨S_, .f32⟩
  | .hbm, ⟨67, _⟩ => ⟨S100x100, .f32⟩
  | .hbm, ⟨68, _⟩ => ⟨S100x100, .f32⟩
  | .hbm, ⟨69, _⟩ => ⟨S100x100, .i1⟩
  | .hbm, ⟨70, _⟩ => ⟨S_, .f32⟩
  | .hbm, ⟨71, _⟩ => ⟨S_, .f32⟩
  | .hbm, ⟨72, _⟩ => ⟨S100x100, .f32⟩
  | .hbm, ⟨73, _⟩ => ⟨S100x100, .f32⟩
  | .hbm, ⟨74, _⟩ => ⟨S_, .f32⟩
  | .hbm, ⟨75, _⟩ => ⟨S_, .f32⟩
  | .hbm, ⟨76, _⟩ => ⟨S100, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S1, .f32⟩
  | _, _ => ⟨S80x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_call2_v0 : Ref sig .tc := ⟨.hbm, 38, rfl⟩
abbrev main_call2_v1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_call3_v0 : Ref sig .tc := ⟨.hbm, 48, rfl⟩
abbrev main_call3_c : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_c_0 : Ref sig .tc := ⟨.hbm, 54, rfl⟩
abbrev main_call3_v5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_call4_v0 : Ref sig .tc := ⟨.hbm, 71, rfl⟩
abbrev main_call4_v1 : Ref sig .tc := ⟨.hbm, 72, rfl⟩
abbrev main_v41 : Ref sig .tc := ⟨.hbm, 73, rfl⟩
abbrev main_cst_11 : Ref sig .tc := ⟨.hbm, 74, rfl⟩
abbrev main_v42 : Ref sig .tc := ⟨.hbm, 75, rfl⟩
abbrev main_v43 : Ref sig .tc := ⟨.hbm, 76, rfl⟩
abbrev main_cst_12 : Ref sig .tc := ⟨.hbm, 77, rfl⟩
abbrev main_v44 : Ref sig .tc := ⟨.hbm, 78, rfl⟩
abbrev main_cst_13 : Ref sig .tc := ⟨.hbm, 79, rfl⟩
abbrev main_v45 : Ref sig .tc := ⟨.hbm, 80, rfl⟩
abbrev main_cst_14 : Ref sig .tc := ⟨.hbm, 81, rfl⟩
abbrev main_v46 : Ref sig .tc := ⟨.hbm, 82, rfl⟩
abbrev main_cst_15 : Ref sig .tc := ⟨.hbm, 83, rfl⟩
abbrev main_v47 : Ref sig .tc := ⟨.hbm, 84, rfl⟩
abbrev main_cst_16 : Ref sig .tc := ⟨.hbm, 85, rfl⟩
abbrev main_v48 : Ref sig .tc := ⟨.hbm, 86, rfl⟩
abbrev main_cst_17 : Ref sig .tc := ⟨.hbm, 87, rfl⟩
abbrev main_v49 : Ref sig .tc := ⟨.hbm, 88, rfl⟩
abbrev main_v50 : Ref sig .tc := ⟨.hbm, 89, rfl⟩
abbrev main_cst_18 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩

abbrev nD : Nat := 1
abbrev τ : Topo := Topo.v7x

variable {F : FTy → Type} [FloatOps F]

class Facts₀ : Prop where
  bcast_S_S100 : S_.BroadcastsInDim S100 (![] : Fin 0 → Fin S100.rank)
  bcast_S100_S100x1_0 : S100.BroadcastsInDim S100x1 (![0] : Fin 1 → Fin S100x1.rank)
  reducesTo_S100x512x512_S100_d1_2 : S100x512x512.ReducesTo [1, 2] S100
  h_S_ : 0 < S_.numel
  bcast_S100_S1x100_1 : S100.BroadcastsInDim S1x100 (![1] : Fin 1 → Fin S1x100.rank)
  bcast_S100x1_S100x100_0_1 : S100x1.BroadcastsInDim S100x100 (![0, 1] : Fin 2 → Fin S100x100.rank)
  bcast_S1x100_S100x100_0_1 : S1x100.BroadcastsInDim S100x100 (![0, 1] : Fin 2 → Fin S100x100.rank)
  bcast_S_S100x100 : S_.BroadcastsInDim S100x100 (![] : Fin 0 → Fin S100x100.rank)
  reducesTo_S100x100_S_d0_1 : S100x100.ReducesTo [0, 1] S_
  reducesTo_S100_S_d0 : S100.ReducesTo [0] S_
  shapeCasts_S_S1 : S_.ShapeCasts S1
  gather_S80x512x512_S100x1_S100x512x512_12_0_n_n_0_1_1512512_wf : GatherDims.WF S80x512x512 S100x1 S100x512x512 [1, 2] [0] [] [0] [] 1 ![1, 512, 512]

variable [Facts₀]

def gather_S80x512x512_S100x1_S100x512x512_12_0_n_n_0_1_1512512 : GatherDims S80x512x512 S100x1 S100x512x512 where
  offsetDims := [1, 2]
  collapsedSliceDims := [0]
  operandBatchingDims := []
  startIndicesBatchingDims := []
  startIndexMap := [0]
  indexVectorDim := 1
  sliceSizes := ![1, 512, 512]
  wf := gather_S80x512x512_S100x1_S100x512x512_12_0_n_n_0_1_1512512_wf

class Facts : Prop extends Facts₀ where

variable [Facts]
-- ==== Proof.KB.Base.lean ====
/-
  The surroundings of the one kernel region of the program.

  Before the launch the host clamps the class ids into [0, 79], sorts the clamped ids with their positions
  (the positions come back as a permutation of 0..99), reads the clamped ids through that permutation, sorts the
  permutation itself (which inverts it), and widens the boolean masks to 32-bit words.  The kernel region is handed
  two tables of words: the sorted ids and the sorting permutation.  After the region the host unpacks the three
  per-core slabs, reads them through the inverse permutation and computes the loss.

  This module names those two stretches of host lines, the contents of every buffer at the moment the region is
  entered, the two tables read off those contents, the pipeline pinned at the tables (under the hypothesis that
  every block the tables name lies inside its array), the staging memrefs at a grid point and each window's block
  of its array at a point.
-/
import proofs.«409015_j49709951484027_3_alg».proof.Proof.Gen.Kernel.Launch
import proofs.«409015_j49709951484027_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The host lines before the launch, stretch by stretch: two constants; the clamp; the first sort; the wrap of
    the permutation's words and the gather of the clamped ids through them; the second sort; the widened mask. -/
abbrev linesBefore : List (List (HloOp τ sig (Elt F))) :=
  [hostOps0, hostOps0_1, hostOps0_2, hostOps0_3, hostOps0_4, hostOps0_5]

/-- The host lines after the launch, stretch by stretch. -/
abbrev linesAfter : List (List (HloOp τ sig (Elt F))) :=
  [hostOps1, hostOps1_1, hostOps1_2, hostOps1_3, hostOps1_4, hostOps1_5, hostOps1_6, hostOps1_7, hostOps1_8,
    hostOps1_9, hostOps1_10]

/-- Core `c`'s buffer contents when the region is entered: the launch memory after the lines before it. -/
abbrev atEntry0 (c : Dev nD) : Valuation τ sig (Elt F) :=
  StableHlo.after (linesBefore (F := F)).flatten (fun b => m (c, b))

/-- The same, read at a TensorCore reference. -/
abbrev atEntry (c : Dev nD) (b : Ref sig .tc) : Buf (Elt F) ((c : Thread nD τ).loc b) :=
  atEntry0 m c (Proc.devRef .tc b)

/-- The two tables the region is handed: the sorted class ids and the sorting permutation, as the region finds
    them (there is one device). -/
def tables : pre0.Contents (Elt F) := fun j => atEntry m (0 : Dev nD) (pre0.ref j)

/-- On every device the tables' buffers hold those contents. -/
theorem atEntry_table (c : Dev nD) (j : Fin 2) : atEntry m c (pre0.ref j) = tables m j := by
  obtain rfl : c = 0 := Subsingleton.elim _ _; rfl

/-- Every block a table names lies inside its array: block `tables 0 [50 c + j]` inside the 80 class maps and block
    `tables 1 [50 c + j]` inside the 100 masks, at every grid point. -/
abbrev InRange : Prop := ok0 (F := F) (tables m)

/-- The tables as admissible contents, and the pipeline pinned at them. -/
abbrev admAt (h : InRange m) : (pcfg0 (F := F)).Adm := ⟨tables m, h⟩
abbrev pipeAt (h : InRange m) : Pipeline.Cfg sig Λ₀ := cfg0 (admAt m h)

/-- The current staging memref of each window at point `t`, and its wholeness: the class map, the mask, and the
    three per-core slabs (counts, sums, sums of squares). -/
abbrev stg0 (h : InRange m) (t : Fin (pipeAt m h).N) : Memref sig .tc .vmem S1x512x512 .f32 := spec0_0.stage ((pipeAt m h).slots t 0)
abbrev stg0_whole (h : InRange m) (t : Fin (pipeAt m h).N) : (stg0 m h t).IsWhole := hstage0_0 (((pipeAt m h).slots t 0).cast nbuf0_0)
abbrev stg1 (h : InRange m) (t : Fin (pipeAt m h).N) : Memref sig .tc .vmem S1x512x512 .i32 := spec0_1.stage ((pipeAt m h).slots t 1)
abbrev stg1_whole (h : InRange m) (t : Fin (pipeAt m h).N) : (stg1 m h t).IsWhole := hstage0_1 (((pipeAt m h).slots t 1).cast nbuf0_1)
abbrev stg2 (h : InRange m) (t : Fin (pipeAt m h).N) : Memref sig .tc .vmem S1x8x128 .f32 := spec0_2.stage ((pipeAt m h).slots t 2)
abbrev stg2_whole (h : InRange m) (t : Fin (pipeAt m h).N) : (stg2 m h t).IsWhole := hstage0_2 (((pipeAt m h).slots t 2).cast nbuf0_2)
abbrev stg3 (h : InRange m) (t : Fin (pipeAt m h).N) : Memref sig .tc .vmem S1x8x128 .f32 := spec0_3.stage ((pipeAt m h).slots t 3)
abbrev stg3_whole (h : InRange m) (t : Fin (pipeAt m h).N) : (stg3 m h t).IsWhole := hstage0_3 (((pipeAt m h).slots t 3).cast nbuf0_3)
abbrev stg4 (h : InRange m) (t : Fin (pipeAt m h).N) : Memref sig .tc .vmem S1x8x128 .f32 := spec0_4.stage ((pipeAt m h).slots t 4)
abbrev stg4_whole (h : InRange m) (t : Fin (pipeAt m h).N) : (stg4 m h t).IsWhole := hstage0_4 (((pipeAt m h).slots t 4).cast nbuf0_4)

/-- The kernel body as the pipeline calls it at point `t`: at the point's coordinates, on the two table buffers and
    the five current staging memrefs. -/
abbrev bodyAt (h : InRange m) (t : Fin (pipeAt m h).N) : Prog (TpuEff nD τ sig (Elt F) Λ₀ .tc) PUnit :=
  cc0__reduce_kernel (grid0.coords t) (Memref.whole main_v8) (Memref.isWhole_whole _) (Memref.whole main_v1) (Memref.isWhole_whole _)
    (stg0 m h t) (stg0_whole m h t) (stg1 m h t) (stg1_whole m h t) (stg2 m h t) (stg2_whole m h t)
    (stg3 m h t) (stg3_whole m h t) (stg4 m h t) (stg4_whole m h t)

/-- Window `w`'s block at point `t`, read off its array as the region finds it; for the class maps and the masks
    the block's position is a word of a table. -/
def blockAt (h : InRange m) (c : Dev nD) (w : Fin (pipeAt m h).W) (t : Fin (pipeAt m h).N) :
    (((pipeAt m h).win w).xblock ((pipeAt m h).grid.coords t)).Idx → Elt F ((pipeAt m h).win w).elt :=
  (((pipeAt m h).win w).blk t).view.read (Elt F) (atEntry m c (Pipeline.arrRef spec0 w))

/-- The first step of each core's half of the grid: the inner coordinate is zero.  There the body clears the three
    slabs before it adds. -/
abbrev atFirst (i : grid0.Coords) : Prop :=
  (Scalar.cmpi .ne (Scalar.extui (Scalar.cmpi .eq (BitVec.ofNat 32 (i 1).val) 0#32)) 0#32) = 1#1

/-- Over the hundred points: the first step of a half is a point whose number is a multiple of fifty. -/
theorem atFirst_iff : ∀ t : Fin grid0.N, atFirst (grid0.coords t) ↔ t.val % 50 = 0 := by decide +kernel

end Cert.Kernel.Hand

end
-- ==== Proof.KB.Runs.lean ====
/-
  The kernel body on any whole staging memrefs, in its two control cases.

  At the first step of a core's half of the grid (inner coordinate zero) the body first stores a vector of zeros into
  each of the three slabs, then loads the class map and the mask, and for each slab loads it back and stores
  slab + onehot(inner coordinate) · value, the three values being the count of set mask words, the masked sum and the
  masked sum of squares of the class map.  At a later step there is no clearing: each slab holds what the step before
  left, which is loaded and accumulated into.

  For each case this module gives: the lists of pieces the run leaves in the three slabs together with the body's
  triple (the lists are found by the run itself); the fact that each list covers the slab; the slab's contents after
  the run as one vector; and that vector as the payloads of the body's stores applied to the contents before.
-/
import proofs.«409015_j49709951484027_3_alg».proof.Proof.KB.Base
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The pieces a run leaves in one slab. -/
abbrev Pieces (F : FTy → Type) [FloatOps F] : Type := List (View.Piece (Elt F) S1x8x128 .f32)

/-- One view of a slab's shape, through which what a run leaves is read back. -/
abbrev slabView : View sig .tc .vmem S1x8x128 .f32 := (Memref.whole cc0_stg2_0 : Memref sig .tc .vmem S1x8x128 .f32).view

set_option maxHeartbeats 1000000 in
/-- THE FIRST step of a core's half (inner coordinate zero).  The slabs hold anything; the body stores zeros into
    each, loads the class map and the mask, then loads each slab back and stores it updated.  The value is the three
    lists of pieces the stores leave (last first), with the triple: holding the class map at `x4`, the mask at
    `x5`, each slab at some contents, and a continuation that accepts the two inputs as they were and each slab with
    its pieces written, the body runs to that continuation. -/
noncomputable def runFirst (c : Dev nD) (i : grid0.Coords)
    (arg2 : Memref sig .tc .smem S100 .i32) (harg2 : arg2.IsWhole) (arg3 : Memref sig .tc .smem S100 .i32) (harg3 : arg3.IsWhole)
    (arg4 : Memref sig .tc .vmem S1x512x512 .f32) (harg4 : arg4.IsWhole) (arg5 : Memref sig .tc .vmem S1x512x512 .i32) (harg5 : arg5.IsWhole)
    (arg6 : Memref sig .tc .vmem S1x8x128 .f32) (harg6 : arg6.IsWhole) (arg7 : Memref sig .tc .vmem S1x8x128 .f32) (harg7 : arg7.IsWhole)
    (arg8 : Memref sig .tc .vmem S1x8x128 .f32) (harg8 : arg8.IsWhole)
    (hc : atFirst i) (x4 : Vec F S1x512x512 .f32) (x5 : Vec F S1x512x512 .i32) :
    { L : Pieces F × Pieces F × Pieces F //
      ∀ (E : Set ℕ) (K : PUnit → sProp 𝕄),
        iprop(owns (c : Thread nD τ) arg4 fullShare x4 ∗ owns (c : Thread nD τ) arg5 fullShare x5
            ∗ (∃ f, owns (c : Thread nD τ) arg6 fullShare f) ∗ (∃ f, owns (c : Thread nD τ) arg7 fullShare f)
            ∗ (∃ f, owns (c : Thread nD τ) arg8 fullShare f)
            ∗ (iprop(owns (c : Thread nD τ) arg4 fullShare x4 ∗ owns (c : Thread nD τ) arg5 fullShare x5
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2.1)
                ∗ (∃ f, arg8.view.loc (c : Thread nD τ) ↦[arg8.view.set]{fullShare} arg8.view.writes (Elt F) f L.2.2)) -∗ K ⟨⟩))
          ⊢ wp frame (wpE (defs₀ (F := F)) Variants.none c none) E
              (cc0__reduce_kernel i arg2 harg2 arg3 harg3 arg4 harg4 arg5 harg5 arg6 harg6 arg7 harg7 arg8 harg8) K } := by
  refine ⟨(?_, ?_, ?_), fun E K => ?run⟩
  case run =>
    simp only [cc0__reduce_kernel_eq_skeleton]; unfold cc0__reduce_kernel_skel
    unfold owns
    iintro ⟨⟨%f4, %hf4, H4⟩, ⟨%f5, %hf5, H5⟩, ⟨%d6, %f6, -, H6⟩, ⟨%d7, %f7, -, H7⟩, ⟨%d8, %f8, -, H8⟩, Hk⟩
    obtain rfl := harg4.eq_unread hf4; obtain rfl := harg5.eq_unread hf5
    sl_exec (disch := first | exact hc)
    sl_step
    iapply Hk
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

set_option maxHeartbeats 1000000 in
/-- A LATER step (inner coordinate not zero).  The three slabs hold running contents `xo6 xo7 xo8`; there is no
    clearing: the body loads the class map and the mask, loads each slab and stores it back updated.  The value is
    the three lists of pieces the stores leave, with the triple: holding the class map at `x4`, the mask at `x5`,
    the slabs at their running contents, and a continuation as in the first case, the body runs to it. -/
noncomputable def runLater (c : Dev nD) (i : grid0.Coords)
    (arg2 : Memref sig .tc .smem S100 .i32) (harg2 : arg2.IsWhole) (arg3 : Memref sig .tc .smem S100 .i32) (harg3 : arg3.IsWhole)
    (arg4 : Memref sig .tc .vmem S1x512x512 .f32) (harg4 : arg4.IsWhole) (arg5 : Memref sig .tc .vmem S1x512x512 .i32) (harg5 : arg5.IsWhole)
    (arg6 : Memref sig .tc .vmem S1x8x128 .f32) (harg6 : arg6.IsWhole) (arg7 : Memref sig .tc .vmem S1x8x128 .f32) (harg7 : arg7.IsWhole)
    (arg8 : Memref sig .tc .vmem S1x8x128 .f32) (harg8 : arg8.IsWhole)
    (hc : ¬ atFirst i) (x4 : Vec F S1x512x512 .f32) (x5 : Vec F S1x512x512 .i32)
    (xo6 xo7 xo8 : Vec F S1x8x128 .f32) :
    { L : Pieces F × Pieces F × Pieces F //
      ∀ (E : Set ℕ) (K : PUnit → sProp 𝕄),
        iprop(owns (c : Thread nD τ) arg4 fullShare x4 ∗ owns (c : Thread nD τ) arg5 fullShare x5
            ∗ owns (c : Thread nD τ) arg6 fullShare xo6 ∗ owns (c : Thread nD τ) arg7 fullShare xo7
            ∗ owns (c : Thread nD τ) arg8 fullShare xo8
            ∗ (iprop(owns (c : Thread nD τ) arg4 fullShare x4 ∗ owns (c : Thread nD τ) arg5 fullShare x5
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2.1)
                ∗ (∃ f, arg8.view.loc (c : Thread nD τ) ↦[arg8.view.set]{fullShare} arg8.view.writes (Elt F) f L.2.2)) -∗ K ⟨⟩))
          ⊢ wp frame (wpE (defs₀ (F := F)) Variants.none c none) E
              (cc0__reduce_kernel i arg2 harg2 arg3 harg3 arg4 harg4 arg5 harg5 arg6 harg6 arg7 harg7 arg8 harg8) K } := by
  refine ⟨(?_, ?_, ?_), fun E K => ?run⟩
  case run =>
    simp only [cc0__reduce_kernel_eq_skeleton]; unfold cc0__reduce_kernel_skel
    unfold owns
    iintro ⟨⟨%f4, %hf4, H4⟩, ⟨%f5, %hf5, H5⟩, ⟨%f6, %hf6, H6⟩, ⟨%f7, %hf7, H7⟩, ⟨%f8, %hf8, H8⟩, Hk⟩
    obtain rfl := harg4.eq_unread hf4; obtain rfl := harg5.eq_unread hf5
    obtain rfl := harg6.eq_unread hf6; obtain rfl := harg7.eq_unread hf7; obtain rfl := harg8.eq_unread hf8
    sl_exec (disch := first | exact hc)
    sl_step
    iapply Hk
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

section Left

variable (c : Dev nD) (i : grid0.Coords)
  (arg2 : Memref sig .tc .smem S100 .i32) (harg2 : arg2.IsWhole) (arg3 : Memref sig .tc .smem S100 .i32) (harg3 : arg3.IsWhole)
  (arg4 : Memref sig .tc .vmem S1x512x512 .f32) (harg4 : arg4.IsWhole) (arg5 : Memref sig .tc .vmem S1x512x512 .i32) (harg5 : arg5.IsWhole)
  (arg6 : Memref sig .tc .vmem S1x8x128 .f32) (harg6 : arg6.IsWhole) (arg7 : Memref sig .tc .vmem S1x8x128 .f32) (harg7 : arg7.IsWhole)
  (arg8 : Memref sig .tc .vmem S1x8x128 .f32) (harg8 : arg8.IsWhole)

/-! ## The pieces cover

In either case every store into a slab is through the rectangle of the whole slab, so each slab's pieces tile it and
every index of the slab lies in some piece. -/

/-- Every index of the slab of counts lies in a piece the first-step run leaves there. -/
theorem runFirst_cover6 (hc : atFirst i) (x4 : Vec F S1x512x512 .f32) (x5 : Vec F S1x512x512 .i32) (y : S1x8x128.Idx) :
    ∃ pc ∈ (runFirst c i arg2 harg2 arg3 harg3 arg4 harg4 arg5 harg5 arg6 harg6 arg7 harg7 arg8 harg8 hc x4 x5).1.1, y ∈ pc.1.set :=
  View.cover_of_tiledL (runFirst c i arg2 harg2 arg3 harg3 arg4 harg4 arg5 harg5 arg6 harg6 arg7 harg7 arg8 harg8 hc x4 x5).1.1 S1x8x128.size (by sl_kernel_rfl) y

/-- Every index of the slab of sums lies in a piece the first-step run leaves there. -/
theorem runFirst_cover7 (hc : atFirst i) (x4 : Vec F S1x512x512 .f32) (x5 : Vec F S1x512x512 .i32) (y : S1x8x128.Idx) :
    ∃ pc ∈ (runFirst c i arg2 harg2 arg3 harg3 arg4 harg4 arg5 harg5 arg6 harg6 arg7 harg7 arg8 harg8 hc x4 x5).1.2.1, y ∈ pc.1.set :=
  View.cover_of_tiledL (runFirst c i arg2 harg2 arg3 harg3 arg4 harg4 arg5 harg5 arg6 harg6 arg7 harg7 arg8 harg8 hc x4 x5).1.2.1 S1x8x128.size (by sl_kernel_rfl) y

/-- Every index of the slab of sums of squares lies in a piece the first-step run leaves there. -/
theorem runFirst_cover8 (hc : atFirst i) (x4 : Vec F S1x512x512 .f32) (x5 : Vec F S1x512x512 .i32) (y : S1x8x128.Idx) :
    ∃ pc ∈ (runFirst c i arg2 harg2 arg3 harg3 arg4 harg4 arg5 harg5 arg6 harg6 arg7 harg7 arg8 harg8 hc x4 x5).1.2.2, y ∈ pc.1.set :=
  View.cover_of_tiledL (runFirst c i arg2 harg2 arg3 harg3 arg4 harg4 arg5 harg5 arg6 harg6 arg7 harg7 arg8 harg8 hc x4 x5).1.2.2 S1x8x128.size (by sl_kernel_rfl) y

/-- Every index of the slab of counts lies in a piece a later-step run leaves there. -/
theorem runLater_cover6 (hc : ¬ atFirst i) (x4 : Vec F S1x512x512 .f32) (x5 : Vec F S1x512x512 .i32) (xo6 xo7 xo8 : Vec F S1x8x128 .f32) (y : S1x8x128.Idx) :
    ∃ pc ∈ (runLater c i arg2 harg2 arg3 harg3 arg4 harg4 arg5 harg5 arg6 harg6 arg7 harg7 arg8 harg8 hc x4 x5 xo6 xo7 xo8).1.1, y ∈ pc.1.set :=
  View.cover_of_tiledL (runLater c i arg2 harg2 arg3 harg3 arg4 harg4 arg5 harg5 arg6 harg6 arg7 harg7 arg8 harg8 hc x4 x5 xo6 xo7 xo8).1.1 S1x8x128.size (by sl_kernel_rfl) y

/-- Every index of the slab of sums lies in a piece a later-step run leaves there. -/
theorem runLater_cover7 (hc : ¬ atFirst i) (x4 : Vec F S1x512x512 .f32) (x5 : Vec F S1x512x512 .i32) (xo6 xo7 xo8 : Vec F S1x8x128 .f32) (y : S1x8x128.Idx) :
    ∃ pc ∈ (runLater c i arg2 harg2 arg3 harg3 arg4 harg4 arg5 harg5 arg6 harg6 arg7 harg7 arg8 harg8 hc x4 x5 xo6 xo7 xo8).1.2.1, y ∈ pc.1.set :=
  View.cover_of_tiledL (runLater c i arg2 harg2 arg3 harg3 arg4 harg4 arg5 harg5 arg6 harg6 arg7 harg7 arg8 harg8 hc x4 x5 xo6 xo7 xo8).1.2.1 S1x8x128.size (by sl_kernel_rfl) y

/-- Every index of the slab of sums of squares lies in a piece a later-step run leaves there. -/
theorem runLater_cover8 (hc : ¬ atFirst i) (x4 : Vec F S1x512x512 .f32) (x5 : Vec F S1x512x512 .i32) (xo6 xo7 xo8 : Vec F S1x8x128 .f32) (y : S1x8x128.Idx) :
    ∃ pc ∈ (runLater c i arg2 harg2 arg3 harg3 arg4 harg4 arg5 harg5 arg6 harg6 arg7 harg7 arg8 harg8 hc x4 x5 xo6 xo7 xo8).1.2.2, y ∈ pc.1.set :=
  View.cover_of_tiledL (runLater c i arg2 harg2 arg3 harg3 arg4 harg4 arg5 harg5 arg6 harg6 arg7 harg7 arg8 harg8 hc x4 x5 xo6 xo7 xo8).1.2.2 S1x8x128.size (by sl_kernel_rfl) y

/-! ## What each case leaves in each slab

A slab's contents after a run: its pieces written over junk and read back through the one fixed view (the pieces
cover, so neither the view nor the contents before matter). -/

/-- What the first-step run leaves in the slab of counts: its pieces read back. -/
def leftFirst6 (hc : atFirst i) (x4 : Vec F S1x512x512 .f32) (x5 : Vec F S1x512x512 .i32) : Vec F S1x8x128 .f32 :=
  slabView.read (Elt F) (slabView.writes (Elt F) slabView.junk (runFirst c i arg2 harg2 arg3 harg3 arg4 harg4 arg5 harg5 arg6 harg6 arg7 harg7 arg8 harg8 hc x4 x5).1.1)

/-- What the first-step run leaves in the slab of sums: its pieces read back. -/
def leftFirst7 (hc : atFirst i) (x4 : Vec F S1x512x512 .f32) (x5 : Vec F S1x512x512 .i32) : Vec F S1x8x128 .f32 :=
  slabView.read (Elt F) (slabView.writes (Elt F) slabView.junk (runFirst c i arg2 harg2 arg3 harg3 arg4 harg4 arg5 harg5 arg6 harg6 arg7 harg7 arg8 harg8 hc x4 x5).1.2.1)

/-- What the first-step run leaves in the slab of sums of squares: its pieces read back. -/
def leftFirst8 (hc : atFirst i) (x4 : Vec F S1x512x512 .f32) (x5 : Vec F S1x512x512 .i32) : Vec F S1x8x128 .f32 :=
  slabView.read (Elt F) (slabView.writes (Elt F) slabView.junk (runFirst c i arg2 harg2 arg3 harg3 arg4 harg4 arg5 harg5 arg6 harg6 arg7 harg7 arg8 harg8 hc x4 x5).1.2.2)

/-- What a later-step run leaves in the slab of counts: its pieces read back. -/
def leftLater6 (hc : ¬ atFirst i) (x4 : Vec F S1x512x512 .f32) (x5 : Vec F S1x512x512 .i32) (xo6 xo7 xo8 : Vec F S1x8x128 .f32) : Vec F S1x8x128 .f32 :=
  slabView.read (Elt F) (slabView.writes (Elt F) slabView.junk (runLater c i arg2 harg2 arg3 harg3 arg4 harg4 arg5 harg5 arg6 harg6 arg7 harg7 arg8 harg8 hc x4 x5 xo6 xo7 xo8).1.1)

/-- What a later-step run leaves in the slab of sums: its pieces read back. -/
def leftLater7 (hc : ¬ atFirst i) (x4 : Vec F S1x512x512 .f32) (x5 : Vec F S1x512x512 .i32) (xo6 xo7 xo8 : Vec F S1x8x128 .f32) : Vec F S1x8x128 .f32 :=
  slabView.read (Elt F) (slabView.writes (Elt F) slabView.junk (runLater c i arg2 harg2 arg3 harg3 arg4 harg4 arg5 harg5 arg6 harg6 arg7 harg7 arg8 harg8 hc x4 x5 xo6 xo7 xo8).1.2.1)

/-- What a later-step run leaves in the slab of sums of squares: its pieces read back. -/
def leftLater8 (hc : ¬ atFirst i) (x4 : Vec F S1x512x512 .f32) (x5 : Vec F S1x512x512 .i32) (xo6 xo7 xo8 : Vec F S1x8x128 .f32) : Vec F S1x8x128 .f32 :=
  slabView.read (Elt F) (slabView.writes (Elt F) slabView.junk (runLater c i arg2 harg2 arg3 harg3 arg4 harg4 arg5 harg5 arg6 harg6 arg7 harg7 arg8 harg8 hc x4 x5 xo6 xo7 xo8).1.2.2)

/-! ## The values

Each slab ends as the payload of its last store, which covers the slab: the slab's contents before that store (what
was loaded from it) plus, at the position of the inner coordinate, the value reduced from the class map and the mask.
At a later step the contents before are the running contents; at the first step they are the zeros just stored, which
the load after the clearing store reads back. -/

/-- The zero offsets of a whole-buffer rectangle of rank three, as a function. -/
theorem zeroOff : (![0, 0, 0] : Fin 3 → ℕ) = fun _ => 0 := by
  funext a; fin_cases a <;> rfl

set_option maxHeartbeats 400000 in
/-- A later step leaves in the slab of counts its running contents with the number of set mask words added at the inner coordinate's position. -/
theorem leftLater6_eq (hc : ¬ atFirst i) (x4 : Vec F S1x512x512 .f32) (x5 : Vec F S1x512x512 .i32) (xo6 xo7 xo8 : Vec F S1x8x128 .f32) :
    leftLater6 c i arg2 harg2 arg3 harg3 arg4 harg4 arg5 harg5 arg6 harg6 arg7 harg7 arg8 harg8 hc x4 x5 xo6 xo7 xo8 = k0_pay1 (k0_pay12 i) (k0_pay13 xo6) (Scalar.ofBits .f32 0x00000000#32) (k0_pay14 x5) := by
  unfold leftLater6
  rw [View.read_writes_eq_canon _ _ _ (runLater_cover6 c i arg2 harg2 arg3 harg3 arg4 harg4 arg5 harg5 arg6 harg6 arg7 harg7 arg8 harg8 hc x4 x5 xo6 xo7 xo8)]
  unfold runLater
  dsimp only
  sl_unfold_words
  rw [View.canon_unit_zero (S := S1x8x128) zeroOff]
  simp only [View.readAt_eq_ld, harg4.read_unread, harg5.read_unread, harg6.read_unread, harg7.read_unread, harg8.read_unread,
    View.ld_unit_zero (S := S1x8x128) zeroOff, View.ld_unit_zero (S := S1x512x512) zeroOff]

set_option maxHeartbeats 400000 in
/-- A later step leaves in the slab of sums its running contents with the masked sum of the class map added at the inner coordinate's position. -/
theorem leftLater7_eq (hc : ¬ atFirst i) (x4 : Vec F S1x512x512 .f32) (x5 : Vec F S1x512x512 .i32) (xo6 xo7 xo8 : Vec F S1x8x128 .f32) :
    leftLater7 c i arg2 harg2 arg3 harg3 arg4 harg4 arg5 harg5 arg6 harg6 arg7 harg7 arg8 harg8 hc x4 x5 xo6 xo7 xo8 = k0_pay2 (k0_pay10 x4 x5) (k0_pay12 i) xo7 := by
  unfold leftLater7
  rw [View.read_writes_eq_canon _ _ _ (runLater_cover7 c i arg2 harg2 arg3 harg3 arg4 harg4 arg5 harg5 arg6 harg6 arg7 harg7 arg8 harg8 hc x4 x5 xo6 xo7 xo8)]
  unfold runLater
  dsimp only
  sl_unfold_words
  rw [View.canon_unit_zero (S := S1x8x128) zeroOff]
  simp only [View.readAt_eq_ld, harg4.read_unread, harg5.read_unread, harg6.read_unread, harg7.read_unread, harg8.read_unread,
    View.ld_unit_zero (S := S1x8x128) zeroOff, View.ld_unit_zero (S := S1x512x512) zeroOff]

set_option maxHeartbeats 400000 in
/-- A later step leaves in the slab of sums of squares its running contents with the masked sum of squares of the class map added at the inner coordinate's position. -/
theorem leftLater8_eq (hc : ¬ atFirst i) (x4 : Vec F S1x512x512 .f32) (x5 : Vec F S1x512x512 .i32) (xo6 xo7 xo8 : Vec F S1x8x128 .f32) :
    leftLater8 c i arg2 harg2 arg3 harg3 arg4 harg4 arg5 harg5 arg6 harg6 arg7 harg7 arg8 harg8 hc x4 x5 xo6 xo7 xo8 = k0_pay3 (k0_pay11 x4 x5) (k0_pay12 i) xo8 := by
  unfold leftLater8
  rw [View.read_writes_eq_canon _ _ _ (runLater_cover8 c i arg2 harg2 arg3 harg3 arg4 harg4 arg5 harg5 arg6 harg6 arg7 harg7 arg8 harg8 hc x4 x5 xo6 xo7 xo8)]
  unfold runLater
  dsimp only
  sl_unfold_words
  rw [View.canon_unit_zero (S := S1x8x128) zeroOff]
  simp only [View.readAt_eq_ld, harg4.read_unread, harg5.read_unread, harg6.read_unread, harg7.read_unread, harg8.read_unread,
    View.ld_unit_zero (S := S1x8x128) zeroOff, View.ld_unit_zero (S := S1x512x512) zeroOff]

set_option maxHeartbeats 400000 in
/-- The first step leaves in the slab of counts the zero vector with the number of set mask words added at the inner coordinate's position. -/
theorem leftFirst6_eq (hc : atFirst i) (x4 : Vec F S1x512x512 .f32) (x5 : Vec F S1x512x512 .i32) :
    leftFirst6 c i arg2 harg2 arg3 harg3 arg4 harg4 arg5 harg5 arg6 harg6 arg7 harg7 arg8 harg8 hc x4 x5 = k0_pay1 (k0_pay12 i) (k0_pay13 (k0_pay4 (F := F))) (Scalar.ofBits .f32 0x00000000#32) (k0_pay14 x5) := by
  unfold leftFirst6
  rw [View.read_writes_eq_canon _ _ _ (runFirst_cover6 c i arg2 harg2 arg3 harg3 arg4 harg4 arg5 harg5 arg6 harg6 arg7 harg7 arg8 harg8 hc x4 x5)]
  unfold runFirst
  dsimp only
  sl_unfold_words
  rw [View.canon_cons_unit_zero (S := S1x8x128) zeroOff]
  simp only [View.readCov_unit_zero (S := S1x8x128) _ zeroOff, View.readAt_eq_ld, harg4.read_unread, harg5.read_unread, harg6.read_unread, harg7.read_unread, harg8.read_unread,
    View.ld_unit_zero (S := S1x8x128) zeroOff, View.ld_unit_zero (S := S1x512x512) zeroOff]

set_option maxHeartbeats 400000 in
/-- The first step leaves in the slab of sums the zero vector with the masked sum of the class map added at the inner coordinate's position. -/
theorem leftFirst7_eq (hc : atFirst i) (x4 : Vec F S1x512x512 .f32) (x5 : Vec F S1x512x512 .i32) :
    leftFirst7 c i arg2 harg2 arg3 harg3 arg4 harg4 arg5 harg5 arg6 harg6 arg7 harg7 arg8 harg8 hc x4 x5 = k0_pay2 (k0_pay10 x4 x5) (k0_pay12 i) (k0_pay5 (F := F)) := by
  unfold leftFirst7
  rw [View.read_writes_eq_canon _ _ _ (runFirst_cover7 c i arg2 harg2 arg3 harg3 arg4 harg4 arg5 harg5 arg6 harg6 arg7 harg7 arg8 harg8 hc x4 x5)]
  unfold runFirst
  dsimp only
  sl_unfold_words
  rw [View.canon_cons_unit_zero (S := S1x8x128) zeroOff]
  simp only [View.readCov_unit_zero (S := S1x8x128) _ zeroOff, View.readAt_eq_ld, harg4.read_unread, harg5.read_unread, harg6.read_unread, harg7.read_unread, harg8.read_unread,
    View.ld_unit_zero (S := S1x8x128) zeroOff, View.ld_unit_zero (S := S1x512x512) zeroOff]

set_option maxHeartbeats 400000 in
/-- The first step leaves in the slab of sums of squares the zero vector with the masked sum of squares of the class map added at the inner coordinate's position. -/
theorem leftFirst8_eq (hc : atFirst i) (x4 : Vec F S1x512x512 .f32) (x5 : Vec F S1x512x512 .i32) :
    leftFirst8 c i arg2 harg2 arg3 harg3 arg4 harg4 arg5 harg5 arg6 harg6 arg7 harg7 arg8 harg8 hc x4 x5 = k0_pay3 (k0_pay11 x4 x5) (k0_pay12 i) (k0_pay6 (F := F)) := by
  unfold leftFirst8
  rw [View.read_writes_eq_canon _ _ _ (runFirst_cover8 c i arg2 harg2 arg3 harg3 arg4 harg4 arg5 harg5 arg6 harg6 arg7 harg7 arg8 harg8 hc x4 x5)]
  unfold runFirst
  dsimp only
  sl_unfold_words
  rw [View.canon_cons_unit_zero (S := S1x8x128) zeroOff]
  simp only [View.readCov_unit_zero (S := S1x8x128) _ zeroOff, View.readAt_eq_ld, harg4.read_unread, harg5.read_unread, harg6.read_unread, harg7.read_unread, harg8.read_unread,
    View.ld_unit_zero (S := S1x8x128) zeroOff, View.ld_unit_zero (S := S1x512x512) zeroOff]

end Left

end Cert.Kernel.Hand

end
-- ==== Proof.KB.Data.lean ====
/-
  What the three per-core slabs hold point by point, and the proof data of the one pipeline.

  The grid has two halves of fifty steps.  At the first step of a half the body clears the three slabs and adds
  the step's count, sum and sum of squares at position 0; at step j > 0 it adds them at position j to what the
  step before left.  The slabs' block does not move within a half, so the pipeline writes it back only after the
  half's last step, and between two steps of a half each slab's staging buffer still holds what the earlier step
  left.  The class-map and mask blocks are inputs the body only reads.
-/
import proofs.«409015_j49709951484027_3_alg».proof.Proof.KB.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## When a slab is written back -/

/-- A slab's block is indexed by the core coordinate alone, so it is written back exactly after the last step of
    a half, whatever the tables hold. -/
theorem slab2_flush (a : (pcfg0 (F := F)).Adm) : ∀ t : Fin (cfg0 a).N, ((cfg0 a).win 2).flush t = true ↔ t.val % 50 = 49 :=
  (by decide +kernel : ∀ t : Fin grid0.N, Pipeline.Window.flushOf grid0 true cc0_transform_2 t = true ↔ t.val % 50 = 49)
theorem slab3_flush (a : (pcfg0 (F := F)).Adm) : ∀ t : Fin (cfg0 a).N, ((cfg0 a).win 3).flush t = true ↔ t.val % 50 = 49 :=
  (by decide +kernel : ∀ t : Fin grid0.N, Pipeline.Window.flushOf grid0 true cc0_transform_3 t = true ↔ t.val % 50 = 49)
theorem slab4_flush (a : (pcfg0 (F := F)).Adm) : ∀ t : Fin (cfg0 a).N, ((cfg0 a).win 4).flush t = true ↔ t.val % 50 = 49 :=
  (by decide +kernel : ∀ t : Fin grid0.N, Pipeline.Window.flushOf grid0 true cc0_transform_4 t = true ↔ t.val % 50 = 49)

/-! ## The slabs after each step -/

/-- The two table buffers as the body is handed them (it never loads from them). -/
abbrev tab0 : Memref sig .tc .smem S100 .i32 := Memref.whole main_v8
abbrev tab1 : Memref sig .tc .smem S100 .i32 := Memref.whole main_v1

/-- Three slabs' contents. -/
abbrev Slabs (F : FTy → Type) [FloatOps F] : Type := Vec F S1x8x128 .f32 × Vec F S1x8x128 .f32 × Vec F S1x8x128 .f32

section AtPoint

variable (h : InRange m) (c : Dev nD)

/-- The slabs after the body at a first step `t` of a half. -/
def firstAt (t : Fin (pipeAt m h).N) (hc : atFirst (grid0.coords t)) : Slabs F :=
  (leftFirst6 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t),
   leftFirst7 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t),
   leftFirst8 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t))

/-- The slabs after the body at a later step `t`, over what the step before left. -/
def laterAt (t : Fin (pipeAt m h).N) (hc : ¬ atFirst (grid0.coords t)) (prev : Slabs F) : Slabs F :=
  (leftLater6 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t) prev.1 prev.2.1 prev.2.2,
   leftLater7 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t) prev.1 prev.2.1 prev.2.2,
   leftLater8 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t) prev.1 prev.2.1 prev.2.2)

/-- THE ACCUMULATION: what the three slabs' staging buffers hold after the body at position `n`, by recursion on
    the position: a first step of a half starts afresh, a later one adds to what position `n - 1` left. -/
def slabsAt : (n : ℕ) → n < (pipeAt m h).N → Slabs F
  | 0, hn => firstAt m h c ⟨0, hn⟩ ((atFirst_iff ⟨0, hn⟩).mpr (Nat.zero_mod _))
  | n + 1, hn =>
    if h0 : (n + 1) % 50 = 0 then firstAt m h c ⟨n + 1, hn⟩ ((atFirst_iff ⟨n + 1, hn⟩).mpr h0)
    else laterAt m h c ⟨n + 1, hn⟩ (fun hh => h0 ((atFirst_iff ⟨n + 1, hn⟩).mp hh)) (slabsAt n (Nat.lt_of_succ_lt hn))

/-- At a first step: afresh. -/
theorem slabsAt_first (t : Fin (pipeAt m h).N) (h0 : t.val % 50 = 0) :
    slabsAt m h c t.val t.isLt = firstAt m h c t ((atFirst_iff t).mpr h0) := by
  obtain ⟨n, hn⟩ := t
  cases n with
  | zero => exact rfl
  | succ n => exact (dif_pos h0).trans rfl

/-- At a later step: over what the step before left. -/
theorem slabsAt_later (t : Fin (pipeAt m h).N) (h0 : ¬ t.val % 50 = 0) :
    slabsAt m h c t.val t.isLt
      = laterAt m h c t (fun hh => h0 ((atFirst_iff t).mp hh)) (slabsAt m h c (t.val - 1) (Nat.lt_of_le_of_lt (Nat.sub_le _ _) t.isLt)) := by
  obtain ⟨n, hn⟩ := t
  cases n with
  | zero => exact absurd (Nat.zero_mod _) h0
  | succ n => exact (dif_neg h0).trans rfl

/-! ## The proof data -/

/-- The proof data of the pipeline on core `c`: the arrays as the region finds them; after the body at a point the
    two inputs' buffers at their blocks and the slabs' at `slabsAt`; the invariant is the scoped rest with the
    generator register and the tables' halves; nothing owed; full shares. -/
def dat (_ : Fin 1) : Dat τ (Elt F) Unit ℕ (UR sig nD τ) ℕ (pipeAt m h) c where
  A w := atEntry m c (Pipeline.arrRef spec0 w)
  after w t := match w with
    | ⟨0, _⟩ => blockAt m h c 0 t
    | ⟨1, _⟩ => blockAt m h c 1 t
    | ⟨2, _⟩ => (slabsAt m h c t.val t.isLt).1
    | ⟨3, _⟩ => (slabsAt m h c t.val t.isLt).2.1
    | ⟨4, _⟩ => (slabsAt m h c t.val t.isLt).2.2
  Φ _ := iprop(Pipeline.ΦA spec0 c ∗ Pipeline.ΦT pre0 (tables m) c)
  q _ := fullShare
  owed _ := 0

theorem dat_A (w : Fin (pipeAt m h).W) : (dat m h c 0).A w = atEntry m c (Pipeline.arrRef spec0 w) := by
  dsimp only [dat]

theorem after_in0 (t : Fin (pipeAt m h).N) : (dat m h c 0).after 0 t = blockAt m h c 0 t := by dsimp only [dat]; rfl
theorem after_in1 (t : Fin (pipeAt m h).N) : (dat m h c 0).after 1 t = blockAt m h c 1 t := by dsimp only [dat]; rfl
theorem after_slab2 (t : Fin (pipeAt m h).N) : (dat m h c 0).after 2 t = (slabsAt m h c t.val t.isLt).1 := by dsimp only [dat]; rfl
theorem after_slab3 (t : Fin (pipeAt m h).N) : (dat m h c 0).after 3 t = (slabsAt m h c t.val t.isLt).2.1 := by dsimp only [dat]; rfl
theorem after_slab4 (t : Fin (pipeAt m h).N) : (dat m h c 0).after 4 t = (slabsAt m h c t.val t.isLt).2.2 := by dsimp only [dat]; rfl

end AtPoint

end Cert.Kernel.Hand

end
-- ==== Proof.KB.Body.lean ====
/-
  The body obligation of the one pipeline.

  At every grid point the body is handed the invariant, the two input blocks in their staging buffers and the
  three slabs' staging buffers at what the pipeline left there, and must hand back the same invariant, the inputs
  untouched and the slabs at `slabsAt`.  An input's buffer holds its block whether it was fetched at this point
  or is still there from the point before (consecutive equal words of a table fetch once).  A slab's buffer at a
  later step of a half holds what the step before left, because nothing writes it back inside a half.
-/
import proofs.«409015_j49709951484027_3_alg».proof.Proof.KB.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (h : InRange m) (c : Dev nD)

/-! ## What the buffers hold when the body starts -/

/-- The class-map block is in its buffer at every point, fetched there or kept from the point before. -/
theorem before_in0 (t : Fin (pipeAt m h).N) (d) : (dat m h c 0).before 0 t d = blockAt m h c 0 t :=
  ((dat m h c 0).before_in_eq_fetched 0 rfl (fun _ => rfl) (fun _ _ _ => rfl)
      (fun t => by rw [after_in0]; unfold Dat.blockOf blockAt; rw [dat_A]; try rfl) t d).trans
    (by unfold Dat.fetched Dat.blockOf blockAt; rw [dat_A]; try rfl)

/-- So is the mask block. -/
theorem before_in1 (t : Fin (pipeAt m h).N) (d) : (dat m h c 0).before 1 t d = blockAt m h c 1 t :=
  ((dat m h c 0).before_in_eq_fetched 1 rfl (fun _ => rfl) (fun _ _ _ => rfl)
      (fun t => by rw [after_in1]; unfold Dat.blockOf blockAt; rw [dat_A]; try rfl) t d).trans
    (by unfold Dat.fetched Dat.blockOf blockAt; rw [dat_A]; try rfl)

/-- The earlier position inside the grid. -/
theorem pred_lt (t : Fin (pipeAt m h).N) : t.val - 1 < (pipeAt m h).N := Nat.lt_of_le_of_lt (Nat.sub_le _ _) t.isLt

/-- At a later step of a half each slab's buffer holds what the step before left: the point is not the grid's first,
    and the point before is not a half's last, so nothing was written back in between. -/
theorem before_slab2 (t : Fin (pipeAt m h).N) (h0 : ¬ t.val % 50 = 0) (d) :
    (dat m h c 0).before 2 t d = (slabsAt m h c (t.val - 1) (pred_lt m h t)).1 := by
  have hN : t.val < 100 := lt_of_lt_of_eq t.isLt (show (pipeAt m h).N = 100 from N_0)
  rw [Dat.before_out_kept _ 2 rfl t (by omega)
    (Bool.eq_false_iff.mpr fun hf => by have := (slab2_flush (admAt m h) _).mp hf; dsimp only at this; omega)
    (fun _ => rfl) (fun _ _ => rfl)]
  exact after_slab2 m h c _
theorem before_slab3 (t : Fin (pipeAt m h).N) (h0 : ¬ t.val % 50 = 0) (d) :
    (dat m h c 0).before 3 t d = (slabsAt m h c (t.val - 1) (pred_lt m h t)).2.1 := by
  have hN : t.val < 100 := lt_of_lt_of_eq t.isLt (show (pipeAt m h).N = 100 from N_0)
  rw [Dat.before_out_kept _ 3 rfl t (by omega)
    (Bool.eq_false_iff.mpr fun hf => by have := (slab3_flush (admAt m h) _).mp hf; dsimp only at this; omega)
    (fun _ => rfl) (fun _ _ => rfl)]
  exact after_slab3 m h c _
theorem before_slab4 (t : Fin (pipeAt m h).N) (h0 : ¬ t.val % 50 = 0) (d) :
    (dat m h c 0).before 4 t d = (slabsAt m h c (t.val - 1) (pred_lt m h t)).2.2 := by
  have hN : t.val < 100 := lt_of_lt_of_eq t.isLt (show (pipeAt m h).N = 100 from N_0)
  rw [Dat.before_out_kept _ 4 rfl t (by omega)
    (Bool.eq_false_iff.mpr fun hf => by have := (slab4_flush (admAt m h) _).mp hf; dsimp only at this; omega)
    (fun _ => rfl) (fun _ _ => rfl)]
  exact after_slab4 m h c _

/-! ## The obligation at a generic point -/

/-- What the body is called with at point `t`, the five windows one by one, -/
def handedAt (t : Fin (pipeAt m h).N) : sProp 𝕄 :=
  iprop((dat m h c 0).Φ t.castSucc ∗ (dat m h c 0).owesAt () t.castSucc
    ∗ (∃ d, owns (c : Thread nD τ) (stg0 m h t) fullShare ((dat m h c 0).before 0 t d))
    ∗ (∃ d, owns (c : Thread nD τ) (stg1 m h t) fullShare ((dat m h c 0).before 1 t d))
    ∗ (∃ d, owns (c : Thread nD τ) (stg2 m h t) fullShare ((dat m h c 0).before 2 t d))
    ∗ (∃ d, owns (c : Thread nD τ) (stg3 m h t) fullShare ((dat m h c 0).before 3 t d))
    ∗ (∃ d, owns (c : Thread nD τ) (stg4 m h t) fullShare ((dat m h c 0).before 4 t d)))

/-- and what it hands back. -/
def returnedAt (t : Fin (pipeAt m h).N) : sProp 𝕄 :=
  iprop((dat m h c 0).Φ t.succ ∗ (dat m h c 0).owesAt () t.succ
    ∗ owns (c : Thread nD τ) (stg0 m h t) fullShare ((dat m h c 0).after 0 t)
    ∗ owns (c : Thread nD τ) (stg1 m h t) fullShare ((dat m h c 0).after 1 t)
    ∗ owns (c : Thread nD τ) (stg2 m h t) fullShare ((dat m h c 0).after 2 t)
    ∗ owns (c : Thread nD τ) (stg3 m h t) fullShare ((dat m h c 0).after 3 t)
    ∗ owns (c : Thread nD τ) (stg4 m h t) fullShare ((dat m h c 0).after 4 t))

set_option maxHeartbeats 1600000 in
/-- The body at any point: the inputs' buffers hold their blocks; the point's number says which case it is in; at
    a later step the slabs hold what the step before left; so the case's run applies; the invariant passes through
    unread and nothing is owed. -/
theorem body_at (t : Fin (pipeAt m h).N) :
    handedAt m h c t ⊢ wp frame (wpE (defs₀ (F := F)) Variants.none c none) Set.univ (bodyAt m h t) (fun _ => returnedAt m h c t) := by
  unfold handedAt returnedAt bodyAt
  simp only [before_in0, before_in1]
  rw [show (dat m h c 0).Φ t.succ = (dat m h c 0).Φ t.castSucc from rfl,
    show (dat m h c 0).owesAt () t.succ = (dat m h c 0).owesAt () t.castSucc from rfl,
    after_in0, after_in1, after_slab2, after_slab3, after_slab4]
  by_cases h0 : t.val % 50 = 0
  · rw [slabsAt_first m h c t h0]
    unfold firstAt
    dsimp only
    unfold leftFirst6 leftFirst7 leftFirst8
    iintro ⟨HΦ, Ho, ⟨%d0, H0⟩, ⟨%d1, H1⟩, ⟨%d2, H2⟩, ⟨%d3, H3⟩, ⟨%d4, H4⟩⟩
    iapply ((runFirst c (grid0.coords t) tab0 (Memref.isWhole_whole _) tab1 (Memref.isWhole_whole _) (stg0 m h t) (stg0_whole m h t) (stg1 m h t) (stg1_whole m h t) (stg2 m h t) (stg2_whole m h t) (stg3 m h t) (stg3_whole m h t) (stg4 m h t) (stg4_whole m h t) ((atFirst_iff t).mpr h0) (blockAt m h c 0 t) (blockAt m h c 1 t)).2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (runFirst_cover6 c _ _ _ _ _ _ _ _ _ _ _ _ _ _ _ _ _ _)
    isplitl [H3]
    · unfold owns; iexists _; isplitr
      swap; · iexact H3
      ipureintro; exact View.read_writes_of_cover _ _ _ _ _ (runFirst_cover7 c _ _ _ _ _ _ _ _ _ _ _ _ _ _ _ _ _ _)
    unfold owns; iexists _; isplitr
    swap; · iexact H4
    ipureintro; exact View.read_writes_of_cover _ _ _ _ _ (runFirst_cover8 c _ _ _ _ _ _ _ _ _ _ _ _ _ _ _ _ _ _)
  · rw [slabsAt_later m h c t h0]
    simp only [before_slab2 m h c t h0, before_slab3 m h c t h0, before_slab4 m h c t h0]
    unfold laterAt
    dsimp only
    unfold leftLater6 leftLater7 leftLater8
    iintro ⟨HΦ, Ho, ⟨%d0, H0⟩, ⟨%d1, H1⟩, ⟨%d2, H2⟩, ⟨%d3, H3⟩, ⟨%d4, H4⟩⟩
    iapply ((runLater c (grid0.coords t) tab0 (Memref.isWhole_whole _) tab1 (Memref.isWhole_whole _) (stg0 m h t) (stg0_whole m h t) (stg1 m h t) (stg1_whole m h t) (stg2 m h t) (stg2_whole m h t) (stg3 m h t) (stg3_whole m h t) (stg4 m h t) (stg4_whole m h t) (fun hh => h0 ((atFirst_iff t).mp hh)) (blockAt m h c 0 t) (blockAt m h c 1 t) _ _ _).2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (runLater_cover6 c _ _ _ _ _ _ _ _ _ _ _ _ _ _ _ _ _ _ _ _ _)
    isplitl [H3]
    · unfold owns; iexists _; isplitr
      swap; · iexact H3
      ipureintro; exact View.read_writes_of_cover _ _ _ _ _ (runLater_cover7 c _ _ _ _ _ _ _ _ _ _ _ _ _ _ _ _ _ _ _ _ _)
    unfold owns; iexists _; isplitr
    swap; · iexact H4
    ipureintro; exact View.read_writes_of_cover _ _ _ _ _ (runLater_cover8 c _ _ _ _ _ _ _ _ _ _ _ _ _ _ _ _ _ _ _ _ _)

/-- The library's body obligation, at every point. -/
theorem body_obligation : BodyObligation (dat (F := F) m h c 0) (defs₀ (F := F)) Variants.none () Set.univ := fun t => by
  rw [bigSep_W0, bigSep_W0]
  exact body_at m h c t

end Cert.Kernel.Hand

end
-- ==== Proof.KB.Lines.lean ====
/-
  The host lines around the one kernel region of the program, as the frame of a program that goes on after its region
  takes them.

  Every host line is a constant, a map of one, two or three operands, or a reshape: it touches its operands' buffers
  and its result buffer, writes the result buffer alone, and allocates nothing.  What the frame asks of the lines is
  therefore decided reference by reference, a reference being told from another by its memory space and index:

  * before the launch no line writes an argument of the program, so the region finds the class maps, the masks and the
    class ids as they were launched, and the program reduces to the region continued by the later lines, every buffer
    at its contents after the earlier ones;
  * after the launch no line touches either table the region was handed (the sorted class ids, the sorting
    permutation), so the lines stay within the windows' arrays and the buffers that bypass the region; and no line
    writes one of the five arrays the windows move (the class maps, the widened masks, the three per-core slabs).
-/
import proofs.«409015_j49709951484027_3_alg».proof.Proof.KB.Base
import Idealize.ShloMosaic.Lib.StableHlo.Run
import Idealize.ShloMosaic.Lib.Pipeline.FrameSuffix
import Mathlib.Data.List.Basic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Telling a line's buffers apart from given references

The buffers a line touches, and the one it writes, form a literal set of references read as device buffers.  Distinct
references are distinct device buffers, so that no reference of a family lies in such a set is settled entry by
entry, each entry by comparing references. -/

section Apart

variable {n : ℕ} (t : Fin n → Ref sig .tc)

/-- No reference of the family is the one entry of a singleton, when none equals that entry. -/
theorem apart_single {y : Ref sig .tc} (h : ∀ k, t k ≠ y) :
    ∀ k, Proc.devRef (τ := τ) .tc (t k) ∉ ({Proc.devRef .tc y} : Finset (DevRef τ sig)) :=
  fun k hk => StableHlo.devRef_ne_of_ne (h k) (Finset.mem_singleton.mp hk)

/-- No reference of the family is in a set with one more entry, when none equals that entry and none is in the rest. -/
theorem apart_insert {x : Ref sig .tc} {s : Finset (DevRef τ sig)} (h : ∀ k, t k ≠ x)
    (hs : ∀ k, Proc.devRef (τ := τ) .tc (t k) ∉ s) :
    ∀ k, Proc.devRef (τ := τ) .tc (t k) ∉ insert (Proc.devRef .tc x) s :=
  fun k hk => (Finset.mem_insert.mp hk).elim (StableHlo.devRef_ne_of_ne (h k)) (hs k)

end Apart

/-- No reference of the family `t` lies in a literal set of references: the set's entries in turn, the last by
    `apart_single`, each earlier one by `apart_insert`, the references compared by their space and index. -/
local macro "apart " t:term : tactic =>
  `(tactic| (repeat (first | exact apart_single $t (by decide) | refine apart_insert $t (by decide) ?_)))

/-- A statement about every line of a literal stretch, as one statement per line. -/
local macro "each_line" : tactic => `(tactic| (simp only [List.Forall]; repeat' apply And.intro))

/-! ## The lines before the launch -/

/-- The program's three arguments: the class maps, the masks, the class ids. -/
abbrev args : Fin 3 → Ref sig .tc := ![main_arg0, main_arg1, main_arg2]

/-- What is asked of a line before the launch: it allocates nothing and writes no argument of the program. -/
structure Early (op : HloOp τ sig (Elt F)) : Prop where
  fresh : op.fresh = ∅
  args : ∀ k, Proc.devRef (τ := τ) .tc (args k) ∉ op.writes

/-- The two constants the clamp takes. -/
theorem early0 : (hostOps0 (F := F)).Forall Early := by each_line <;> exact ⟨rfl, by apart args⟩
/-- The clamp of the class ids into [0, 79]: it reads the ids and writes the clamped ids. -/
theorem early1 : (hostOps0_1 (F := F)).Forall Early := by each_line <;> exact ⟨rfl, by apart args⟩
/-- The sort of the clamped ids with their positions. -/
theorem early2 : (hostOps0_2 (F := F)).Forall Early := by each_line <;> exact ⟨rfl, by apart args⟩
/-- The wrap of the permutation's words and the gather of the clamped ids through them. -/
theorem early3 : (hostOps0_3 (F := F)).Forall Early := by each_line <;> exact ⟨rfl, by apart args⟩
/-- The sort of the permutation itself. -/
theorem early4 : (hostOps0_4 (F := F)).Forall Early := by each_line <;> exact ⟨rfl, by apart args⟩
/-- The widening of the masks: it reads the masks and writes the widened masks. -/
theorem early5 : (hostOps0_5 (F := F)).Forall Early := by each_line <;> exact ⟨rfl, by apart args⟩

/-- Every line before the launch is as asked. -/
theorem linesBefore_early : (linesBefore (F := F)).Forall fun ops => ops.Forall Early :=
  ⟨early0, early1, early2, early3, early4, early5⟩

/-- Stretch by stretch, the lines before the launch touch TensorCore references only. -/
theorem linesBefore_sub :
    (linesBefore (F := F)).Forall fun ops => ops.Forall fun op => op.bufs ⊆ StableHlo.tcRefs τ sig :=
  ⟨hostOps0_sub, hostOps0_1_sub, hostOps0_2_sub, hostOps0_3_sub, hostOps0_4_sub, hostOps0_5_sub⟩

/-- Every line before the launch allocates nothing. -/
theorem linesBefore_fresh : (linesBefore (F := F)).Forall fun ops => ops.Forall fun op => op.fresh = ∅ :=
  linesBefore_early.imp fun _ h => h.imp fun _ e => e.fresh

/-- The program is the lines before the launch, the region, then the lines after it: holding the launch memory it
    reduces to the region continued by the later lines, every buffer at its contents after the earlier ones. -/
theorem entry_reduces (𝒱₀ : Variants) :
    Pipeline.HMainPK (Ix := Unit) (Name := ℕ) (U := UR sig nD τ) (Lvl := ℕ) pcfgs 0 defs₀ 𝒱₀ m (main (F := F)) (atEntry m)
      (fun _ => Pipeline.chain ((linesAfter (F := F)).map StableHlo.seq)) :=
  Pipeline.hmainP_around pcfgs 0 defs₀ 𝒱₀ m main linesBefore linesAfter linesBefore_sub linesBefore_fresh main_chain

/-- An argument of the program is held at the region's entry as it was launched: no line before the launch writes
    it. -/
theorem atEntry0_args (c : Dev nD) (k : Fin 3) :
    atEntry0 m c (Proc.devRef .tc (args k)) = m (c, Proc.devRef .tc (args k)) :=
  StableHlo.after_of_forall_not_mem _ _ fun op hop => by
    obtain ⟨ops, hops, hop⟩ := List.mem_flatten.mp hop
    exact (List.forall_iff_forall_mem.mp (List.forall_iff_forall_mem.mp linesBefore_early ops hops) op hop).args k

/-- The class maps at the region's entry are the launched ones. -/
theorem atEntry_arg0 (c : Dev nD) : atEntry m c main_arg0 = m ((c : Thread nD τ).loc main_arg0) := atEntry0_args m c 0
/-- The masks at the region's entry are the launched ones. -/
theorem atEntry_arg1 (c : Dev nD) : atEntry m c main_arg1 = m ((c : Thread nD τ).loc main_arg1) := atEntry0_args m c 1
/-- The class ids at the region's entry are the launched ones. -/
theorem atEntry_arg2 (c : Dev nD) : atEntry m c main_arg2 = m ((c : Thread nD τ).loc main_arg2) := atEntry0_args m c 2

/-! ## The lines after the launch -/

/-- What is asked of a line after the launch: it allocates nothing, touches neither table the region was handed (the
    sorted class ids, the sorting permutation), and writes none of the five arrays the windows move (the class maps,
    the widened masks, the three slabs). -/
structure Late (op : HloOp τ sig (Elt F)) : Prop where
  fresh : op.fresh = ∅
  tables : ∀ k, Proc.devRef (τ := τ) .tc (pre0.ref k) ∉ op.bufs
  arrays : ∀ w, Proc.devRef (τ := τ) .tc (Pipeline.arrRef spec0 w) ∉ op.writes

/-- The unpacking of the three slabs, each read through the inverse permutation, and the test of the counts against
    zero: the slabs are read, never written. -/
theorem late0 : (hostOps1 (F := F)).Forall Late := by
  each_line <;> exact ⟨rfl, by apart pre0.ref, by apart (Pipeline.arrRef spec0)⟩
/-- The counts with one in place of a count that is not positive. -/
theorem late1 : (hostOps1_1 (F := F)).Forall Late := by
  each_line <;> exact ⟨rfl, by apart pre0.ref, by apart (Pipeline.arrRef spec0)⟩
/-- The means: the sums over the counts. -/
theorem late2 : (hostOps1_2 (F := F)).Forall Late := by
  each_line <;> exact ⟨rfl, by apart pre0.ref, by apart (Pipeline.arrRef spec0)⟩
/-- The means, zero where the count is not positive. -/
theorem late3 : (hostOps1_3 (F := F)).Forall Late := by
  each_line <;> exact ⟨rfl, by apart pre0.ref, by apart (Pipeline.arrRef spec0)⟩
/-- The variances: the mean squares less the squared means. -/
theorem late4 : (hostOps1_4 (F := F)).Forall Late := by
  each_line <;> exact ⟨rfl, by apart pre0.ref, by apart (Pipeline.arrRef spec0)⟩
/-- The variances, zero where the count is not positive. -/
theorem late5 : (hostOps1_5 (F := F)).Forall Late := by
  each_line <;> exact ⟨rfl, by apart pre0.ref, by apart (Pipeline.arrRef spec0)⟩
/-- The table of pairs of instances of one class, from the clamped ids (no table of the region: the clamped ids
    are neither the sorted ids nor the permutation). -/
theorem late6 : (hostOps1_6 (F := F)).Forall Late := by
  each_line <;> exact ⟨rfl, by apart pre0.ref, by apart (Pipeline.arrRef spec0)⟩
/-- The mask of the pairs strictly above the diagonal. -/
theorem late7 : (hostOps1_7 (F := F)).Forall Late := by
  each_line <;> exact ⟨rfl, by apart pre0.ref, by apart (Pipeline.arrRef spec0)⟩
/-- The hinge of the squared differences of the means, pair by pair, and the pairs of one class above the diagonal. -/
theorem late8 : (hostOps1_8 (F := F)).Forall Late := by
  each_line <;> exact ⟨rfl, by apart pre0.ref, by apart (Pipeline.arrRef spec0)⟩
/-- The hinge kept on the pairs of one class above the diagonal, zero elsewhere. -/
theorem late9 : (hostOps1_9 (F := F)).Forall Late := by
  each_line <;> exact ⟨rfl, by apart pre0.ref, by apart (Pipeline.arrRef spec0)⟩
/-- The three sums and the loss. -/
theorem late10 : (hostOps1_10 (F := F)).Forall Late := by
  each_line <;> exact ⟨rfl, by apart pre0.ref, by apart (Pipeline.arrRef spec0)⟩

/-- Every line after the launch is as asked. -/
theorem linesAfter_late : ∀ ops ∈ (linesAfter (F := F)), ∀ op ∈ ops, Late op := fun ops hops =>
  List.forall_iff_forall_mem.mp (List.forall_iff_forall_mem.mp
    (show (linesAfter (F := F)).Forall fun ops => ops.Forall Late from
      ⟨late0, late1, late2, late3, late4, late5, late6, late7, late8, late9, late10⟩) ops hops)

/-- Stretch by stretch, the lines after the launch touch TensorCore references only. -/
theorem linesAfter_tc : ∀ ops ∈ (linesAfter (F := F)), ∀ op ∈ ops, op.bufs ⊆ StableHlo.tcRefs τ sig := fun ops hops =>
  List.forall_iff_forall_mem.mp (List.forall_iff_forall_mem.mp
    (show (linesAfter (F := F)).Forall fun ops => ops.Forall fun op => op.bufs ⊆ StableHlo.tcRefs τ sig from
      ⟨hostOps1_sub, hostOps1_1_sub, hostOps1_2_sub, hostOps1_3_sub, hostOps1_4_sub, hostOps1_5_sub, hostOps1_6_sub,
        hostOps1_7_sub, hostOps1_8_sub, hostOps1_9_sub, hostOps1_10_sub⟩) ops hops)

/-- The lines after the launch stay within the windows' arrays and the buffers that bypass the region: each touches
    unscoped TensorCore references, none of them a table. -/
theorem lines_after_sub : ∀ ops ∈ (linesAfter (F := F)), ∀ op ∈ ops, op.bufs ⊆ Pipeline.tailRefs sig pre0 spec0 :=
  fun ops hops op hop =>
    Pipeline.sub_tailRefs pre0 spec0 op (linesAfter_tc ops hops op hop) (linesAfter_late ops hops op hop).tables

/-- They allocate nothing. -/
theorem lines_after_fresh : ∀ ops ∈ (linesAfter (F := F)), ∀ op ∈ ops, op.fresh = ∅ :=
  fun ops hops op hop => (linesAfter_late ops hops op hop).fresh

/-- And they write no array of a window: each writes its own result buffer alone. -/
theorem lines_after_keeps : ∀ ops ∈ (linesAfter (F := F)), ∀ op ∈ ops,
    ∀ w, Proc.devRef .tc (Pipeline.arrRef spec0 w) ∉ op.writes :=
  fun ops hops op hop => (linesAfter_late ops hops op hop).arrays

end Cert.Kernel.Hand

end
-- ==== Proof.KB.TailArgs.lean ====
/-
  No host line after the launch writes an argument of the program.

  Each later line writes its own result buffer alone, and that buffer is none of the class maps, the masks and the
  class ids.  So whatever the buffers hold when the later lines start, the three arguments hold the same once the lines
  have run.
-/
import proofs.«409015_j49709951484027_3_alg».proof.Proof.KB.Lines
import Idealize.ShloMosaic.Lib.StableHlo.Run
import Mathlib.Data.List.Basic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- No argument of the program lies in a literal set of references: the set's entries in turn, the last by
    `apart_single`, each earlier one by `apart_insert`, the references compared by their space and index. -/
local macro "apart_args" : tactic =>
  `(tactic| (repeat (first | exact apart_single args (by decide) | refine apart_insert args (by decide) ?_)))

/-- A statement about every line of a literal stretch, as one statement per line. -/
local macro "each_line" : tactic => `(tactic| (simp only [List.Forall]; repeat' apply And.intro))

/-- A line that writes no argument of the program. -/
abbrev SparesArgs (op : HloOp τ sig (Elt F)) : Prop := ∀ k, Proc.devRef (τ := τ) .tc (args k) ∉ op.writes

/-- The unpacking of the three slabs, each read through the inverse permutation, and the test of the counts. -/
theorem spares0 : (hostOps1 (F := F)).Forall SparesArgs := by each_line <;> apart_args
/-- The counts with one in place of a count that is not positive. -/
theorem spares1 : (hostOps1_1 (F := F)).Forall SparesArgs := by each_line <;> apart_args
/-- The means. -/
theorem spares2 : (hostOps1_2 (F := F)).Forall SparesArgs := by each_line <;> apart_args
/-- The means, zero where the count is not positive. -/
theorem spares3 : (hostOps1_3 (F := F)).Forall SparesArgs := by each_line <;> apart_args
/-- The variances. -/
theorem spares4 : (hostOps1_4 (F := F)).Forall SparesArgs := by each_line <;> apart_args
/-- The variances, zero where the count is not positive. -/
theorem spares5 : (hostOps1_5 (F := F)).Forall SparesArgs := by each_line <;> apart_args
/-- The table of pairs of instances of one class. -/
theorem spares6 : (hostOps1_6 (F := F)).Forall SparesArgs := by each_line <;> apart_args
/-- The mask of the pairs strictly above the diagonal. -/
theorem spares7 : (hostOps1_7 (F := F)).Forall SparesArgs := by each_line <;> apart_args
/-- The hinge of the squared differences of the means, pair by pair. -/
theorem spares8 : (hostOps1_8 (F := F)).Forall SparesArgs := by each_line <;> apart_args
/-- The hinge kept on the pairs of one class above the diagonal. -/
theorem spares9 : (hostOps1_9 (F := F)).Forall SparesArgs := by each_line <;> apart_args
/-- The three sums and the loss. -/
theorem spares10 : (hostOps1_10 (F := F)).Forall SparesArgs := by each_line <;> apart_args

/-- No line after the launch writes an argument of the program. -/
theorem linesAfter_spare : (linesAfter (F := F)).Forall fun ops => ops.Forall SparesArgs :=
  ⟨spares0, spares1, spares2, spares3, spares4, spares5, spares6, spares7, spares8, spares9, spares10⟩

/-- An argument of the program holds after the later lines what it held before them. -/
theorem after_lines_args (W : Valuation τ sig (Elt F)) (k : Fin 3) :
    StableHlo.after (linesAfter (F := F)).flatten W (Proc.devRef .tc (args k)) = W (Proc.devRef .tc (args k)) :=
  StableHlo.after_of_forall_not_mem _ _ fun op hop => by
    obtain ⟨ops, hops, hop⟩ := List.mem_flatten.mp hop
    exact List.forall_iff_forall_mem.mp (List.forall_iff_forall_mem.mp linesAfter_spare ops hops) op hop k

/-- The class maps after the later lines are the class maps before them. -/
theorem after_lines_arg0 (W : Valuation τ sig (Elt F)) :
    StableHlo.after (linesAfter (F := F)).flatten W (Proc.devRef .tc main_arg0) = W (Proc.devRef .tc main_arg0) :=
  after_lines_args W 0
/-- The masks after the later lines are the masks before them. -/
theorem after_lines_arg1 (W : Valuation τ sig (Elt F)) :
    StableHlo.after (linesAfter (F := F)).flatten W (Proc.devRef .tc main_arg1) = W (Proc.devRef .tc main_arg1) :=
  after_lines_args W 1
/-- The class ids after the later lines are the class ids before them. -/
theorem after_lines_arg2 (W : Valuation τ sig (Elt F)) :
    StableHlo.after (linesAfter (F := F)).flatten W (Proc.devRef .tc main_arg2) = W (Proc.devRef .tc main_arg2) :=
  after_lines_args W 2

end Cert.Kernel.Hand

end
-- ==== Proof.KB.Frame.lean ====
/-
  The frame of the program: it runs to the end, faults nowhere, and leaves its three arguments unchanged.

  @main is host lines, the one kernel region with its two prefetched tables, and host lines again.  The library's
  frame run for that shape takes: the body obligation at every point, what the lines before the region leave
  (the region's arrays and the tables' contents), and that the lines after it touch no table, allocate nothing
  and write none of the region's arrays.  Its post names every array of the pipeline after the last write-back
  and every other buffer after the later lines; the class maps are an input array no one writes, and the masks
  and the class ids are buffers no line writes.
-/
import proofs.«409015_j49709951484027_3_alg».proof.Proof.KB.Body
import proofs.«409015_j49709951484027_3_alg».proof.Proof.KB.TailArgs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data as a family over the one pipeline and the cores. -/
abbrev dats (h : InRange m) (p : Fin 1) (c : Dev nD) : Dat τ (Elt F) Unit ℕ (UR sig nD τ) ℕ (pipeAt m h) c := dat m h c p

/-- Every buffer after the whole program: the region's arrays after the last write-back, everything else after the
    lines that follow the region. -/
abbrev atEnd (h : InRange m) : (c : Dev nD) → (b : Ref sig .tc) → Buf (Elt F) ((c.tc : Thread nD τ).loc b) :=
  Pipeline.afterTail pcfgs (fun _ => admAt m h) (dats m h) 0 (atEntry0 m) (linesAfter (F := F))

set_option backward.isDefEq.respectTransparency.types false in
/-- Every weakly fair execution of @main terminates, and in its final state every array of the pipeline holds what
    the write-backs leave and every other unscoped buffer what the later lines leave. -/
theorem run_main (h : InRange m) :
    θ_run defs (onTc (τ := τ) (main (F := F))) (s₀ m ρ)
      (Pipeline.FramePost (Pipeline.pin pcfgs fun _ => admAt m h) (dats m h) 0 (atEnd m h)) :=
  Pipeline.θ_run_frameP_around pcfgs (fun _ => admAt m h) (dats m h) (0 : Fin 1) launch0 defs₀ Variants.none m ρ main
    (hbody := fun c => (body_obligation m h c).loose) (hshare := fun c => (dat m h c 0).share_full fun _ => rfl)
    (howed := fun _ _ => rfl) (V₀ := atEntry0 m) (opss := linesAfter) (hsub := lines_after_sub) (hfresh := lines_after_fresh)
    (hkeep := lines_after_keeps) (hmain := entry_reduces m Variants.none) (hA := fun c w => dat_A m h c w)
    (hpf := atEntry_table m) (hΦ := fun _ _ => rfl)

/-- The masks end as launched: no window stages them and no line writes them. -/
theorem atEnd_arg1 (h : InRange m) (c : Dev nD) : atEnd m h c main_arg1 = m ((c : Thread nD τ).loc main_arg1) := by
  unfold atEnd Pipeline.afterTail
  rw [after_lines_arg1,
    Pipeline.withArrays_of_ne _ c (atEntry0 m c) _ main_arg1 (by exact (by decide : ∀ w, Pipeline.arrRef spec0 w ≠ main_arg1))]
  exact atEntry_arg1 m c

/-- So do the class ids. -/
theorem atEnd_arg2 (h : InRange m) (c : Dev nD) : atEnd m h c main_arg2 = m ((c : Thread nD τ).loc main_arg2) := by
  unfold atEnd Pipeline.afterTail
  rw [after_lines_arg2,
    Pipeline.withArrays_of_ne _ c (atEntry0 m c) _ main_arg2 (by exact (by decide : ∀ w, Pipeline.arrRef spec0 w ≠ main_arg2))]
  exact atEntry_arg2 m c

/-- THE FRAME, at any float family, under the tables' range condition. -/
theorem frame (h : InRange m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hp c =>
    ⟨((hp c).1 0).trans (((dat m h c 0).arrAt_in 0 rfl _).trans ((dat_A m h c 0).trans (atEntry_arg0 m c))),
     ((hp c).2 main_arg1 (Pipeline.mem_restRefs_of main_arg1 (by decide) (by exact (by decide : ∀ w, (spec0 w).arr.view.ref ≠ main_arg1)))).trans (atEnd_arg1 m h c),
     ((hp c).2 main_arg2 (Pipeline.mem_restRefs_of main_arg2 (by decide) (by exact (by decide : ∀ w, (spec0 w).arr.view.ref ≠ main_arg2)))).trans (atEnd_arg2 m h c)⟩)
    (run_main m ρ h)

end Cert.Kernel.Hand

end
-- ==== Proof.LibArgsortInverse.lean ====
/-
  The position table of a stable ascending sort, and its inverse.

  Sorting a rank-1 table of keys together with the identity table 0, 1, …, n-1 carries the identity table to the
  POSITION TABLE of the sort: entry k is the position the k-th smallest key came from.  The sort reads both
  operands through one self-map of the positions, and that self-map is a bijection; so the position table lists
  a permutation σ of 0 … n-1, each entry a word below n.

  Sorting the position table itself, again carrying the identity table, INVERTS it: the words σ 0, …, σ (n-1) are
  pairwise distinct and below 2^31, the signed comparison of two of them is the comparison of the naturals, so the
  stable sort places position k at rank σ k, i.e. output position k comes from σ⁻¹ k.  Reading the first table
  through the second gives the identity table back.
-/
import Idealize.ShloMosaic.Lib.SortFacts

namespace Cert.LibArgsort

open Idealize.ShloMosaic

/-- The position table of the stable sort of `keys` by `cmp`: the identity table carried along by the sort. -/
def argsort {n : Nat} (cmp : BitVec 32 × BitVec 32 → BitVec 32 × BitVec 32 → BitVec 1)
    (keys : IVec ⟨1, ![n]⟩ 32) : IVec ⟨1, ![n]⟩ 32 :=
  (Host.sort2 ⟨1, ![n]⟩ 0 cmp keys (iotaInDim ⟨1, ![n]⟩ 32 0)).2

/-- On a rank-1 shape the second result of a two-operand sort along axis 0 reads the second operand through ONE
    self-map of the positions: the stable sorting map of the comparator on the pairs of the operands' entries. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-! ## Words below 2^31 compare as naturals -/

/-- A natural below 2^32 survives the round trip through a 32-bit word. -/
theorem toNat_ofNat_of_lt {a : Nat} (ha : a < 2 ^ 32) : (BitVec.ofNat 32 a).toNat = a := by
  rw [BitVec.toNat_ofNat]
  exact Nat.mod_eq_of_lt ha

/-- The signed order of two words holding naturals below 2^31 is the order of the naturals. -/
theorem slt_ofNat_ofNat {a b : Nat} (ha : a < 2 ^ 31) (hb : b < 2 ^ 31) :
    (BitVec.ofNat 32 a).slt (BitVec.ofNat 32 b) = decide (a < b) := by
  have ea : (BitVec.ofNat 32 a).toNat = a := toNat_ofNat_of_lt (by omega)
  have eb : (BitVec.ofNat 32 b).toNat = b := toNat_ofNat_of_lt (by omega)
  rw [BitVec.slt_eq_decide, BitVec.toInt_eq_toNat_of_lt (by rw [ea]; omega),
    BitVec.toInt_eq_toNat_of_lt (by rw [eb]; omega), ea, eb]
  simp

/-- A one-bit word made from a truth value is 1 exactly when the value is true. -/
theorem ofBool_beq_one (c : Bool) : (BitVec.ofBool c == 1#1) = c := by
  cases c <;> rfl

/-- The "signed less-than is 1" test on two words holding naturals below 2^31 decides the order of the naturals. -/
theorem cmpi_slt_ofNat_ofNat {a b : Nat} (ha : a < 2 ^ 31) (hb : b < 2 ^ 31) :
    (IntOp.cmpi .slt (BitVec.ofNat 32 a) (BitVec.ofNat 32 b) == 1#1) = decide (a < b) := by
  unfold IntOp.cmpi
  rw [ofBool_beq_one]
  exact slt_ofNat_ofNat ha hb

/-- A word holding a natural below 2^31 is not negative as a signed number. -/
theorem msb_ofNat_of_lt {a : Nat} (ha : a < 2 ^ 31) : (BitVec.ofNat 32 a).msb = false := by
  rw [BitVec.msb_eq_false_iff_two_mul_lt, toNat_ofNat_of_lt (by omega)]
  omega

/-! ## The stable sort under "σ⁻¹ k < σ⁻¹ k'" is σ -/

/-- The stable sorting map of the strict total order `τ⁻¹ k < τ⁻¹ k'` on the positions is `τ` itself. -/
theorem sortedFrom_of_perm {n : Nat} (τ : Equiv.Perm (Fin n)) :
    sortedFrom (fun k k' => decide (τ.symm k < τ.symm k')) = τ := by
  funext k
  unfold sortedFrom
  rw [List.get_of_eq (sortPositions_of_perm τ)]
  simp

/-! ## The position table is a permutation -/

/-- The relation by which the sort of `keys` with the identity table orders the positions: the comparator on the
    pairs (key, position). -/
def before {n : Nat} (cmp : BitVec 32 × BitVec 32 → BitVec 32 × BitVec 32 → BitVec 1)
    (keys : IVec ⟨1, ![n]⟩ 32) (k k' : Fin n) : Bool :=
  cmp (keys (Shape.Idx.ofFin k), iotaInDim ⟨1, ![n]⟩ 32 0 (Shape.Idx.ofFin k))
    (keys (Shape.Idx.ofFin k'), iotaInDim ⟨1, ![n]⟩ 32 0 (Shape.Idx.ofFin k')) == 1#1

/-- The sorting permutation of `keys`: output position ↦ source position.  It is the stable sorting map of
    `before`, a bijection of the positions. -/
noncomputable def sortPerm {n : Nat} (cmp : BitVec 32 × BitVec 32 → BitVec 32 × BitVec 32 → BitVec 1)
    (keys : IVec ⟨1, ![n]⟩ 32) : Equiv.Perm (Fin n) :=
  Equiv.ofBijective (sortedFrom (before cmp keys))
    ⟨sortedFrom_injective (before cmp keys), sortedFrom_surjective (before cmp keys)⟩

/-- A rank-1 index is the index of some position. -/
theorem exists_ofFin {n : Nat} (j : (⟨1, ![n]⟩ : Shape).Idx) : ∃ k : Fin n, j = Shape.Idx.ofFin k :=
  ⟨j 0, Shape.Idx.eq_ofFin j⟩

/-- The entry of the position table at position `k` is the word of the sorting permutation's value at `k`. -/
theorem argsort_apply {n : Nat} (cmp : BitVec 32 × BitVec 32 → BitVec 32 × BitVec 32 → BitVec 1)
    (keys : IVec ⟨1, ![n]⟩ 32) (k : Fin n) :
    argsort cmp keys (Shape.Idx.ofFin k) = BitVec.ofNat 32 (sortPerm cmp keys k).val := by
  unfold argsort
  rw [sort2_snd_rank1]
  rfl

/-- (1) The position table lists a permutation of `0 … n-1`. -/
theorem argsort_eq_perm {n : Nat} (cmp : BitVec 32 × BitVec 32 → BitVec 32 × BitVec 32 → BitVec 1)
    (keys : IVec ⟨1, ![n]⟩ 32) :
    ∃ σ : Equiv.Perm (Fin n), ∀ k : Fin n,
      argsort cmp keys (Shape.Idx.ofFin k) = BitVec.ofNat 32 (σ k).val :=
  ⟨sortPerm cmp keys, argsort_apply cmp keys⟩

/-! ## Its entries are words below n, non-negative as signed numbers -/

/-- (2) The entry of the position table at position `k`, as a natural, is the sorting permutation's value. -/
theorem argsort_toNat {n : Nat} (hn : n < 2 ^ 31)
    (cmp : BitVec 32 × BitVec 32 → BitVec 32 × BitVec 32 → BitVec 1) (keys : IVec ⟨1, ![n]⟩ 32)
    (k : Fin n) : (argsort cmp keys (Shape.Idx.ofFin k)).toNat = (sortPerm cmp keys k).val := by
  rw [argsort_apply]
  exact toNat_ofNat_of_lt (by have := (sortPerm cmp keys k).isLt; omega)

/-- (2) Every entry of the position table is a word below `n`. -/
theorem argsort_toNat_lt {n : Nat} (hn : n < 2 ^ 31)
    (cmp : BitVec 32 × BitVec 32 → BitVec 32 × BitVec 32 → BitVec 1) (keys : IVec ⟨1, ![n]⟩ 32)
    (j : (⟨1, ![n]⟩ : Shape).Idx) : (argsort cmp keys j).toNat < n := by
  obtain ⟨k, rfl⟩ := exists_ofFin j
  rw [argsort_toNat hn]
  exact (sortPerm cmp keys k).isLt

/-- (2) Every entry of the position table has its sign bit clear. -/
theorem argsort_msb {n : Nat} (hn : n < 2 ^ 31)
    (cmp : BitVec 32 × BitVec 32 → BitVec 32 × BitVec 32 → BitVec 1) (keys : IVec ⟨1, ![n]⟩ 32)
    (j : (⟨1, ![n]⟩ : Shape).Idx) : (argsort cmp keys j).msb = false := by
  obtain ⟨k, rfl⟩ := exists_ofFin j
  rw [argsort_apply]
  exact msb_ofNat_of_lt (by have := (sortPerm cmp keys k).isLt; omega)

/-- (2) No entry of the position table is below zero as a signed number. -/
theorem argsort_slt_zero {n : Nat} (hn : n < 2 ^ 31)
    (cmp : BitVec 32 × BitVec 32 → BitVec 32 × BitVec 32 → BitVec 1) (keys : IVec ⟨1, ![n]⟩ 32)
    (j : (⟨1, ![n]⟩ : Shape).Idx) : (argsort cmp keys j).slt 0#32 = false := by
  rw [BitVec.slt_zero_eq_msb]
  exact argsort_msb hn cmp keys j

/-- (2) The elementwise test "entry < 0, signed" on the position table answers 0 everywhere. -/
theorem argsort_cmpi_slt_zero {n : Nat} (hn : n < 2 ^ 31)
    (cmp : BitVec 32 × BitVec 32 → BitVec 32 × BitVec 32 → BitVec 1) (keys : IVec ⟨1, ![n]⟩ 32)
    (j : (⟨1, ![n]⟩ : Shape).Idx) : IntOp.cmpi .slt (argsort cmp keys j) 0#32 = 0#1 := by
  show BitVec.ofBool ((argsort cmp keys j).slt 0#32) = 0#1
  rw [argsort_slt_zero hn]
  rfl

/-! ## Sorting a permutation's table inverts it -/

/-- The table of a permutation `σ` of `0 … n-1` (`n < 2^31`), sorted ascending by the signed order with the
    identity table carried along, yields the table of `σ⁻¹`: the words `σ k` are below 2^31, their signed
    order is the order of the naturals, so the sort orders the positions by `σ k < σ k'`, the strict total order
    whose stable sorting map is `σ⁻¹`. -/
theorem argsort_of_perm_table {n : Nat} (hn : n < 2 ^ 31)
    (cmp : BitVec 32 × BitVec 32 → BitVec 32 × BitVec 32 → BitVec 1)
    (hcmp : ∀ l r, cmp l r = IntOp.cmpi .slt l.1 r.1) (σ : Equiv.Perm (Fin n)) (p : IVec ⟨1, ![n]⟩ 32)
    (hp : ∀ k : Fin n, p (Shape.Idx.ofFin k) = BitVec.ofNat 32 (σ k).val) (k : Fin n) :
    argsort cmp p (Shape.Idx.ofFin k) = BitVec.ofNat 32 (σ.symm k).val := by
  have hb : before cmp p = fun k k' => decide (σ.symm.symm k < σ.symm.symm k') := by
    funext k k'
    unfold before
    rw [hcmp, hp k, hp k']
    have hk := (σ k).isLt
    have hk' := (σ k').isLt
    exact cmpi_slt_ofNat_ofNat (by omega) (by omega)
  have hs : sortPerm cmp p k = σ.symm k := by
    show sortedFrom (before cmp p) k = σ.symm k
    rw [hb, sortedFrom_of_perm]
  rw [argsort_apply, hs]

/-- The entry at position `k` of the position table of the position table is the word of the INVERSE sorting
    permutation's value at `k`. -/
theorem argsort_argsort_apply {n : Nat} (hn : n < 2 ^ 31)
    (cmp : BitVec 32 × BitVec 32 → BitVec 32 × BitVec 32 → BitVec 1)
    (hcmp : ∀ l r, cmp l r = IntOp.cmpi .slt l.1 r.1) (keys : IVec ⟨1, ![n]⟩ 32) (k : Fin n) :
    argsort cmp (argsort cmp keys) (Shape.Idx.ofFin k)
      = BitVec.ofNat 32 ((sortPerm cmp keys).symm k).val :=
  argsort_of_perm_table hn cmp hcmp (sortPerm cmp keys) (argsort cmp keys) (argsort_apply cmp keys) k

/-- (3) Reading the position table `p` through its own position table `q` gives the identity table: at every
    position `k`, `p[q[k]] = k`. -/
theorem argsort_argsort {n : Nat} (hn : n < 2 ^ 31)
    (cmp : BitVec 32 × BitVec 32 → BitVec 32 × BitVec 32 → BitVec 1)
    (hcmp : ∀ l r, cmp l r = IntOp.cmpi .slt l.1 r.1) (keys : IVec ⟨1, ![n]⟩ 32) (k : Fin n)
    (h : (argsort cmp (argsort cmp keys) (Shape.Idx.ofFin k)).toNat < n) :
    argsort cmp keys (Shape.Idx.ofFin ⟨(argsort cmp (argsort cmp keys) (Shape.Idx.ofFin k)).toNat, h⟩)
      = BitVec.ofNat 32 k.val := by
  have e : (⟨(argsort cmp (argsort cmp keys) (Shape.Idx.ofFin k)).toNat, h⟩ : Fin n)
      = (sortPerm cmp keys).symm k := by
    apply Fin.ext
    show (argsort cmp (argsort cmp keys) (Shape.Idx.ofFin k)).toNat = ((sortPerm cmp keys).symm k).val
    rw [argsort_argsort_apply hn cmp hcmp]
    exact toNat_ofNat_of_lt (by have := ((sortPerm cmp keys).symm k).isLt; omega)
  rw [e, argsort_apply, Equiv.apply_symm_apply]

/-- (3) The same at an arbitrary index `j`, whose one coordinate is `j 0`: `p[q[j]] = j 0`, the identity
    table's entry at `j`. -/
theorem argsort_argsort_idx {n : Nat} (hn : n < 2 ^ 31)
    (cmp : BitVec 32 × BitVec 32 → BitVec 32 × BitVec 32 → BitVec 1)
    (hcmp : ∀ l r, cmp l r = IntOp.cmpi .slt l.1 r.1) (keys : IVec ⟨1, ![n]⟩ 32)
    (j : (⟨1, ![n]⟩ : Shape).Idx) (h : (argsort cmp (argsort cmp keys) j).toNat < n) :
    argsort cmp keys (Shape.Idx.ofFin ⟨(argsort cmp (argsort cmp keys) j).toNat, h⟩)
      = BitVec.ofNat 32 (j 0).val := by
  obtain ⟨k, rfl⟩ := exists_ofFin j
  exact argsort_argsort hn cmp hcmp keys k h

/-- (3) Both halves at once: the second table's entry is a position, and the first table read there is `k`. -/
theorem argsort_argsort_exists {n : Nat} (hn : n < 2 ^ 31)
    (cmp : BitVec 32 × BitVec 32 → BitVec 32 × BitVec 32 → BitVec 1)
    (hcmp : ∀ l r, cmp l r = IntOp.cmpi .slt l.1 r.1) (keys : IVec ⟨1, ![n]⟩ 32) (k : Fin n) :
    ∃ h : (argsort cmp (argsort cmp keys) (Shape.Idx.ofFin k)).toNat < n,
      argsort cmp keys (Shape.Idx.ofFin ⟨(argsort cmp (argsort cmp keys) (Shape.Idx.ofFin k)).toNat, h⟩)
        = BitVec.ofNat 32 k.val :=
  ⟨argsort_toNat_lt hn cmp (argsort cmp keys) _, argsort_argsort hn cmp hcmp keys k _⟩

/-- The other composite: reading the second table `q` through the first table `p` also gives the identity table,
    `q[p[k]] = k`. -/
theorem argsort_argsort_rev {n : Nat} (hn : n < 2 ^ 31)
    (cmp : BitVec 32 × BitVec 32 → BitVec 32 × BitVec 32 → BitVec 1)
    (hcmp : ∀ l r, cmp l r = IntOp.cmpi .slt l.1 r.1) (keys : IVec ⟨1, ![n]⟩ 32) (k : Fin n)
    (h : (argsort cmp keys (Shape.Idx.ofFin k)).toNat < n) :
    argsort cmp (argsort cmp keys) (Shape.Idx.ofFin ⟨(argsort cmp keys (Shape.Idx.ofFin k)).toNat, h⟩)
      = BitVec.ofNat 32 k.val := by
  have e : (⟨(argsort cmp keys (Shape.Idx.ofFin k)).toNat, h⟩ : Fin n) = sortPerm cmp keys k :=
    Fin.ext (argsort_toNat hn cmp keys k)
  rw [e, argsort_argsort_apply hn cmp hcmp, Equiv.symm_apply_apply]

/-! ## The same facts at the literal shape of a hundred positions

Stated over the two-operand sort itself, with the identity table written out, so that they apply where the
position table is not named. -/

/-- (1) at a hundred positions: the sort carries the identity table to the table of a permutation. -/
theorem sort2_iota_100_eq_perm (cmp : BitVec 32 × BitVec 32 → BitVec 32 × BitVec 32 → BitVec 1)
    (x : IVec ⟨1, ![100]⟩ 32) :
    ∃ σ : Equiv.Perm (Fin 100), ∀ k : Fin 100,
      (Host.sort2 (⟨1, ![100]⟩ : Shape) 0 cmp x (iotaInDim ⟨1, ![100]⟩ 32 0)).2 (Shape.Idx.ofFin k)
        = BitVec.ofNat 32 (σ k).val :=
  argsort_eq_perm cmp x

/-- (2) at a hundred positions: every entry is a word below 100. -/
theorem sort2_iota_100_toNat_lt (cmp : BitVec 32 × BitVec 32 → BitVec 32 × BitVec 32 → BitVec 1)
    (x : IVec ⟨1, ![100]⟩ 32) (j : (⟨1, ![100]⟩ : Shape).Idx) :
    ((Host.sort2 (⟨1, ![100]⟩ : Shape) 0 cmp x (iotaInDim ⟨1, ![100]⟩ 32 0)).2 j).toNat < 100 :=
  argsort_toNat_lt (by omega) cmp x j

/-- (2) at a hundred positions: every entry has its sign bit clear. -/
theorem sort2_iota_100_msb (cmp : BitVec 32 × BitVec 32 → BitVec 32 × BitVec 32 → BitVec 1)
    (x : IVec ⟨1, ![100]⟩ 32) (j : (⟨1, ![100]⟩ : Shape).Idx) :
    ((Host.sort2 (⟨1, ![100]⟩ : Shape) 0 cmp x (iotaInDim ⟨1, ![100]⟩ 32 0)).2 j).msb = false :=
  argsort_msb (by omega) cmp x j

/-- (2) at a hundred positions: no entry is below zero as a signed number. -/
theorem sort2_iota_100_slt_zero (cmp : BitVec 32 × BitVec 32 → BitVec 32 × BitVec 32 → BitVec 1)
    (x : IVec ⟨1, ![100]⟩ 32) (j : (⟨1, ![100]⟩ : Shape).Idx) :
    ((Host.sort2 (⟨1, ![100]⟩ : Shape) 0 cmp x (iotaInDim ⟨1, ![100]⟩ 32 0)).2 j).slt 0#32 = false :=
  argsort_slt_zero (by omega) cmp x j

/-- (2) at a hundred positions: the elementwise test "entry < 0, signed" answers 0 everywhere. -/
theorem sort2_iota_100_cmpi_slt_zero (cmp : BitVec 32 × BitVec 32 → BitVec 32 × BitVec 32 → BitVec 1)
    (x : IVec ⟨1, ![100]⟩ 32) (j : (⟨1, ![100]⟩ : Shape).Idx) :
    IntOp.cmpi .slt ((Host.sort2 (⟨1, ![100]⟩ : Shape) 0 cmp x (iotaInDim ⟨1, ![100]⟩ 32 0)).2 j) 0#32
      = 0#1 :=
  argsort_cmpi_slt_zero (by omega) cmp x j

/-- (3) at a hundred positions: the position table read through the position table of itself is the identity
    table, `p[q[k]] = k`. -/
theorem sort2_sort2_iota_100 (cmp : BitVec 32 × BitVec 32 → BitVec 32 × BitVec 32 → BitVec 1)
    (hcmp : ∀ l r, cmp l r = IntOp.cmpi .slt l.1 r.1) (x : IVec ⟨1, ![100]⟩ 32) (k : Fin 100)
    (h : ((Host.sort2 (⟨1, ![100]⟩ : Shape) 0 cmp
        (Host.sort2 (⟨1, ![100]⟩ : Shape) 0 cmp x (iotaInDim ⟨1, ![100]⟩ 32 0)).2
        (iotaInDim ⟨1, ![100]⟩ 32 0)).2 (Shape.Idx.ofFin k)).toNat < 100) :
    (Host.sort2 (⟨1, ![100]⟩ : Shape) 0 cmp x (iotaInDim ⟨1, ![100]⟩ 32 0)).2
        (Shape.Idx.ofFin ⟨((Host.sort2 (⟨1, ![100]⟩ : Shape) 0 cmp
          (Host.sort2 (⟨1, ![100]⟩ : Shape) 0 cmp x (iotaInDim ⟨1, ![100]⟩ 32 0)).2
          (iotaInDim ⟨1, ![100]⟩ 32 0)).2 (Shape.Idx.ofFin k)).toNat, h⟩)
      = BitVec.ofNat 32 k.val :=
  argsort_argsort (by omega) cmp hcmp x k h

/-- (3) at a hundred positions, with the first position table named: if `p` is the position table of `x`, then
    the position table `q` of `p` has entries below 100 and `p[q[k]] = k`. -/
theorem sort2_sort2_iota_100_of_eq (cmp : BitVec 32 × BitVec 32 → BitVec 32 × BitVec 32 → BitVec 1)
    (hcmp : ∀ l r, cmp l r = IntOp.cmpi .slt l.1 r.1) (x p : IVec ⟨1, ![100]⟩ 32)
    (hp : p = (Host.sort2 (⟨1, ![100]⟩ : Shape) 0 cmp x (iotaInDim ⟨1, ![100]⟩ 32 0)).2) (k : Fin 100) :
    ∃ h : ((Host.sort2 (⟨1, ![100]⟩ : Shape) 0 cmp p (iotaInDim ⟨1, ![100]⟩ 32 0)).2
        (Shape.Idx.ofFin k)).toNat < 100,
      p (Shape.Idx.ofFin ⟨((Host.sort2 (⟨1, ![100]⟩ : Shape) 0 cmp p (iotaInDim ⟨1, ![100]⟩ 32 0)).2
        (Shape.Idx.ofFin k)).toNat, h⟩) = BitVec.ofNat 32 k.val := by
  subst hp
  exact argsort_argsort_exists (by omega) cmp hcmp x k

end Cert.LibArgsort
-- ==== Proof.KB.Tables.lean ====
/-
  The words the host computes before the kernel region, and the two tables the region is handed.

  From the class ids (100 signed 32-bit words) the host computes: the ids clamped into [0, 79]; the sorting
  permutation of the clamped ids (the identity table 0, 1, …, 99 carried along by the stable ascending sort: entry k is
  the position the k-th smallest clamped id came from); the clamped ids read through that permutation, i.e. in ascending
  order; the sorting permutation of the permutation's own table, which is its inverse; and the boolean masks widened to
  32-bit words.

  (A) gives the contents of those five buffers at region entry as functions of the arguments.
  (B) reads the words one at a time: a clamped id lies in [0, 79]; a word of either permutation is a position below 100
  and is not negative, so moving negative positions up by 100 changes nothing; a table read through a table of such
  positions is, entry by entry, the table at the position; hence a sorted id is the clamped id at the position the
  sorting permutation names, and lies in [0, 79].  The permutations are also given as a bijection of the 100 positions
  and its inverse.
  (C) concludes that every block the two tables name lies inside its array: block number (sorted id) among the 80 class
  maps, block number (position) among the 100 masks, at every grid point; the element types are 32 bits wide, so the
  transfers' ends are word-exact.
-/
import proofs.«409015_j49709951484027_3_alg».proof.Proof.KB.Base
import proofs.«409015_j49709951484027_3_alg».proof.Proof.LibArgsortInverse
import Idealize.ShloMosaic.Lib.StableHlo.Predicate
import Idealize.ShloMosaic.Lib.WordArith

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## The host's words before the region, as functions of the class ids -/

/-- The class ids clamped into [0, 79]: first raised to at least 0, then lowered to at most 79. -/
def clampedIds (ids : IVec S100 32) : IVec S100 32 :=
  minsi (broadcastInDim S100 ![] bcast_S_S100 (constantI S_ 32 79#32))
    (maxsi (broadcastInDim S100 ![] bcast_S_S100 (constantI S_ 32 0#32)) ids)

/-- The sorting permutation of the clamped ids, as a table of words: entry k is the position the k-th smallest
    clamped id came from (the identity table carried along by the stable ascending sort). -/
def sortPerm (ids : IVec S100 32) : IVec S100 32 :=
  Cert.LibArgsort.argsort comparator_i32_i32_d0 (clampedIds ids)

/-- A table of positions with its negative words moved up by 100 (a negative position counts from the end). -/
def wrapped (p : IVec S100 32) : IVec S100 32 :=
  select (cmpi .slt p (broadcastInDim S100 ![] bcast_S_S100 (constantI S_ 32 0#32)))
    (addi p (broadcastInDim S100 ![] bcast_S_S100 (constantI S_ 32 100#32))) p

/-- A table of 100 values read through a table of positions: entry k is the table at the (wrapped) k-th position. -/
def readThrough {α : Type} (x : S100.Idx → α) (p : IVec S100 32) : S100.Idx → α :=
  Host.gather gather_S100_S100x1_S100_n_0_n_n_0_1_1 x (broadcastInDim S100x1 ![0] bcast_S100_S100x1_0 (wrapped p))

/-- The clamped ids in ascending order: read through the sorting permutation. -/
def sortedIds (ids : IVec S100 32) : IVec S100 32 := readThrough (clampedIds ids) (sortPerm ids)

/-- The position table of the sort of the sorting permutation: the inverse permutation. -/
def invPerm (ids : IVec S100 32) : IVec S100 32 :=
  Cert.LibArgsort.argsort comparator_i32_i32_d0 (sortPerm ids)

/-- The class ids as core c's launch memory holds them. -/
abbrev idsOf (c : Dev nD) : IVec S100 32 := m ((c : Thread nD τ).loc main_arg2)

/-! ## (A) The buffers at region entry -/

theorem atEntry_v0 (c : Dev nD) : atEntry m c main_v0 = clampedIds (idsOf m c) := by
  show StableHlo.after (linesBefore (F := F)).flatten (fun b => m (c, b)) (Proc.devRef .tc main_v0) = _
  simp only [linesBefore, hostOps0, hostOps0_1, hostOps0_2, hostOps0_3, hostOps0_4, hostOps0_5, List.flatten_cons,
    List.flatten_nil, List.append_nil, List.cons_append, List.nil_append]
  after_results_simp
  rfl

theorem atEntry_v1 (c : Dev nD) : atEntry m c main_v1 = sortPerm (idsOf m c) := by
  show StableHlo.after (linesBefore (F := F)).flatten (fun b => m (c, b)) (Proc.devRef .tc main_v1) = _
  simp only [linesBefore, hostOps0, hostOps0_1, hostOps0_2, hostOps0_3, hostOps0_4, hostOps0_5, List.flatten_cons,
    List.flatten_nil, List.append_nil, List.cons_append, List.nil_append]
  after_results_simp
  rfl

theorem atEntry_v8 (c : Dev nD) : atEntry m c main_v8 = sortedIds (idsOf m c) := by
  show StableHlo.after (linesBefore (F := F)).flatten (fun b => m (c, b)) (Proc.devRef .tc main_v8) = _
  simp only [linesBefore, hostOps0, hostOps0_1, hostOps0_2, hostOps0_3, hostOps0_4, hostOps0_5, List.flatten_cons,
    List.flatten_nil, List.append_nil, List.cons_append, List.nil_append]
  after_results_simp
  rfl

theorem atEntry_v9 (c : Dev nD) : atEntry m c main_v9 = invPerm (idsOf m c) := by
  show StableHlo.after (linesBefore (F := F)).flatten (fun b => m (c, b)) (Proc.devRef .tc main_v9) = _
  simp only [linesBefore, hostOps0, hostOps0_1, hostOps0_2, hostOps0_3, hostOps0_4, hostOps0_5, List.flatten_cons,
    List.flatten_nil, List.append_nil, List.cons_append, List.nil_append]
  after_results_simp
  rfl

theorem atEntry_v10 (c : Dev nD) : atEntry m c main_v10 = extui 32 (m ((c : Thread nD τ).loc main_arg1)) natLt_1_32 := by
  show StableHlo.after (linesBefore (F := F)).flatten (fun b => m (c, b)) (Proc.devRef .tc main_v10) = _
  simp only [linesBefore, hostOps0, hostOps0_1, hostOps0_2, hostOps0_3, hostOps0_4, hostOps0_5, List.flatten_cons,
    List.flatten_nil, List.append_nil, List.cons_append, List.nil_append]
  after_results_simp

/-! ## (B) The words, one at a time -/

open Idealize.ShloMosaic.StableHlo.Predicate in
/-- A word raised to at least 0 and then lowered to at most 79 lies in [0, 79], read signed or unsigned. -/
theorem clamp_word (x : BitVec 32) :
    0 ≤ (IntOp.minsi 79#32 (IntOp.maxsi 0#32 x)).toInt ∧ (IntOp.minsi 79#32 (IntOp.maxsi 0#32 x)).toInt ≤ 79 ∧
      (IntOp.minsi 79#32 (IntOp.maxsi 0#32 x)).toNat ≤ 79 := by
  have h0 : (0#32 : BitVec 32).toInt = 0 := by decide
  have h79 : (79#32 : BitVec 32).toInt = 79 := by decide
  have hmax : 0 ≤ (IntOp.maxsi 0#32 x).toInt := by
    unfold IntOp.maxsi
    split
    · rw [h0]
    · rename_i h
      simp only [BitVec.slt, h0, decide_eq_true_eq, not_lt] at h
      exact h
  generalize IntOp.maxsi 0#32 x = z at hmax ⊢
  have hmin : 0 ≤ (IntOp.minsi 79#32 z).toInt ∧ (IntOp.minsi 79#32 z).toInt ≤ 79 := by
    unfold IntOp.minsi
    split
    · rw [h79]; omega
    · rename_i h
      simp only [BitVec.slt, h79, decide_eq_true_eq, not_lt] at h
      exact ⟨hmax, h⟩
  generalize IntOp.minsi 79#32 z = y at hmin ⊢
  have e := BitVec.toInt_eq_toNat_cond y
  have := y.isLt
  refine ⟨hmin.1, hmin.2, ?_⟩
  omega

/-- Each clamped id is the id raised to at least 0 and lowered to at most 79. -/
theorem clampedIds_apply (ids : IVec S100 32) (j : S100.Idx) :
    clampedIds ids j = IntOp.minsi 79#32 (IntOp.maxsi 0#32 (ids j)) := rfl

/-- Each clamped id is a class: between 0 and 79 as a signed word, at most 79 as a natural. -/
theorem clampedIds_range (ids : IVec S100 32) (j : S100.Idx) :
    0 ≤ (clampedIds ids j).toInt ∧ (clampedIds ids j).toInt ≤ 79 ∧ (clampedIds ids j).toNat ≤ 79 := by
  rw [clampedIds_apply]; exact clamp_word _

/-- The comparator of the host's sorts is the signed "less than" on the keys. -/
theorem comparator_eq (l r : BitVec 32 × BitVec 32) : comparator_i32_i32_d0 l r = IntOp.cmpi .slt l.1 r.1 := rfl

/-- Each word of the sorting permutation is a position: below 100. -/
theorem sortPerm_lt (ids : IVec S100 32) (j : S100.Idx) : (sortPerm ids j).toNat < 100 :=
  Cert.LibArgsort.argsort_toNat_lt (by omega) _ _ j

/-- No word of the sorting permutation is negative. -/
theorem sortPerm_not_neg (ids : IVec S100 32) (j : S100.Idx) : IntOp.cmpi .slt (sortPerm ids j) 0#32 = 0#1 :=
  Cert.LibArgsort.argsort_cmpi_slt_zero (by omega) _ _ j

/-- Each word of the inverse permutation is a position: below 100. -/
theorem invPerm_lt (ids : IVec S100 32) (j : S100.Idx) : (invPerm ids j).toNat < 100 :=
  Cert.LibArgsort.argsort_toNat_lt (by omega) _ _ j

/-- No word of the inverse permutation is negative. -/
theorem invPerm_not_neg (ids : IVec S100 32) (j : S100.Idx) : IntOp.cmpi .slt (invPerm ids j) 0#32 = 0#1 :=
  Cert.LibArgsort.argsort_cmpi_slt_zero (by omega) _ _ j

/-- The sorting permutation read through the inverse permutation is the identity table: at position k the
    inverse permutation names the position where the sorting permutation holds k. -/
theorem sortPerm_invPerm (ids : IVec S100 32) (k : Fin 100) :
    sortPerm ids (Shape.Idx.ofFin ⟨(invPerm ids (Shape.Idx.ofFin k)).toNat, invPerm_lt ids _⟩) = BitVec.ofNat 32 k.val :=
  Cert.LibArgsort.argsort_argsort (by omega) _ comparator_eq (clampedIds ids) k _

/-- The inverse permutation read through the sorting permutation is the identity table as well. -/
theorem invPerm_sortPerm (ids : IVec S100 32) (k : Fin 100) :
    invPerm ids (Shape.Idx.ofFin ⟨(sortPerm ids (Shape.Idx.ofFin k)).toNat, sortPerm_lt ids _⟩) = BitVec.ofNat 32 k.val :=
  Cert.LibArgsort.argsort_argsort_rev (by omega) _ comparator_eq (clampedIds ids) k _

/-- Where a table's word is not negative the wrap leaves it as it is. -/
theorem wrapped_apply (p : IVec S100 32) (j : S100.Idx) (h : IntOp.cmpi .slt (p j) 0#32 = 0#1) :
    wrapped p j = p j := by
  show Scalar.select (IntOp.cmpi .slt (p j) 0#32) (IntOp.addi (p j) 100#32) (p j) = p j
  rw [h]; rfl

/-- The wrap is the identity on the sorting permutation, and on the inverse permutation. -/
theorem wrapped_sortPerm (ids : IVec S100 32) : wrapped (sortPerm ids) = sortPerm ids :=
  funext fun j => wrapped_apply _ j (sortPerm_not_neg ids j)
theorem wrapped_invPerm (ids : IVec S100 32) : wrapped (invPerm ids) = invPerm ids :=
  funext fun j => wrapped_apply _ j (invPerm_not_neg ids j)

open Idealize.ShloMosaic.StableHlo.Predicate in
/-- Reading a table through a table of positions: where the k-th position is a word below 100 that is not negative,
    entry k is the table at that position. -/
theorem readThrough_apply {α : Type} (x : S100.Idx → α) (p : IVec S100 32) (k : Fin 100)
    (hneg : IntOp.cmpi .slt (p (Shape.Idx.ofFin k)) 0#32 = 0#1) (hlt : (p (Shape.Idx.ofFin k)).toNat < 100) :
    readThrough x p (Shape.Idx.ofFin k) = x (Shape.Idx.ofFin ⟨(p (Shape.Idx.ofFin k)).toNat, hlt⟩) := by
  unfold readThrough
  rw [gather_take gather_S100_S100x1_S100_n_0_n_n_0_1_1 rfl rfl rfl rfl x _ k (by decide)]
  refine congrArg (fun i => x (Shape.Idx.ofFin i)) (Fin.ext ?_)
  show min (broadcastInDim S100x1 ![0] bcast_S100_S100x1_0 (wrapped p) (ixP k)).toInt.toNat (100 - 1) = _
  rw [bcast_col1, wrapped_apply p _ hneg, toInt_eq_toNat_of_lt (by omega), Int.toNat_natCast]
  exact Nat.min_eq_left (by omega)

/-- The same at any index of the table. -/
theorem readThrough_idx {α : Type} (x : S100.Idx → α) (p : IVec S100 32) (j : S100.Idx)
    (hneg : IntOp.cmpi .slt (p j) 0#32 = 0#1) (hlt : (p j).toNat < 100) :
    readThrough x p j = x (Shape.Idx.ofFin ⟨(p j).toNat, hlt⟩) := by
  obtain ⟨k, rfl⟩ := Cert.LibArgsort.exists_ofFin j
  exact readThrough_apply x p k hneg hlt

/-- Each sorted id is the clamped id at the position the sorting permutation names. -/
theorem sortedIds_apply (ids : IVec S100 32) (j : S100.Idx) :
    sortedIds ids j = clampedIds ids (Shape.Idx.ofFin ⟨(sortPerm ids j).toNat, sortPerm_lt ids j⟩) :=
  readThrough_idx _ _ j (sortPerm_not_neg ids j) (sortPerm_lt ids j)

/-- Each sorted id is a class: between 0 and 79 as a signed word, at most 79 as a natural. -/
theorem sortedIds_range (ids : IVec S100 32) (j : S100.Idx) :
    0 ≤ (sortedIds ids j).toInt ∧ (sortedIds ids j).toInt ≤ 79 ∧ (sortedIds ids j).toNat ≤ 79 := by
  rw [sortedIds_apply]; exact clampedIds_range ids _

/-! ## The sorting permutation as a bijection of the positions -/

/-- The sorting permutation of the clamped ids as a bijection of the 100 positions: output position ↦ source position. -/
def sortEquiv (ids : IVec S100 32) : Equiv.Perm (Fin 100) :=
  Cert.LibArgsort.sortPerm comparator_i32_i32_d0 (clampedIds ids)

/-- The word of the sorting permutation at position k is the bijection's value there. -/
theorem sortPerm_apply (ids : IVec S100 32) (k : Fin 100) :
    sortPerm ids (Shape.Idx.ofFin k) = BitVec.ofNat 32 (sortEquiv ids k).val :=
  Cert.LibArgsort.argsort_apply _ _ k
theorem sortPerm_toNat (ids : IVec S100 32) (k : Fin 100) :
    (sortPerm ids (Shape.Idx.ofFin k)).toNat = (sortEquiv ids k).val :=
  Cert.LibArgsort.argsort_toNat (by omega) _ _ k

/-- The word of the inverse permutation at position k is the inverse bijection's value there. -/
theorem invPerm_apply (ids : IVec S100 32) (k : Fin 100) :
    invPerm ids (Shape.Idx.ofFin k) = BitVec.ofNat 32 ((sortEquiv ids).symm k).val :=
  Cert.LibArgsort.argsort_argsort_apply (by omega) _ comparator_eq (clampedIds ids) k
theorem invPerm_toNat (ids : IVec S100 32) (k : Fin 100) :
    (invPerm ids (Shape.Idx.ofFin k)).toNat = ((sortEquiv ids).symm k).val := by
  rw [invPerm_apply]
  exact Cert.LibArgsort.toNat_ofNat_of_lt (by have := ((sortEquiv ids).symm k).isLt; omega)

/-- The sorted id at position k is the clamped id at the bijection's value. -/
theorem sortedIds_ofFin (ids : IVec S100 32) (k : Fin 100) :
    sortedIds ids (Shape.Idx.ofFin k) = clampedIds ids (Shape.Idx.ofFin (sortEquiv ids k)) := by
  rw [sortedIds_apply]
  exact congrArg (fun i => clampedIds ids (Shape.Idx.ofFin i)) (Fin.ext (sortPerm_toNat ids k))

/-- The two permutations' tables, the sorted ids and the bijection, by their definitions. -/
theorem sortPerm_def (ids : IVec S100 32) :
    sortPerm ids = Cert.LibArgsort.argsort comparator_i32_i32_d0 (clampedIds ids) := rfl
theorem invPerm_def (ids : IVec S100 32) :
    invPerm ids = Cert.LibArgsort.argsort comparator_i32_i32_d0 (sortPerm ids) := rfl
theorem sortedIds_def (ids : IVec S100 32) : sortedIds ids = readThrough (clampedIds ids) (sortPerm ids) := rfl
theorem sortEquiv_def (ids : IVec S100 32) :
    sortEquiv ids = Cert.LibArgsort.sortPerm comparator_i32_i32_d0 (clampedIds ids) := rfl

/-! ## (C) Every block the tables name lies inside its array -/

/-- The two tables the region is handed are the sorted ids and the sorting permutation. -/
theorem tables_zero : tables m 0 = sortedIds (idsOf m 0) := atEntry_v8 m 0
theorem tables_one : tables m 1 = sortPerm (idsOf m 0) := atEntry_v1 m 0

/-- Whatever the tables hold: if every word of table 0 is at most 79 and every word of table 1 is below 100, every
    block they name lies inside its array (the element types are 32 bits wide, so the ends are word-exact). -/
theorem ok0_of_words (pf : pre0.Contents (Elt F)) (h0 : ∀ j : S100.Idx, (pf 0 j : BitVec 32).toNat ≤ 79)
    (h1 : ∀ j : S100.Idx, (pf 1 j : BitVec 32).toNat < 100) : ok0 pf := by
  refine ⟨fun i => ?_, fun i => ?_⟩
  · obtain ⟨w, hw, e⟩ : ∃ w : BitVec 32, w.toNat ≤ 79 ∧
        cc0_transform_0 Facts₀.k0_off1_inb Facts₀.numel1_S1 pf i = ![w.toNat, 0, 0] := ⟨_, h0 _, rfl⟩
    refine ⟨fun a => ?_, Or.inl rfl⟩
    rw [e]
    fin_cases a <;> simp [S1x512x512, S80x512x512] <;> omega
  · obtain ⟨w, hw, e⟩ : ∃ w : BitVec 32, w.toNat < 100 ∧
        cc0_transform_1 Facts₀.k0_off1_inb Facts₀.numel1_S1 pf i = ![w.toNat, 0, 0] := ⟨_, h1 _, rfl⟩
    refine ⟨fun a => ?_, Or.inl rfl⟩
    rw [e]
    fin_cases a <;> simp [S1x512x512, S100x512x512] <;> omega

/-- Every block the tables name lies inside its array: the sorted ids are classes and the sorting permutation's
    words are positions. -/
theorem inRange : InRange m :=
  ok0_of_words (tables m)
    (fun j => by rw [tables_zero]; exact (sortedIds_range _ j).2.2)
    (fun j => by rw [tables_one]; exact sortPerm_lt _ j)

attribute [irreducible] sortPerm invPerm sortedIds sortEquiv

end Cert.Kernel.Hand

end
-- ==== Proof.KI.Base.lean ====
/-
  The surroundings of the one kernel region of the program.

  Before the launch the host clamps the class ids into [0, 79], sorts the clamped ids with their positions
  (the positions come back as a permutation of 0..99), reads the clamped ids through that permutation, sorts the
  permutation itself (which inverts it), and widens the boolean masks to 32-bit words.  The kernel region is handed
  two tables of words: the sorted ids and the sorting permutation.  After the region the host unpacks the three
  per-core slabs, reads them through the inverse permutation and computes the loss.

  This module names those two stretches of host lines, the contents of every buffer at the moment the region is
  entered, the two tables read off those contents, the pipeline pinned at the tables (under the hypothesis that
  every block the tables name lies inside its array), the staging memrefs at a grid point and each window's block
  of its array at a point.
-/
import proofs.«409015_j49709951484027_3_alg».proof.Proof.Gen.KernelIdeal.Launch
import proofs.«409015_j49709951484027_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The host lines before the launch, stretch by stretch: two constants; the clamp; the first sort; the wrap of
    the permutation's words and the gather of the clamped ids through them; the second sort; the widened mask. -/
abbrev linesBefore : List (List (HloOp τ sig (Elt F))) :=
  [hostOps0, hostOps0_1, hostOps0_2, hostOps0_3, hostOps0_4, hostOps0_5]

/-- The host lines after the launch, stretch by stretch. -/
abbrev linesAfter : List (List (HloOp τ sig (Elt F))) :=
  [hostOps1, hostOps1_1, hostOps1_2, hostOps1_3, hostOps1_4, hostOps1_5, hostOps1_6, hostOps1_7, hostOps1_8,
    hostOps1_9, hostOps1_10]

/-- Core `c`'s buffer contents when the region is entered: the launch memory after the lines before it. -/
abbrev atEntry0 (c : Dev nD) : Valuation τ sig (Elt F) :=
  StableHlo.after (linesBefore (F := F)).flatten (fun b => m (c, b))

/-- The same, read at a TensorCore reference. -/
abbrev atEntry (c : Dev nD) (b : Ref sig .tc) : Buf (Elt F) ((c : Thread nD τ).loc b) :=
  atEntry0 m c (Proc.devRef .tc b)

/-- The two tables the region is handed: the sorted class ids and the sorting permutation, as the region finds
    them (there is one device). -/
def tables : pre0.Contents (Elt F) := fun j => atEntry m (0 : Dev nD) (pre0.ref j)

/-- On every device the tables' buffers hold those contents. -/
theorem atEntry_table (c : Dev nD) (j : Fin 2) : atEntry m c (pre0.ref j) = tables m j := by
  obtain rfl : c = 0 := Subsingleton.elim _ _; rfl

/-- Every block a table names lies inside its array: block `tables 0 [50 c + j]` inside the 80 class maps and block
    `tables 1 [50 c + j]` inside the 100 masks, at every grid point. -/
abbrev InRange : Prop := ok0 (F := F) (tables m)

/-- The tables as admissible contents, and the pipeline pinned at them. -/
abbrev admAt (h : InRange m) : (pcfg0 (F := F)).Adm := ⟨tables m, h⟩
abbrev pipeAt (h : InRange m) : Pipeline.Cfg sig Λ₀ := cfg0 (admAt m h)

/-- The current staging memref of each window at point `t`, and its wholeness: the class map, the mask, and the
    three per-core slabs (counts, sums, sums of squares). -/
abbrev stg0 (h : InRange m) (t : Fin (pipeAt m h).N) : Memref sig .tc .vmem S1x512x512 .f32 := spec0_0.stage ((pipeAt m h).slots t 0)
abbrev stg0_whole (h : InRange m) (t : Fin (pipeAt m h).N) : (stg0 m h t).IsWhole := hstage0_0 (((pipeAt m h).slots t 0).cast nbuf0_0)
abbrev stg1 (h : InRange m) (t : Fin (pipeAt m h).N) : Memref sig .tc .vmem S1x512x512 .i32 := spec0_1.stage ((pipeAt m h).slots t 1)
abbrev stg1_whole (h : InRange m) (t : Fin (pipeAt m h).N) : (stg1 m h t).IsWhole := hstage0_1 (((pipeAt m h).slots t 1).cast nbuf0_1)
abbrev stg2 (h : InRange m) (t : Fin (pipeAt m h).N) : Memref sig .tc .vmem S1x8x128 .f32 := spec0_2.stage ((pipeAt m h).slots t 2)
abbrev stg2_whole (h : InRange m) (t : Fin (pipeAt m h).N) : (stg2 m h t).IsWhole := hstage0_2 (((pipeAt m h).slots t 2).cast nbuf0_2)
abbrev stg3 (h : InRange m) (t : Fin (pipeAt m h).N) : Memref sig .tc .vmem S1x8x128 .f32 := spec0_3.stage ((pipeAt m h).slots t 3)
abbrev stg3_whole (h : InRange m) (t : Fin (pipeAt m h).N) : (stg3 m h t).IsWhole := hstage0_3 (((pipeAt m h).slots t 3).cast nbuf0_3)
abbrev stg4 (h : InRange m) (t : Fin (pipeAt m h).N) : Memref sig .tc .vmem S1x8x128 .f32 := spec0_4.stage ((pipeAt m h).slots t 4)
abbrev stg4_whole (h : InRange m) (t : Fin (pipeAt m h).N) : (stg4 m h t).IsWhole := hstage0_4 (((pipeAt m h).slots t 4).cast nbuf0_4)

/-- The kernel body as the pipeline calls it at point `t`: at the point's coordinates, on the two table buffers and
    the five current staging memrefs. -/
abbrev bodyAt (h : InRange m) (t : Fin (pipeAt m h).N) : Prog (TpuEff nD τ sig (Elt F) Λ₀ .tc) PUnit :=
  cc0__reduce_kernel (grid0.coords t) (Memref.whole main_v8) (Memref.isWhole_whole _) (Memref.whole main_v1) (Memref.isWhole_whole _)
    (stg0 m h t) (stg0_whole m h t) (stg1 m h t) (stg1_whole m h t) (stg2 m h t) (stg2_whole m h t)
    (stg3 m h t) (stg3_whole m h t) (stg4 m h t) (stg4_whole m h t)

/-- Window `w`'s block at point `t`, read off its array as the region finds it; for the class maps and the masks
    the block's position is a word of a table. -/
def blockAt (h : InRange m) (c : Dev nD) (w : Fin (pipeAt m h).W) (t : Fin (pipeAt m h).N) :
    (((pipeAt m h).win w).xblock ((pipeAt m h).grid.coords t)).Idx → Elt F ((pipeAt m h).win w).elt :=
  (((pipeAt m h).win w).blk t).view.read (Elt F) (atEntry m c (Pipeline.arrRef spec0 w))

/-- The first step of each core's half of the grid: the inner coordinate is zero.  There the body clears the three
    slabs before it adds. -/
abbrev atFirst (i : grid0.Coords) : Prop :=
  (Scalar.cmpi .ne (Scalar.extui (Scalar.cmpi .eq (BitVec.ofNat 32 (i 1).val) 0#32)) 0#32) = 1#1

/-- Over the hundred points: the first step of a half is a point whose number is a multiple of fifty. -/
theorem atFirst_iff : ∀ t : Fin grid0.N, atFirst (grid0.coords t) ↔ t.val % 50 = 0 := by decide +kernel

end Cert.KernelIdeal.Hand

end
-- ==== Proof.KI.Tables.lean ====
/-
  The words the host computes before the kernel region, and the two tables the region is handed.

  From the class ids (100 signed 32-bit words) the host computes: the ids clamped into [0, 79]; the sorting
  permutation of the clamped ids (the identity table 0, 1, …, 99 carried along by the stable ascending sort: entry k is
  the position the k-th smallest clamped id came from); the clamped ids read through that permutation, i.e. in ascending
  order; the sorting permutation of the permutation's own table, which is its inverse; and the boolean masks widened to
  32-bit words.

  (A) gives the contents of those five buffers at region entry as functions of the arguments.
  (B) reads the words one at a time: a clamped id lies in [0, 79]; a word of either permutation is a position below 100
  and is not negative, so moving negative positions up by 100 changes nothing; a table read through a table of such
  positions is, entry by entry, the table at the position; hence a sorted id is the clamped id at the position the
  sorting permutation names, and lies in [0, 79].  The permutations are also given as a bijection of the 100 positions
  and its inverse.
  (C) concludes that every block the two tables name lies inside its array: block number (sorted id) among the 80 class
  maps, block number (position) among the 100 masks, at every grid point; the element types are 32 bits wide, so the
  transfers' ends are word-exact.
-/
import proofs.«409015_j49709951484027_3_alg».proof.Proof.KI.Base
import proofs.«409015_j49709951484027_3_alg».proof.Proof.LibArgsortInverse
import Idealize.ShloMosaic.Lib.StableHlo.Predicate
import Idealize.ShloMosaic.Lib.WordArith

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The host's words before the region, as functions of the class ids -/

/-- The class ids clamped into [0, 79]: first raised to at least 0, then lowered to at most 79. -/
def clampedIds (ids : IVec S100 32) : IVec S100 32 :=
  minsi (broadcastInDim S100 ![] bcast_S_S100 (constantI S_ 32 79#32))
    (maxsi (broadcastInDim S100 ![] bcast_S_S100 (constantI S_ 32 0#32)) ids)

/-- The sorting permutation of the clamped ids, as a table of words: entry k is the position the k-th smallest
    clamped id came from (the identity table carried along by the stable ascending sort). -/
def sortPerm (ids : IVec S100 32) : IVec S100 32 :=
  Cert.LibArgsort.argsort comparator_i32_i32_d0 (clampedIds ids)

/-- A table of positions with its negative words moved up by 100 (a negative position counts from the end). -/
def wrapped (p : IVec S100 32) : IVec S100 32 :=
  select (cmpi .slt p (broadcastInDim S100 ![] bcast_S_S100 (constantI S_ 32 0#32)))
    (addi p (broadcastInDim S100 ![] bcast_S_S100 (constantI S_ 32 100#32))) p

/-- A table of 100 values read through a table of positions: entry k is the table at the (wrapped) k-th position. -/
def readThrough {α : Type} (x : S100.Idx → α) (p : IVec S100 32) : S100.Idx → α :=
  Host.gather gather_S100_S100x1_S100_n_0_n_n_0_1_1 x (broadcastInDim S100x1 ![0] bcast_S100_S100x1_0 (wrapped p))

/-- The clamped ids in ascending order: read through the sorting permutation. -/
def sortedIds (ids : IVec S100 32) : IVec S100 32 := readThrough (clampedIds ids) (sortPerm ids)

/-- The position table of the sort of the sorting permutation: the inverse permutation. -/
def invPerm (ids : IVec S100 32) : IVec S100 32 :=
  Cert.LibArgsort.argsort comparator_i32_i32_d0 (sortPerm ids)

/-- The class ids as core c's launch memory holds them. -/
abbrev idsOf (c : Dev nD) : IVec S100 32 := m ((c : Thread nD τ).loc main_arg2)

/-! ## (A) The buffers at region entry -/

theorem atEntry_v0 (c : Dev nD) : atEntry m c main_v0 = clampedIds (idsOf m c) := by
  show StableHlo.after (linesBefore (F := F)).flatten (fun b => m (c, b)) (Proc.devRef .tc main_v0) = _
  simp only [linesBefore, hostOps0, hostOps0_1, hostOps0_2, hostOps0_3, hostOps0_4, hostOps0_5, List.flatten_cons,
    List.flatten_nil, List.append_nil, List.cons_append, List.nil_append]
  after_results_simp
  rfl

theorem atEntry_v1 (c : Dev nD) : atEntry m c main_v1 = sortPerm (idsOf m c) := by
  show StableHlo.after (linesBefore (F := F)).flatten (fun b => m (c, b)) (Proc.devRef .tc main_v1) = _
  simp only [linesBefore, hostOps0, hostOps0_1, hostOps0_2, hostOps0_3, hostOps0_4, hostOps0_5, List.flatten_cons,
    List.flatten_nil, List.append_nil, List.cons_append, List.nil_append]
  after_results_simp
  rfl

theorem atEntry_v8 (c : Dev nD) : atEntry m c main_v8 = sortedIds (idsOf m c) := by
  show StableHlo.after (linesBefore (F := F)).flatten (fun b => m (c, b)) (Proc.devRef .tc main_v8) = _
  simp only [linesBefore, hostOps0, hostOps0_1, hostOps0_2, hostOps0_3, hostOps0_4, hostOps0_5, List.flatten_cons,
    List.flatten_nil, List.append_nil, List.cons_append, List.nil_append]
  after_results_simp
  rfl

theorem atEntry_v9 (c : Dev nD) : atEntry m c main_v9 = invPerm (idsOf m c) := by
  show StableHlo.after (linesBefore (F := F)).flatten (fun b => m (c, b)) (Proc.devRef .tc main_v9) = _
  simp only [linesBefore, hostOps0, hostOps0_1, hostOps0_2, hostOps0_3, hostOps0_4, hostOps0_5, List.flatten_cons,
    List.flatten_nil, List.append_nil, List.cons_append, List.nil_append]
  after_results_simp
  rfl

theorem atEntry_v10 (c : Dev nD) : atEntry m c main_v10 = extui 32 (m ((c : Thread nD τ).loc main_arg1)) natLt_1_32 := by
  show StableHlo.after (linesBefore (F := F)).flatten (fun b => m (c, b)) (Proc.devRef .tc main_v10) = _
  simp only [linesBefore, hostOps0, hostOps0_1, hostOps0_2, hostOps0_3, hostOps0_4, hostOps0_5, List.flatten_cons,
    List.flatten_nil, List.append_nil, List.cons_append, List.nil_append]
  after_results_simp

/-! ## (B) The words, one at a time -/

open Idealize.ShloMosaic.StableHlo.Predicate in
/-- A word raised to at least 0 and then lowered to at most 79 lies in [0, 79], read signed or unsigned. -/
theorem clamp_word (x : BitVec 32) :
    0 ≤ (IntOp.minsi 79#32 (IntOp.maxsi 0#32 x)).toInt ∧ (IntOp.minsi 79#32 (IntOp.maxsi 0#32 x)).toInt ≤ 79 ∧
      (IntOp.minsi 79#32 (IntOp.maxsi 0#32 x)).toNat ≤ 79 := by
  have h0 : (0#32 : BitVec 32).toInt = 0 := by decide
  have h79 : (79#32 : BitVec 32).toInt = 79 := by decide
  have hmax : 0 ≤ (IntOp.maxsi 0#32 x).toInt := by
    unfold IntOp.maxsi
    split
    · rw [h0]
    · rename_i h
      simp only [BitVec.slt, h0, decide_eq_true_eq, not_lt] at h
      exact h
  generalize IntOp.maxsi 0#32 x = z at hmax ⊢
  have hmin : 0 ≤ (IntOp.minsi 79#32 z).toInt ∧ (IntOp.minsi 79#32 z).toInt ≤ 79 := by
    unfold IntOp.minsi
    split
    · rw [h79]; omega
    · rename_i h
      simp only [BitVec.slt, h79, decide_eq_true_eq, not_lt] at h
      exact ⟨hmax, h⟩
  generalize IntOp.minsi 79#32 z = y at hmin ⊢
  have e := BitVec.toInt_eq_toNat_cond y
  have := y.isLt
  refine ⟨hmin.1, hmin.2, ?_⟩
  omega

/-- Each clamped id is the id raised to at least 0 and lowered to at most 79. -/
theorem clampedIds_apply (ids : IVec S100 32) (j : S100.Idx) :
    clampedIds ids j = IntOp.minsi 79#32 (IntOp.maxsi 0#32 (ids j)) := rfl

/-- Each clamped id is a class: between 0 and 79 as a signed word, at most 79 as a natural. -/
theorem clampedIds_range (ids : IVec S100 32) (j : S100.Idx) :
    0 ≤ (clampedIds ids j).toInt ∧ (clampedIds ids j).toInt ≤ 79 ∧ (clampedIds ids j).toNat ≤ 79 := by
  rw [clampedIds_apply]; exact clamp_word _

/-- The comparator of the host's sorts is the signed "less than" on the keys. -/
theorem comparator_eq (l r : BitVec 32 × BitVec 32) : comparator_i32_i32_d0 l r = IntOp.cmpi .slt l.1 r.1 := rfl

/-- Each word of the sorting permutation is a position: below 100. -/
theorem sortPerm_lt (ids : IVec S100 32) (j : S100.Idx) : (sortPerm ids j).toNat < 100 :=
  Cert.LibArgsort.argsort_toNat_lt (by omega) _ _ j

/-- No word of the sorting permutation is negative. -/
theorem sortPerm_not_neg (ids : IVec S100 32) (j : S100.Idx) : IntOp.cmpi .slt (sortPerm ids j) 0#32 = 0#1 :=
  Cert.LibArgsort.argsort_cmpi_slt_zero (by omega) _ _ j

/-- Each word of the inverse permutation is a position: below 100. -/
theorem invPerm_lt (ids : IVec S100 32) (j : S100.Idx) : (invPerm ids j).toNat < 100 :=
  Cert.LibArgsort.argsort_toNat_lt (by omega) _ _ j

/-- No word of the inverse permutation is negative. -/
theorem invPerm_not_neg (ids : IVec S100 32) (j : S100.Idx) : IntOp.cmpi .slt (invPerm ids j) 0#32 = 0#1 :=
  Cert.LibArgsort.argsort_cmpi_slt_zero (by omega) _ _ j

/-- The sorting permutation read through the inverse permutation is the identity table: at position k the
    inverse permutation names the position where the sorting permutation holds k. -/
theorem sortPerm_invPerm (ids : IVec S100 32) (k : Fin 100) :
    sortPerm ids (Shape.Idx.ofFin ⟨(invPerm ids (Shape.Idx.ofFin k)).toNat, invPerm_lt ids _⟩) = BitVec.ofNat 32 k.val :=
  Cert.LibArgsort.argsort_argsort (by omega) _ comparator_eq (clampedIds ids) k _

/-- The inverse permutation read through the sorting permutation is the identity table as well. -/
theorem invPerm_sortPerm (ids : IVec S100 32) (k : Fin 100) :
    invPerm ids (Shape.Idx.ofFin ⟨(sortPerm ids (Shape.Idx.ofFin k)).toNat, sortPerm_lt ids _⟩) = BitVec.ofNat 32 k.val :=
  Cert.LibArgsort.argsort_argsort_rev (by omega) _ comparator_eq (clampedIds ids) k _

/-- Where a table's word is not negative the wrap leaves it as it is. -/
theorem wrapped_apply (p : IVec S100 32) (j : S100.Idx) (h : IntOp.cmpi .slt (p j) 0#32 = 0#1) :
    wrapped p j = p j := by
  show Scalar.select (IntOp.cmpi .slt (p j) 0#32) (IntOp.addi (p j) 100#32) (p j) = p j
  rw [h]; rfl

/-- The wrap is the identity on the sorting permutation, and on the inverse permutation. -/
theorem wrapped_sortPerm (ids : IVec S100 32) : wrapped (sortPerm ids) = sortPerm ids :=
  funext fun j => wrapped_apply _ j (sortPerm_not_neg ids j)
theorem wrapped_invPerm (ids : IVec S100 32) : wrapped (invPerm ids) = invPerm ids :=
  funext fun j => wrapped_apply _ j (invPerm_not_neg ids j)

open Idealize.ShloMosaic.StableHlo.Predicate in
/-- Reading a table through a table of positions: where the k-th position is a word below 100 that is not negative,
    entry k is the table at that position. -/
theorem readThrough_apply {α : Type} (x : S100.Idx → α) (p : IVec S100 32) (k : Fin 100)
    (hneg : IntOp.cmpi .slt (p (Shape.Idx.ofFin k)) 0#32 = 0#1) (hlt : (p (Shape.Idx.ofFin k)).toNat < 100) :
    readThrough x p (Shape.Idx.ofFin k) = x (Shape.Idx.ofFin ⟨(p (Shape.Idx.ofFin k)).toNat, hlt⟩) := by
  unfold readThrough
  rw [gather_take gather_S100_S100x1_S100_n_0_n_n_0_1_1 rfl rfl rfl rfl x _ k (by decide)]
  refine congrArg (fun i => x (Shape.Idx.ofFin i)) (Fin.ext ?_)
  show min (broadcastInDim S100x1 ![0] bcast_S100_S100x1_0 (wrapped p) (ixP k)).toInt.toNat (100 - 1) = _
  rw [bcast_col1, wrapped_apply p _ hneg, toInt_eq_toNat_of_lt (by omega), Int.toNat_natCast]
  exact Nat.min_eq_left (by omega)

/-- The same at any index of the table. -/
theorem readThrough_idx {α : Type} (x : S100.Idx → α) (p : IVec S100 32) (j : S100.Idx)
    (hneg : IntOp.cmpi .slt (p j) 0#32 = 0#1) (hlt : (p j).toNat < 100) :
    readThrough x p j = x (Shape.Idx.ofFin ⟨(p j).toNat, hlt⟩) := by
  obtain ⟨k, rfl⟩ := Cert.LibArgsort.exists_ofFin j
  exact readThrough_apply x p k hneg hlt

/-- Each sorted id is the clamped id at the position the sorting permutation names. -/
theorem sortedIds_apply (ids : IVec S100 32) (j : S100.Idx) :
    sortedIds ids j = clampedIds ids (Shape.Idx.ofFin ⟨(sortPerm ids j).toNat, sortPerm_lt ids j⟩) :=
  readThrough_idx _ _ j (sortPerm_not_neg ids j) (sortPerm_lt ids j)

/-- Each sorted id is a class: between 0 and 79 as a signed word, at most 79 as a natural. -/
theorem sortedIds_range (ids : IVec S100 32) (j : S100.Idx) :
    0 ≤ (sortedIds ids j).toInt ∧ (sortedIds ids j).toInt ≤ 79 ∧ (sortedIds ids j).toNat ≤ 79 := by
  rw [sortedIds_apply]; exact clampedIds_range ids _

/-! ## The sorting permutation as a bijection of the positions -/

/-- The sorting permutation of the clamped ids as a bijection of the 100 positions: output position ↦ source position. -/
def sortEquiv (ids : IVec S100 32) : Equiv.Perm (Fin 100) :=
  Cert.LibArgsort.sortPerm comparator_i32_i32_d0 (clampedIds ids)

/-- The word of the sorting permutation at position k is the bijection's value there. -/
theorem sortPerm_apply (ids : IVec S100 32) (k : Fin 100) :
    sortPerm ids (Shape.Idx.ofFin k) = BitVec.ofNat 32 (sortEquiv ids k).val :=
  Cert.LibArgsort.argsort_apply _ _ k
theorem sortPerm_toNat (ids : IVec S100 32) (k : Fin 100) :
    (sortPerm ids (Shape.Idx.ofFin k)).toNat = (sortEquiv ids k).val :=
  Cert.LibArgsort.argsort_toNat (by omega) _ _ k

/-- The word of the inverse permutation at position k is the inverse bijection's value there. -/
theorem invPerm_apply (ids : IVec S100 32) (k : Fin 100) :
    invPerm ids (Shape.Idx.ofFin k) = BitVec.ofNat 32 ((sortEquiv ids).symm k).val :=
  Cert.LibArgsort.argsort_argsort_apply (by omega) _ comparator_eq (clampedIds ids) k
theorem invPerm_toNat (ids : IVec S100 32) (k : Fin 100) :
    (invPerm ids (Shape.Idx.ofFin k)).toNat = ((sortEquiv ids).symm k).val := by
  rw [invPerm_apply]
  exact Cert.LibArgsort.toNat_ofNat_of_lt (by have := ((sortEquiv ids).symm k).isLt; omega)

/-- The sorted id at position k is the clamped id at the bijection's value. -/
theorem sortedIds_ofFin (ids : IVec S100 32) (k : Fin 100) :
    sortedIds ids (Shape.Idx.ofFin k) = clampedIds ids (Shape.Idx.ofFin (sortEquiv ids k)) := by
  rw [sortedIds_apply]
  exact congrArg (fun i => clampedIds ids (Shape.Idx.ofFin i)) (Fin.ext (sortPerm_toNat ids k))

/-- The two permutations' tables, the sorted ids and the bijection, by their definitions. -/
theorem sortPerm_def (ids : IVec S100 32) :
    sortPerm ids = Cert.LibArgsort.argsort comparator_i32_i32_d0 (clampedIds ids) := rfl
theorem invPerm_def (ids : IVec S100 32) :
    invPerm ids = Cert.LibArgsort.argsort comparator_i32_i32_d0 (sortPerm ids) := rfl
theorem sortedIds_def (ids : IVec S100 32) : sortedIds ids = readThrough (clampedIds ids) (sortPerm ids) := rfl
theorem sortEquiv_def (ids : IVec S100 32) :
    sortEquiv ids = Cert.LibArgsort.sortPerm comparator_i32_i32_d0 (clampedIds ids) := rfl

/-! ## (C) Every block the tables name lies inside its array -/

/-- The two tables the region is handed are the sorted ids and the sorting permutation. -/
theorem tables_zero : tables m 0 = sortedIds (idsOf m 0) := atEntry_v8 m 0
theorem tables_one : tables m 1 = sortPerm (idsOf m 0) := atEntry_v1 m 0

/-- Whatever the tables hold: if every word of table 0 is at most 79 and every word of table 1 is below 100, every
    block they name lies inside its array (the element types are 32 bits wide, so the ends are word-exact). -/
theorem ok0_of_words (pf : pre0.Contents (Elt F)) (h0 : ∀ j : S100.Idx, (pf 0 j : BitVec 32).toNat ≤ 79)
    (h1 : ∀ j : S100.Idx, (pf 1 j : BitVec 32).toNat < 100) : ok0 pf := by
  refine ⟨fun i => ?_, fun i => ?_⟩
  · obtain ⟨w, hw, e⟩ : ∃ w : BitVec 32, w.toNat ≤ 79 ∧
        cc0_transform_0 Facts₀.k0_off1_inb Facts₀.numel1_S1 pf i = ![w.toNat, 0, 0] := ⟨_, h0 _, rfl⟩
    refine ⟨fun a => ?_, Or.inl rfl⟩
    rw [e]
    fin_cases a <;> simp [S1x512x512, S80x512x512] <;> omega
  · obtain ⟨w, hw, e⟩ : ∃ w : BitVec 32, w.toNat < 100 ∧
        cc0_transform_1 Facts₀.k0_off1_inb Facts₀.numel1_S1 pf i = ![w.toNat, 0, 0] := ⟨_, h1 _, rfl⟩
    refine ⟨fun a => ?_, Or.inl rfl⟩
    rw [e]
    fin_cases a <;> simp [S1x512x512, S100x512x512] <;> omega

/-- Every block the tables name lies inside its array: the sorted ids are classes and the sorting permutation's
    words are positions. -/
theorem inRange : InRange m :=
  ok0_of_words (tables m)
    (fun j => by rw [tables_zero]; exact (sortedIds_range _ j).2.2)
    (fun j => by rw [tables_one]; exact sortPerm_lt _ j)

attribute [irreducible] sortPerm invPerm sortedIds sortEquiv

end Cert.KernelIdeal.Hand

end
-- ==== Proof.KI.Runs.lean ====
/-
  The kernel body on any whole staging memrefs, in its two control cases.

  At the first step of a core's half of the grid (inner coordinate zero) the body first stores a vector of zeros into
  each of the three slabs, then loads the class map and the mask, and for each slab loads it back and stores
  slab + onehot(inner coordinate) · value, the three values being the count of set mask words, the masked sum and the
  masked sum of squares of the class map.  At a later step there is no clearing: each slab holds what the step before
  left, which is loaded and accumulated into.

  For each case this module gives: the lists of pieces the run leaves in the three slabs together with the body's
  triple (the lists are found by the run itself); the fact that each list covers the slab; the slab's contents after
  the run as one vector; and that vector as the payloads of the body's stores applied to the contents before.
-/
import proofs.«409015_j49709951484027_3_alg».proof.Proof.KI.Base
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The pieces a run leaves in one slab. -/
abbrev Pieces (F : FTy → Type) [FloatOps F] : Type := List (View.Piece (Elt F) S1x8x128 .f32)

/-- One view of a slab's shape, through which what a run leaves is read back. -/
abbrev slabView : View sig .tc .vmem S1x8x128 .f32 := (Memref.whole cc0_stg2_0 : Memref sig .tc .vmem S1x8x128 .f32).view

set_option maxHeartbeats 1000000 in
/-- THE FIRST step of a core's half (inner coordinate zero).  The slabs hold anything; the body stores zeros into
    each, loads the class map and the mask, then loads each slab back and stores it updated.  The value is the three
    lists of pieces the stores leave (last first), with the triple: holding the class map at `x4`, the mask at
    `x5`, each slab at some contents, and a continuation that accepts the two inputs as they were and each slab with
    its pieces written, the body runs to that continuation. -/
noncomputable def runFirst (c : Dev nD) (i : grid0.Coords)
    (arg2 : Memref sig .tc .smem S100 .i32) (harg2 : arg2.IsWhole) (arg3 : Memref sig .tc .smem S100 .i32) (harg3 : arg3.IsWhole)
    (arg4 : Memref sig .tc .vmem S1x512x512 .f32) (harg4 : arg4.IsWhole) (arg5 : Memref sig .tc .vmem S1x512x512 .i32) (harg5 : arg5.IsWhole)
    (arg6 : Memref sig .tc .vmem S1x8x128 .f32) (harg6 : arg6.IsWhole) (arg7 : Memref sig .tc .vmem S1x8x128 .f32) (harg7 : arg7.IsWhole)
    (arg8 : Memref sig .tc .vmem S1x8x128 .f32) (harg8 : arg8.IsWhole)
    (hc : atFirst i) (x4 : Vec F S1x512x512 .f32) (x5 : Vec F S1x512x512 .i32) :
    { L : Pieces F × Pieces F × Pieces F //
      ∀ (E : Set ℕ) (K : PUnit → sProp 𝕄),
        iprop(owns (c : Thread nD τ) arg4 fullShare x4 ∗ owns (c : Thread nD τ) arg5 fullShare x5
            ∗ (∃ f, owns (c : Thread nD τ) arg6 fullShare f) ∗ (∃ f, owns (c : Thread nD τ) arg7 fullShare f)
            ∗ (∃ f, owns (c : Thread nD τ) arg8 fullShare f)
            ∗ (iprop(owns (c : Thread nD τ) arg4 fullShare x4 ∗ owns (c : Thread nD τ) arg5 fullShare x5
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2.1)
                ∗ (∃ f, arg8.view.loc (c : Thread nD τ) ↦[arg8.view.set]{fullShare} arg8.view.writes (Elt F) f L.2.2)) -∗ K ⟨⟩))
          ⊢ wp frame (wpE (defs₀ (F := F)) Variants.none c none) E
              (cc0__reduce_kernel i arg2 harg2 arg3 harg3 arg4 harg4 arg5 harg5 arg6 harg6 arg7 harg7 arg8 harg8) K } := by
  refine ⟨(?_, ?_, ?_), fun E K => ?run⟩
  case run =>
    simp only [cc0__reduce_kernel_eq_skeleton]; unfold cc0__reduce_kernel_skel
    unfold owns
    iintro ⟨⟨%f4, %hf4, H4⟩, ⟨%f5, %hf5, H5⟩, ⟨%d6, %f6, -, H6⟩, ⟨%d7, %f7, -, H7⟩, ⟨%d8, %f8, -, H8⟩, Hk⟩
    obtain rfl := harg4.eq_unread hf4; obtain rfl := harg5.eq_unread hf5
    sl_exec (disch := first | exact hc)
    sl_step
    iapply Hk
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

set_option maxHeartbeats 1000000 in
/-- A LATER step (inner coordinate not zero).  The three slabs hold running contents `xo6 xo7 xo8`; there is no
    clearing: the body loads the class map and the mask, loads each slab and stores it back updated.  The value is
    the three lists of pieces the stores leave, with the triple: holding the class map at `x4`, the mask at `x5`,
    the slabs at their running contents, and a continuation as in the first case, the body runs to it. -/
noncomputable def runLater (c : Dev nD) (i : grid0.Coords)
    (arg2 : Memref sig .tc .smem S100 .i32) (harg2 : arg2.IsWhole) (arg3 : Memref sig .tc .smem S100 .i32) (harg3 : arg3.IsWhole)
    (arg4 : Memref sig .tc .vmem S1x512x512 .f32) (harg4 : arg4.IsWhole) (arg5 : Memref sig .tc .vmem S1x512x512 .i32) (harg5 : arg5.IsWhole)
    (arg6 : Memref sig .tc .vmem S1x8x128 .f32) (harg6 : arg6.IsWhole) (arg7 : Memref sig .tc .vmem S1x8x128 .f32) (harg7 : arg7.IsWhole)
    (arg8 : Memref sig .tc .vmem S1x8x128 .f32) (harg8 : arg8.IsWhole)
    (hc : ¬ atFirst i) (x4 : Vec F S1x512x512 .f32) (x5 : Vec F S1x512x512 .i32)
    (xo6 xo7 xo8 : Vec F S1x8x128 .f32) :
    { L : Pieces F × Pieces F × Pieces F //
      ∀ (E : Set ℕ) (K : PUnit → sProp 𝕄),
        iprop(owns (c : Thread nD τ) arg4 fullShare x4 ∗ owns (c : Thread nD τ) arg5 fullShare x5
            ∗ owns (c : Thread nD τ) arg6 fullShare xo6 ∗ owns (c : Thread nD τ) arg7 fullShare xo7
            ∗ owns (c : Thread nD τ) arg8 fullShare xo8
            ∗ (iprop(owns (c : Thread nD τ) arg4 fullShare x4 ∗ owns (c : Thread nD τ) arg5 fullShare x5
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2.1)
                ∗ (∃ f, arg8.view.loc (c : Thread nD τ) ↦[arg8.view.set]{fullShare} arg8.view.writes (Elt F) f L.2.2)) -∗ K ⟨⟩))
          ⊢ wp frame (wpE (defs₀ (F := F)) Variants.none c none) E
              (cc0__reduce_kernel i arg2 harg2 arg3 harg3 arg4 harg4 arg5 harg5 arg6 harg6 arg7 harg7 arg8 harg8) K } := by
  refine ⟨(?_, ?_, ?_), fun E K => ?run⟩
  case run =>
    simp only [cc0__reduce_kernel_eq_skeleton]; unfold cc0__reduce_kernel_skel
    unfold owns
    iintro ⟨⟨%f4, %hf4, H4⟩, ⟨%f5, %hf5, H5⟩, ⟨%f6, %hf6, H6⟩, ⟨%f7, %hf7, H7⟩, ⟨%f8, %hf8, H8⟩, Hk⟩
    obtain rfl := harg4.eq_unread hf4; obtain rfl := harg5.eq_unread hf5
    obtain rfl := harg6.eq_unread hf6; obtain rfl := harg7.eq_unread hf7; obtain rfl := harg8.eq_unread hf8
    sl_exec (disch := first | exact hc)
    sl_step
    iapply Hk
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

section Left

variable (c : Dev nD) (i : grid0.Coords)
  (arg2 : Memref sig .tc .smem S100 .i32) (harg2 : arg2.IsWhole) (arg3 : Memref sig .tc .smem S100 .i32) (harg3 : arg3.IsWhole)
  (arg4 : Memref sig .tc .vmem S1x512x512 .f32) (harg4 : arg4.IsWhole) (arg5 : Memref sig .tc .vmem S1x512x512 .i32) (harg5 : arg5.IsWhole)
  (arg6 : Memref sig .tc .vmem S1x8x128 .f32) (harg6 : arg6.IsWhole) (arg7 : Memref sig .tc .vmem S1x8x128 .f32) (harg7 : arg7.IsWhole)
  (arg8 : Memref sig .tc .vmem S1x8x128 .f32) (harg8 : arg8.IsWhole)

/-! ## The pieces cover

In either case every store into a slab is through the rectangle of the whole slab, so each slab's pieces tile it and
every index of the slab lies in some piece. -/

/-- Every index of the slab of counts lies in a piece the first-step run leaves there. -/
theorem runFirst_cover6 (hc : atFirst i) (x4 : Vec F S1x512x512 .f32) (x5 : Vec F S1x512x512 .i32) (y : S1x8x128.Idx) :
    ∃ pc ∈ (runFirst c i arg2 harg2 arg3 harg3 arg4 harg4 arg5 harg5 arg6 harg6 arg7 harg7 arg8 harg8 hc x4 x5).1.1, y ∈ pc.1.set :=
  View.cover_of_tiledL (runFirst c i arg2 harg2 arg3 harg3 arg4 harg4 arg5 harg5 arg6 harg6 arg7 harg7 arg8 harg8 hc x4 x5).1.1 S1x8x128.size (by sl_kernel_rfl) y

/-- Every index of the slab of sums lies in a piece the first-step run leaves there. -/
theorem runFirst_cover7 (hc : atFirst i) (x4 : Vec F S1x512x512 .f32) (x5 : Vec F S1x512x512 .i32) (y : S1x8x128.Idx) :
    ∃ pc ∈ (runFirst c i arg2 harg2 arg3 harg3 arg4 harg4 arg5 harg5 arg6 harg6 arg7 harg7 arg8 harg8 hc x4 x5).1.2.1, y ∈ pc.1.set :=
  View.cover_of_tiledL (runFirst c i arg2 harg2 arg3 harg3 arg4 harg4 arg5 harg5 arg6 harg6 arg7 harg7 arg8 harg8 hc x4 x5).1.2.1 S1x8x128.size (by sl_kernel_rfl) y

/-- Every index of the slab of sums of squares lies in a piece the first-step run leaves there. -/
theorem runFirst_cover8 (hc : atFirst i) (x4 : Vec F S1x512x512 .f32) (x5 : Vec F S1x512x512 .i32) (y : S1x8x128.Idx) :
    ∃ pc ∈ (runFirst c i arg2 harg2 arg3 harg3 arg4 harg4 arg5 harg5 arg6 harg6 arg7 harg7 arg8 harg8 hc x4 x5).1.2.2, y ∈ pc.1.set :=
  View.cover_of_tiledL (runFirst c i arg2 harg2 arg3 harg3 arg4 harg4 arg5 harg5 arg6 harg6 arg7 harg7 arg8 harg8 hc x4 x5).1.2.2 S1x8x128.size (by sl_kernel_rfl) y

/-- Every index of the slab of counts lies in a piece a later-step run leaves there. -/
theorem runLater_cover6 (hc : ¬ atFirst i) (x4 : Vec F S1x512x512 .f32) (x5 : Vec F S1x512x512 .i32) (xo6 xo7 xo8 : Vec F S1x8x128 .f32) (y : S1x8x128.Idx) :
    ∃ pc ∈ (runLater c i arg2 harg2 arg3 harg3 arg4 harg4 arg5 harg5 arg6 harg6 arg7 harg7 arg8 harg8 hc x4 x5 xo6 xo7 xo8).1.1, y ∈ pc.1.set :=
  View.cover_of_tiledL (runLater c i arg2 harg2 arg3 harg3 arg4 harg4 arg5 harg5 arg6 harg6 arg7 harg7 arg8 harg8 hc x4 x5 xo6 xo7 xo8).1.1 S1x8x128.size (by sl_kernel_rfl) y

/-- Every index of the slab of sums lies in a piece a later-step run leaves there. -/
theorem runLater_cover7 (hc : ¬ atFirst i) (x4 : Vec F S1x512x512 .f32) (x5 : Vec F S1x512x512 .i32) (xo6 xo7 xo8 : Vec F S1x8x128 .f32) (y : S1x8x128.Idx) :
    ∃ pc ∈ (runLater c i arg2 harg2 arg3 harg3 arg4 harg4 arg5 harg5 arg6 harg6 arg7 harg7 arg8 harg8 hc x4 x5 xo6 xo7 xo8).1.2.1, y ∈ pc.1.set :=
  View.cover_of_tiledL (runLater c i arg2 harg2 arg3 harg3 arg4 harg4 arg5 harg5 arg6 harg6 arg7 harg7 arg8 harg8 hc x4 x5 xo6 xo7 xo8).1.2.1 S1x8x128.size (by sl_kernel_rfl) y

/-- Every index of the slab of sums of squares lies in a piece a later-step run leaves there. -/
theorem runLater_cover8 (hc : ¬ atFirst i) (x4 : Vec F S1x512x512 .f32) (x5 : Vec F S1x512x512 .i32) (xo6 xo7 xo8 : Vec F S1x8x128 .f32) (y : S1x8x128.Idx) :
    ∃ pc ∈ (runLater c i arg2 harg2 arg3 harg3 arg4 harg4 arg5 harg5 arg6 harg6 arg7 harg7 arg8 harg8 hc x4 x5 xo6 xo7 xo8).1.2.2, y ∈ pc.1.set :=
  View.cover_of_tiledL (runLater c i arg2 harg2 arg3 harg3 arg4 harg4 arg5 harg5 arg6 harg6 arg7 harg7 arg8 harg8 hc x4 x5 xo6 xo7 xo8).1.2.2 S1x8x128.size (by sl_kernel_rfl) y

/-! ## What each case leaves in each slab

A slab's contents after a run: its pieces written over junk and read back through the one fixed view (the pieces
cover, so neither the view nor the contents before matter). -/

/-- What the first-step run leaves in the slab of counts: its pieces read back. -/
def leftFirst6 (hc : atFirst i) (x4 : Vec F S1x512x512 .f32) (x5 : Vec F S1x512x512 .i32) : Vec F S1x8x128 .f32 :=
  slabView.read (Elt F) (slabView.writes (Elt F) slabView.junk (runFirst c i arg2 harg2 arg3 harg3 arg4 harg4 arg5 harg5 arg6 harg6 arg7 harg7 arg8 harg8 hc x4 x5).1.1)

/-- What the first-step run leaves in the slab of sums: its pieces read back. -/
def leftFirst7 (hc : atFirst i) (x4 : Vec F S1x512x512 .f32) (x5 : Vec F S1x512x512 .i32) : Vec F S1x8x128 .f32 :=
  slabView.read (Elt F) (slabView.writes (Elt F) slabView.junk (runFirst c i arg2 harg2 arg3 harg3 arg4 harg4 arg5 harg5 arg6 harg6 arg7 harg7 arg8 harg8 hc x4 x5).1.2.1)

/-- What the first-step run leaves in the slab of sums of squares: its pieces read back. -/
def leftFirst8 (hc : atFirst i) (x4 : Vec F S1x512x512 .f32) (x5 : Vec F S1x512x512 .i32) : Vec F S1x8x128 .f32 :=
  slabView.read (Elt F) (slabView.writes (Elt F) slabView.junk (runFirst c i arg2 harg2 arg3 harg3 arg4 harg4 arg5 harg5 arg6 harg6 arg7 harg7 arg8 harg8 hc x4 x5).1.2.2)

/-- What a later-step run leaves in the slab of counts: its pieces read back. -/
def leftLater6 (hc : ¬ atFirst i) (x4 : Vec F S1x512x512 .f32) (x5 : Vec F S1x512x512 .i32) (xo6 xo7 xo8 : Vec F S1x8x128 .f32) : Vec F S1x8x128 .f32 :=
  slabView.read (Elt F) (slabView.writes (Elt F) slabView.junk (runLater c i arg2 harg2 arg3 harg3 arg4 harg4 arg5 harg5 arg6 harg6 arg7 harg7 arg8 harg8 hc x4 x5 xo6 xo7 xo8).1.1)

/-- What a later-step run leaves in the slab of sums: its pieces read back. -/
def leftLater7 (hc : ¬ atFirst i) (x4 : Vec F S1x512x512 .f32) (x5 : Vec F S1x512x512 .i32) (xo6 xo7 xo8 : Vec F S1x8x128 .f32) : Vec F S1x8x128 .f32 :=
  slabView.read (Elt F) (slabView.writes (Elt F) slabView.junk (runLater c i arg2 harg2 arg3 harg3 arg4 harg4 arg5 harg5 arg6 harg6 arg7 harg7 arg8 harg8 hc x4 x5 xo6 xo7 xo8).1.2.1)

/-- What a later-step run leaves in the slab of sums of squares: its pieces read back. -/
def leftLater8 (hc : ¬ atFirst i) (x4 : Vec F S1x512x512 .f32) (x5 : Vec F S1x512x512 .i32) (xo6 xo7 xo8 : Vec F S1x8x128 .f32) : Vec F S1x8x128 .f32 :=
  slabView.read (Elt F) (slabView.writes (Elt F) slabView.junk (runLater c i arg2 harg2 arg3 harg3 arg4 harg4 arg5 harg5 arg6 harg6 arg7 harg7 arg8 harg8 hc x4 x5 xo6 xo7 xo8).1.2.2)

/-! ## The values

Each slab ends as the payload of its last store, which covers the slab: the slab's contents before that store (what
was loaded from it) plus, at the position of the inner coordinate, the value reduced from the class map and the mask.
At a later step the contents before are the running contents; at the first step they are the zeros just stored, which
the load after the clearing store reads back. -/

/-- The zero offsets of a whole-buffer rectangle of rank three, as a function. -/
theorem zeroOff : (![0, 0, 0] : Fin 3 → ℕ) = fun _ => 0 := by
  funext a; fin_cases a <;> rfl

set_option maxHeartbeats 400000 in
/-- A later step leaves in the slab of counts its running contents with the number of set mask words added at the inner coordinate's position. -/
theorem leftLater6_eq (hc : ¬ atFirst i) (x4 : Vec F S1x512x512 .f32) (x5 : Vec F S1x512x512 .i32) (xo6 xo7 xo8 : Vec F S1x8x128 .f32) :
    leftLater6 c i arg2 harg2 arg3 harg3 arg4 harg4 arg5 harg5 arg6 harg6 arg7 harg7 arg8 harg8 hc x4 x5 xo6 xo7 xo8 = k0_pay1 (k0_pay12 i) (k0_pay13 xo6) (Scalar.ofBits .f32 0x00000000#32) (k0_pay14 x5) := by
  unfold leftLater6
  rw [View.read_writes_eq_canon _ _ _ (runLater_cover6 c i arg2 harg2 arg3 harg3 arg4 harg4 arg5 harg5 arg6 harg6 arg7 harg7 arg8 harg8 hc x4 x5 xo6 xo7 xo8)]
  unfold runLater
  dsimp only
  sl_unfold_words
  rw [View.canon_unit_zero (S := S1x8x128) zeroOff]
  simp only [View.readAt_eq_ld, harg4.read_unread, harg5.read_unread, harg6.read_unread, harg7.read_unread, harg8.read_unread,
    View.ld_unit_zero (S := S1x8x128) zeroOff, View.ld_unit_zero (S := S1x512x512) zeroOff]

set_option maxHeartbeats 400000 in
/-- A later step leaves in the slab of sums its running contents with the masked sum of the class map added at the inner coordinate's position. -/
theorem leftLater7_eq (hc : ¬ atFirst i) (x4 : Vec F S1x512x512 .f32) (x5 : Vec F S1x512x512 .i32) (xo6 xo7 xo8 : Vec F S1x8x128 .f32) :
    leftLater7 c i arg2 harg2 arg3 harg3 arg4 harg4 arg5 harg5 arg6 harg6 arg7 harg7 arg8 harg8 hc x4 x5 xo6 xo7 xo8 = k0_pay2 (k0_pay10 x4 x5) (k0_pay12 i) xo7 := by
  unfold leftLater7
  rw [View.read_writes_eq_canon _ _ _ (runLater_cover7 c i arg2 harg2 arg3 harg3 arg4 harg4 arg5 harg5 arg6 harg6 arg7 harg7 arg8 harg8 hc x4 x5 xo6 xo7 xo8)]
  unfold runLater
  dsimp only
  sl_unfold_words
  rw [View.canon_unit_zero (S := S1x8x128) zeroOff]
  simp only [View.readAt_eq_ld, harg4.read_unread, harg5.read_unread, harg6.read_unread, harg7.read_unread, harg8.read_unread,
    View.ld_unit_zero (S := S1x8x128) zeroOff, View.ld_unit_zero (S := S1x512x512) zeroOff]

set_option maxHeartbeats 400000 in
/-- A later step leaves in the slab of sums of squares its running contents with the masked sum of squares of the class map added at the inner coordinate's position. -/
theorem leftLater8_eq (hc : ¬ atFirst i) (x4 : Vec F S1x512x512 .f32) (x5 : Vec F S1x512x512 .i32) (xo6 xo7 xo8 : Vec F S1x8x128 .f32) :
    leftLater8 c i arg2 harg2 arg3 harg3 arg4 harg4 arg5 harg5 arg6 harg6 arg7 harg7 arg8 harg8 hc x4 x5 xo6 xo7 xo8 = k0_pay3 (k0_pay11 x4 x5) (k0_pay12 i) xo8 := by
  unfold leftLater8
  rw [View.read_writes_eq_canon _ _ _ (runLater_cover8 c i arg2 harg2 arg3 harg3 arg4 harg4 arg5 harg5 arg6 harg6 arg7 harg7 arg8 harg8 hc x4 x5 xo6 xo7 xo8)]
  unfold runLater
  dsimp only
  sl_unfold_words
  rw [View.canon_unit_zero (S := S1x8x128) zeroOff]
  simp only [View.readAt_eq_ld, harg4.read_unread, harg5.read_unread, harg6.read_unread, harg7.read_unread, harg8.read_unread,
    View.ld_unit_zero (S := S1x8x128) zeroOff, View.ld_unit_zero (S := S1x512x512) zeroOff]

set_option maxHeartbeats 400000 in
/-- The first step leaves in the slab of counts the zero vector with the number of set mask words added at the inner coordinate's position. -/
theorem leftFirst6_eq (hc : atFirst i) (x4 : Vec F S1x512x512 .f32) (x5 : Vec F S1x512x512 .i32) :
    leftFirst6 c i arg2 harg2 arg3 harg3 arg4 harg4 arg5 harg5 arg6 harg6 arg7 harg7 arg8 harg8 hc x4 x5 = k0_pay1 (k0_pay12 i) (k0_pay13 (k0_pay4 (F := F))) (Scalar.ofBits .f32 0x00000000#32) (k0_pay14 x5) := by
  unfold leftFirst6
  rw [View.read_writes_eq_canon _ _ _ (runFirst_cover6 c i arg2 harg2 arg3 harg3 arg4 harg4 arg5 harg5 arg6 harg6 arg7 harg7 arg8 harg8 hc x4 x5)]
  unfold runFirst
  dsimp only
  sl_unfold_words
  rw [View.canon_cons_unit_zero (S := S1x8x128) zeroOff]
  simp only [View.readCov_unit_zero (S := S1x8x128) _ zeroOff, View.readAt_eq_ld, harg4.read_unread, harg5.read_unread, harg6.read_unread, harg7.read_unread, harg8.read_unread,
    View.ld_unit_zero (S := S1x8x128) zeroOff, View.ld_unit_zero (S := S1x512x512) zeroOff]

set_option maxHeartbeats 400000 in
/-- The first step leaves in the slab of sums the zero vector with the masked sum of the class map added at the inner coordinate's position. -/
theorem leftFirst7_eq (hc : atFirst i) (x4 : Vec F S1x512x512 .f32) (x5 : Vec F S1x512x512 .i32) :
    leftFirst7 c i arg2 harg2 arg3 harg3 arg4 harg4 arg5 harg5 arg6 harg6 arg7 harg7 arg8 harg8 hc x4 x5 = k0_pay2 (k0_pay10 x4 x5) (k0_pay12 i) (k0_pay5 (F := F)) := by
  unfold leftFirst7
  rw [View.read_writes_eq_canon _ _ _ (runFirst_cover7 c i arg2 harg2 arg3 harg3 arg4 harg4 arg5 harg5 arg6 harg6 arg7 harg7 arg8 harg8 hc x4 x5)]
  unfold runFirst
  dsimp only
  sl_unfold_words
  rw [View.canon_cons_unit_zero (S := S1x8x128) zeroOff]
  simp only [View.readCov_unit_zero (S := S1x8x128) _ zeroOff, View.readAt_eq_ld, harg4.read_unread, harg5.read_unread, harg6.read_unread, harg7.read_unread, harg8.read_unread,
    View.ld_unit_zero (S := S1x8x128) zeroOff, View.ld_unit_zero (S := S1x512x512) zeroOff]

set_option maxHeartbeats 400000 in
/-- The first step leaves in the slab of sums of squares the zero vector with the masked sum of squares of the class map added at the inner coordinate's position. -/
theorem leftFirst8_eq (hc : atFirst i) (x4 : Vec F S1x512x512 .f32) (x5 : Vec F S1x512x512 .i32) :
    leftFirst8 c i arg2 harg2 arg3 harg3 arg4 harg4 arg5 harg5 arg6 harg6 arg7 harg7 arg8 harg8 hc x4 x5 = k0_pay3 (k0_pay11 x4 x5) (k0_pay12 i) (k0_pay6 (F := F)) := by
  unfold leftFirst8
  rw [View.read_writes_eq_canon _ _ _ (runFirst_cover8 c i arg2 harg2 arg3 harg3 arg4 harg4 arg5 harg5 arg6 harg6 arg7 harg7 arg8 harg8 hc x4 x5)]
  unfold runFirst
  dsimp only
  sl_unfold_words
  rw [View.canon_cons_unit_zero (S := S1x8x128) zeroOff]
  simp only [View.readCov_unit_zero (S := S1x8x128) _ zeroOff, View.readAt_eq_ld, harg4.read_unread, harg5.read_unread, harg6.read_unread, harg7.read_unread, harg8.read_unread,
    View.ld_unit_zero (S := S1x8x128) zeroOff, View.ld_unit_zero (S := S1x512x512) zeroOff]

end Left

end Cert.KernelIdeal.Hand

end
-- ==== Proof.KI.Data.lean ====
/-
  What the three per-core slabs hold point by point, and the proof data of the one pipeline.

  The grid has two halves of fifty steps.  At the first step of a half the body clears the three slabs and adds
  the step's count, sum and sum of squares at position 0; at step j > 0 it adds them at position j to what the
  step before left.  The slabs' block does not move within a half, so the pipeline writes it back only after the
  half's last step, and between two steps of a half each slab's staging buffer still holds what the earlier step
  left.  The class-map and mask blocks are inputs the body only reads.
-/
import proofs.«409015_j49709951484027_3_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## When a slab is written back -/

/-- A slab's block is indexed by the core coordinate alone, so it is written back exactly after the last step of
    a half, whatever the tables hold. -/
theorem slab2_flush (a : (pcfg0 (F := F)).Adm) : ∀ t : Fin (cfg0 a).N, ((cfg0 a).win 2).flush t = true ↔ t.val % 50 = 49 :=
  (by decide +kernel : ∀ t : Fin grid0.N, Pipeline.Window.flushOf grid0 true cc0_transform_2 t = true ↔ t.val % 50 = 49)
theorem slab3_flush (a : (pcfg0 (F := F)).Adm) : ∀ t : Fin (cfg0 a).N, ((cfg0 a).win 3).flush t = true ↔ t.val % 50 = 49 :=
  (by decide +kernel : ∀ t : Fin grid0.N, Pipeline.Window.flushOf grid0 true cc0_transform_3 t = true ↔ t.val % 50 = 49)
theorem slab4_flush (a : (pcfg0 (F := F)).Adm) : ∀ t : Fin (cfg0 a).N, ((cfg0 a).win 4).flush t = true ↔ t.val % 50 = 49 :=
  (by decide +kernel : ∀ t : Fin grid0.N, Pipeline.Window.flushOf grid0 true cc0_transform_4 t = true ↔ t.val % 50 = 49)

/-! ## The slabs after each step -/

/-- The two table buffers as the body is handed them (it never loads from them). -/
abbrev tab0 : Memref sig .tc .smem S100 .i32 := Memref.whole main_v8
abbrev tab1 : Memref sig .tc .smem S100 .i32 := Memref.whole main_v1

/-- Three slabs' contents. -/
abbrev Slabs (F : FTy → Type) [FloatOps F] : Type := Vec F S1x8x128 .f32 × Vec F S1x8x128 .f32 × Vec F S1x8x128 .f32

section AtPoint

variable (h : InRange m) (c : Dev nD)

/-- The slabs after the body at a first step `t` of a half. -/
def firstAt (t : Fin (pipeAt m h).N) (hc : atFirst (grid0.coords t)) : Slabs F :=
  (leftFirst6 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t),
   leftFirst7 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t),
   leftFirst8 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t))

/-- The slabs after the body at a later step `t`, over what the step before left. -/
def laterAt (t : Fin (pipeAt m h).N) (hc : ¬ atFirst (grid0.coords t)) (prev : Slabs F) : Slabs F :=
  (leftLater6 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t) prev.1 prev.2.1 prev.2.2,
   leftLater7 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t) prev.1 prev.2.1 prev.2.2,
   leftLater8 c (grid0.coords t) tab0 (Memref.isWhole_whole _) tab1 (Memref.isWhole_whole _) (stg0 m h t) (stg0_whole m h t) (stg1 m h t) (stg1_whole m h t)
      (stg2 m h t) (stg2_whole m h t) (stg3 m h t) (stg3_whole m h t) (stg4 m h t) (stg4_whole m h t) hc (blockAt m h c 0 t) (blockAt m h c 1 t) prev.1 prev.2.1 prev.2.2)

/-- THE ACCUMULATION: what the three slabs' staging buffers hold after the body at position `n`, by recursion on
    the position: a first step of a half starts afresh, a later one adds to what position `n - 1` left. -/
def slabsAt : (n : ℕ) → n < (pipeAt m h).N → Slabs F
  | 0, hn => firstAt m h c ⟨0, hn⟩ ((atFirst_iff ⟨0, hn⟩).mpr (Nat.zero_mod _))
  | n + 1, hn =>
    if h0 : (n + 1) % 50 = 0 then firstAt m h c ⟨n + 1, hn⟩ ((atFirst_iff ⟨n + 1, hn⟩).mpr h0)
    else laterAt m h c ⟨n + 1, hn⟩ (fun hh => h0 ((atFirst_iff ⟨n + 1, hn⟩).mp hh)) (slabsAt n (Nat.lt_of_succ_lt hn))

/-- At a first step: afresh. -/
theorem slabsAt_first (t : Fin (pipeAt m h).N) (h0 : t.val % 50 = 0) :
    slabsAt m h c t.val t.isLt = firstAt m h c t ((atFirst_iff t).mpr h0) := by
  obtain ⟨n, hn⟩ := t
  cases n with
  | zero => exact rfl
  | succ n => exact (dif_pos h0).trans rfl

/-- At a later step: over what the step before left. -/
theorem slabsAt_later (t : Fin (pipeAt m h).N) (h0 : ¬ t.val % 50 = 0) :
    slabsAt m h c t.val t.isLt
      = laterAt m h c t (fun hh => h0 ((atFirst_iff t).mp hh)) (slabsAt m h c (t.val - 1) (Nat.lt_of_le_of_lt (Nat.sub_le _ _) t.isLt)) := by
  obtain ⟨n, hn⟩ := t
  cases n with
  | zero => exact absurd (Nat.zero_mod _) h0
  | succ n => exact (dif_neg h0).trans rfl

/-! ## The proof data -/

/-- The proof data of the pipeline on core `c`: the arrays as the region finds them; after the body at a point the
    two inputs' buffers at their blocks and the slabs' at `slabsAt`; the invariant is the scoped rest with the
    generator register and the tables' halves; nothing owed; full shares. -/
def dat (_ : Fin 1) : Dat τ (Elt F) Unit ℕ (UR sig nD τ) ℕ (pipeAt m h) c where
  A w := atEntry m c (Pipeline.arrRef spec0 w)
  after w t := match w with
    | ⟨0, _⟩ => blockAt m h c 0 t
    | ⟨1, _⟩ => blockAt m h c 1 t
    | ⟨2, _⟩ => (slabsAt m h c t.val t.isLt).1
    | ⟨3, _⟩ => (slabsAt m h c t.val t.isLt).2.1
    | ⟨4, _⟩ => (slabsAt m h c t.val t.isLt).2.2
  Φ _ := iprop(Pipeline.ΦA spec0 c ∗ Pipeline.ΦT pre0 (tables m) c)
  q _ := fullShare
  owed _ := 0

theorem dat_A (w : Fin (pipeAt m h).W) : (dat m h c 0).A w = atEntry m c (Pipeline.arrRef spec0 w) := by
  dsimp only [dat]

theorem after_in0 (t : Fin (pipeAt m h).N) : (dat m h c 0).after 0 t = blockAt m h c 0 t := by dsimp only [dat]; rfl
theorem after_in1 (t : Fin (pipeAt m h).N) : (dat m h c 0).after 1 t = blockAt m h c 1 t := by dsimp only [dat]; rfl
theorem after_slab2 (t : Fin (pipeAt m h).N) : (dat m h c 0).after 2 t = (slabsAt m h c t.val t.isLt).1 := by dsimp only [dat]; rfl
theorem after_slab3 (t : Fin (pipeAt m h).N) : (dat m h c 0).after 3 t = (slabsAt m h c t.val t.isLt).2.1 := by dsimp only [dat]; rfl
theorem after_slab4 (t : Fin (pipeAt m h).N) : (dat m h c 0).after 4 t = (slabsAt m h c t.val t.isLt).2.2 := by dsimp only [dat]; rfl

end AtPoint

end Cert.KernelIdeal.Hand

end
-- ==== Proof.KI.Body.lean ====
/-
  The body obligation of the one pipeline.

  At every grid point the body is handed the invariant, the two input blocks in their staging buffers and the
  three slabs' staging buffers at what the pipeline left there, and must hand back the same invariant, the inputs
  untouched and the slabs at `slabsAt`.  An input's buffer holds its block whether it was fetched at this point
  or is still there from the point before (consecutive equal words of a table fetch once).  A slab's buffer at a
  later step of a half holds what the step before left, because nothing writes it back inside a half.
-/
import proofs.«409015_j49709951484027_3_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (h : InRange m) (c : Dev nD)

/-! ## What the buffers hold when the body starts -/

/-- The class-map block is in its buffer at every point, fetched there or kept from the point before. -/
theorem before_in0 (t : Fin (pipeAt m h).N) (d) : (dat m h c 0).before 0 t d = blockAt m h c 0 t :=
  ((dat m h c 0).before_in_eq_fetched 0 rfl (fun _ => rfl) (fun _ _ _ => rfl)
      (fun t => by rw [after_in0]; unfold Dat.blockOf blockAt; rw [dat_A]; try rfl) t d).trans
    (by unfold Dat.fetched Dat.blockOf blockAt; rw [dat_A]; try rfl)

/-- So is the mask block. -/
theorem before_in1 (t : Fin (pipeAt m h).N) (d) : (dat m h c 0).before 1 t d = blockAt m h c 1 t :=
  ((dat m h c 0).before_in_eq_fetched 1 rfl (fun _ => rfl) (fun _ _ _ => rfl)
      (fun t => by rw [after_in1]; unfold Dat.blockOf blockAt; rw [dat_A]; try rfl) t d).trans
    (by unfold Dat.fetched Dat.blockOf blockAt; rw [dat_A]; try rfl)

/-- The earlier position inside the grid. -/
theorem pred_lt (t : Fin (pipeAt m h).N) : t.val - 1 < (pipeAt m h).N := Nat.lt_of_le_of_lt (Nat.sub_le _ _) t.isLt

/-- At a later step of a half each slab's buffer holds what the step before left: the point is not the grid's first,
    and the point before is not a half's last, so nothing was written back in between. -/
theorem before_slab2 (t : Fin (pipeAt m h).N) (h0 : ¬ t.val % 50 = 0) (d) :
    (dat m h c 0).before 2 t d = (slabsAt m h c (t.val - 1) (pred_lt m h t)).1 := by
  have hN : t.val < 100 := lt_of_lt_of_eq t.isLt (show (pipeAt m h).N = 100 from N_0)
  rw [Dat.before_out_kept _ 2 rfl t (by omega)
    (Bool.eq_false_iff.mpr fun hf => by have := (slab2_flush (admAt m h) _).mp hf; dsimp only at this; omega)
    (fun _ => rfl) (fun _ _ => rfl)]
  exact after_slab2 m h c _
theorem before_slab3 (t : Fin (pipeAt m h).N) (h0 : ¬ t.val % 50 = 0) (d) :
    (dat m h c 0).before 3 t d = (slabsAt m h c (t.val - 1) (pred_lt m h t)).2.1 := by
  have hN : t.val < 100 := lt_of_lt_of_eq t.isLt (show (pipeAt m h).N = 100 from N_0)
  rw [Dat.before_out_kept _ 3 rfl t (by omega)
    (Bool.eq_false_iff.mpr fun hf => by have := (slab3_flush (admAt m h) _).mp hf; dsimp only at this; omega)
    (fun _ => rfl) (fun _ _ => rfl)]
  exact after_slab3 m h c _
theorem before_slab4 (t : Fin (pipeAt m h).N) (h0 : ¬ t.val % 50 = 0) (d) :
    (dat m h c 0).before 4 t d = (slabsAt m h c (t.val - 1) (pred_lt m h t)).2.2 := by
  have hN : t.val < 100 := lt_of_lt_of_eq t.isLt (show (pipeAt m h).N = 100 from N_0)
  rw [Dat.before_out_kept _ 4 rfl t (by omega)
    (Bool.eq_false_iff.mpr fun hf => by have := (slab4_flush (admAt m h) _).mp hf; dsimp only at this; omega)
    (fun _ => rfl) (fun _ _ => rfl)]
  exact after_slab4 m h c _

/-! ## The obligation at a generic point -/

/-- What the body is called with at point `t`, the five windows one by one, -/
def handedAt (t : Fin (pipeAt m h).N) : sProp 𝕄 :=
  iprop((dat m h c 0).Φ t.castSucc ∗ (dat m h c 0).owesAt () t.castSucc
    ∗ (∃ d, owns (c : Thread nD τ) (stg0 m h t) fullShare ((dat m h c 0).before 0 t d))
    ∗ (∃ d, owns (c : Thread nD τ) (stg1 m h t) fullShare ((dat m h c 0).before 1 t d))
    ∗ (∃ d, owns (c : Thread nD τ) (stg2 m h t) fullShare ((dat m h c 0).before 2 t d))
    ∗ (∃ d, owns (c : Thread nD τ) (stg3 m h t) fullShare ((dat m h c 0).before 3 t d))
    ∗ (∃ d, owns (c : Thread nD τ) (stg4 m h t) fullShare ((dat m h c 0).before 4 t d)))

/-- and what it hands back. -/
def returnedAt (t : Fin (pipeAt m h).N) : sProp 𝕄 :=
  iprop((dat m h c 0).Φ t.succ ∗ (dat m h c 0).owesAt () t.succ
    ∗ owns (c : Thread nD τ) (stg0 m h t) fullShare ((dat m h c 0).after 0 t)
    ∗ owns (c : Thread nD τ) (stg1 m h t) fullShare ((dat m h c 0).after 1 t)
    ∗ owns (c : Thread nD τ) (stg2 m h t) fullShare ((dat m h c 0).after 2 t)
    ∗ owns (c : Thread nD τ) (stg3 m h t) fullShare ((dat m h c 0).after 3 t)
    ∗ owns (c : Thread nD τ) (stg4 m h t) fullShare ((dat m h c 0).after 4 t))

set_option maxHeartbeats 1600000 in
/-- The body at any point: the inputs' buffers hold their blocks; the point's number says which case it is in; at
    a later step the slabs hold what the step before left; so the case's run applies; the invariant passes through
    unread and nothing is owed. -/
theorem body_at (t : Fin (pipeAt m h).N) :
    handedAt m h c t ⊢ wp frame (wpE (defs₀ (F := F)) Variants.none c none) Set.univ (bodyAt m h t) (fun _ => returnedAt m h c t) := by
  unfold handedAt returnedAt bodyAt
  simp only [before_in0, before_in1]
  rw [show (dat m h c 0).Φ t.succ = (dat m h c 0).Φ t.castSucc from rfl,
    show (dat m h c 0).owesAt () t.succ = (dat m h c 0).owesAt () t.castSucc from rfl,
    after_in0, after_in1, after_slab2, after_slab3, after_slab4]
  by_cases h0 : t.val % 50 = 0
  · rw [slabsAt_first m h c t h0]
    unfold firstAt
    dsimp only
    unfold leftFirst6 leftFirst7 leftFirst8
    iintro ⟨HΦ, Ho, ⟨%d0, H0⟩, ⟨%d1, H1⟩, ⟨%d2, H2⟩, ⟨%d3, H3⟩, ⟨%d4, H4⟩⟩
    iapply ((runFirst c (grid0.coords t) tab0 (Memref.isWhole_whole _) tab1 (Memref.isWhole_whole _) (stg0 m h t) (stg0_whole m h t) (stg1 m h t) (stg1_whole m h t) (stg2 m h t) (stg2_whole m h t) (stg3 m h t) (stg3_whole m h t) (stg4 m h t) (stg4_whole m h t) ((atFirst_iff t).mpr h0) (blockAt m h c 0 t) (blockAt m h c 1 t)).2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (runFirst_cover6 c _ _ _ _ _ _ _ _ _ _ _ _ _ _ _ _ _ _)
    isplitl [H3]
    · unfold owns; iexists _; isplitr
      swap; · iexact H3
      ipureintro; exact View.read_writes_of_cover _ _ _ _ _ (runFirst_cover7 c _ _ _ _ _ _ _ _ _ _ _ _ _ _ _ _ _ _)
    unfold owns; iexists _; isplitr
    swap; · iexact H4
    ipureintro; exact View.read_writes_of_cover _ _ _ _ _ (runFirst_cover8 c _ _ _ _ _ _ _ _ _ _ _ _ _ _ _ _ _ _)
  · rw [slabsAt_later m h c t h0]
    simp only [before_slab2 m h c t h0, before_slab3 m h c t h0, before_slab4 m h c t h0]
    unfold laterAt
    dsimp only
    unfold leftLater6 leftLater7 leftLater8
    iintro ⟨HΦ, Ho, ⟨%d0, H0⟩, ⟨%d1, H1⟩, ⟨%d2, H2⟩, ⟨%d3, H3⟩, ⟨%d4, H4⟩⟩
    iapply ((runLater c (grid0.coords t) tab0 (Memref.isWhole_whole _) tab1 (Memref.isWhole_whole _) (stg0 m h t) (stg0_whole m h t) (stg1 m h t) (stg1_whole m h t) (stg2 m h t) (stg2_whole m h t) (stg3 m h t) (stg3_whole m h t) (stg4 m h t) (stg4_whole m h t) (fun hh => h0 ((atFirst_iff t).mp hh)) (blockAt m h c 0 t) (blockAt m h c 1 t) _ _ _).2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (runLater_cover6 c _ _ _ _ _ _ _ _ _ _ _ _ _ _ _ _ _ _ _ _ _)
    isplitl [H3]
    · unfold owns; iexists _; isplitr
      swap; · iexact H3
      ipureintro; exact View.read_writes_of_cover _ _ _ _ _ (runLater_cover7 c _ _ _ _ _ _ _ _ _ _ _ _ _ _ _ _ _ _ _ _ _)
    unfold owns; iexists _; isplitr
    swap; · iexact H4
    ipureintro; exact View.read_writes_of_cover _ _ _ _ _ (runLater_cover8 c _ _ _ _ _ _ _ _ _ _ _ _ _ _ _ _ _ _ _ _ _)

/-- The library's body obligation, at every point. -/
theorem body_obligation : BodyObligation (dat (F := F) m h c 0) (defs₀ (F := F)) Variants.none () Set.univ := fun t => by
  rw [bigSep_W0, bigSep_W0]
  exact body_at m h c t

end Cert.KernelIdeal.Hand

end
-- ==== Proof.KI.Lines.lean ====
/-
  The host lines around the one kernel region of the program, as the frame of a program that goes on after its region
  takes them.

  Every host line is a constant, a map of one, two or three operands, or a reshape: it touches its operands' buffers
  and its result buffer, writes the result buffer alone, and allocates nothing.  What the frame asks of the lines is
  therefore decided reference by reference, a reference being told from another by its memory space and index:

  * before the launch no line writes an argument of the program, so the region finds the class maps, the masks and the
    class ids as they were launched, and the program reduces to the region continued by the later lines, every buffer
    at its contents after the earlier ones;
  * after the launch no line touches either table the region was handed (the sorted class ids, the sorting
    permutation), so the lines stay within the windows' arrays and the buffers that bypass the region; and no line
    writes one of the five arrays the windows move (the class maps, the widened masks, the three per-core slabs).
-/
import proofs.«409015_j49709951484027_3_alg».proof.Proof.KI.Base
import Idealize.ShloMosaic.Lib.StableHlo.Run
import Idealize.ShloMosaic.Lib.Pipeline.FrameSuffix
import Mathlib.Data.List.Basic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Telling a line's buffers apart from given references

The buffers a line touches, and the one it writes, form a literal set of references read as device buffers.  Distinct
references are distinct device buffers, so that no reference of a family lies in such a set is settled entry by
entry, each entry by comparing references. -/

section Apart

variable {n : ℕ} (t : Fin n → Ref sig .tc)

/-- No reference of the family is the one entry of a singleton, when none equals that entry. -/
theorem apart_single {y : Ref sig .tc} (h : ∀ k, t k ≠ y) :
    ∀ k, Proc.devRef (τ := τ) .tc (t k) ∉ ({Proc.devRef .tc y} : Finset (DevRef τ sig)) :=
  fun k hk => StableHlo.devRef_ne_of_ne (h k) (Finset.mem_singleton.mp hk)

/-- No reference of the family is in a set with one more entry, when none equals that entry and none is in the rest. -/
theorem apart_insert {x : Ref sig .tc} {s : Finset (DevRef τ sig)} (h : ∀ k, t k ≠ x)
    (hs : ∀ k, Proc.devRef (τ := τ) .tc (t k) ∉ s) :
    ∀ k, Proc.devRef (τ := τ) .tc (t k) ∉ insert (Proc.devRef .tc x) s :=
  fun k hk => (Finset.mem_insert.mp hk).elim (StableHlo.devRef_ne_of_ne (h k)) (hs k)

end Apart

/-- No reference of the family `t` lies in a literal set of references: the set's entries in turn, the last by
    `apart_single`, each earlier one by `apart_insert`, the references compared by their space and index. -/
local macro "apart " t:term : tactic =>
  `(tactic| (repeat (first | exact apart_single $t (by decide) | refine apart_insert $t (by decide) ?_)))

/-- A statement about every line of a literal stretch, as one statement per line. -/
local macro "each_line" : tactic => `(tactic| (simp only [List.Forall]; repeat' apply And.intro))

/-! ## The lines before the launch -/

/-- The program's three arguments: the class maps, the masks, the class ids. -/
abbrev args : Fin 3 → Ref sig .tc := ![main_arg0, main_arg1, main_arg2]

/-- What is asked of a line before the launch: it allocates nothing and writes no argument of the program. -/
structure Early (op : HloOp τ sig (Elt F)) : Prop where
  fresh : op.fresh = ∅
  args : ∀ k, Proc.devRef (τ := τ) .tc (args k) ∉ op.writes

/-- The two constants the clamp takes. -/
theorem early0 : (hostOps0 (F := F)).Forall Early := by each_line <;> exact ⟨rfl, by apart args⟩
/-- The clamp of the class ids into [0, 79]: it reads the ids and writes the clamped ids. -/
theorem early1 : (hostOps0_1 (F := F)).Forall Early := by each_line <;> exact ⟨rfl, by apart args⟩
/-- The sort of the clamped ids with their positions. -/
theorem early2 : (hostOps0_2 (F := F)).Forall Early := by each_line <;> exact ⟨rfl, by apart args⟩
/-- The wrap of the permutation's words and the gather of the clamped ids through them. -/
theorem early3 : (hostOps0_3 (F := F)).Forall Early := by each_line <;> exact ⟨rfl, by apart args⟩
/-- The sort of the permutation itself. -/
theorem early4 : (hostOps0_4 (F := F)).Forall Early := by each_line <;> exact ⟨rfl, by apart args⟩
/-- The widening of the masks: it reads the masks and writes the widened masks. -/
theorem early5 : (hostOps0_5 (F := F)).Forall Early := by each_line <;> exact ⟨rfl, by apart args⟩

/-- Every line before the launch is as asked. -/
theorem linesBefore_early : (linesBefore (F := F)).Forall fun ops => ops.Forall Early :=
  ⟨early0, early1, early2, early3, early4, early5⟩

/-- Stretch by stretch, the lines before the launch touch TensorCore references only. -/
theorem linesBefore_sub :
    (linesBefore (F := F)).Forall fun ops => ops.Forall fun op => op.bufs ⊆ StableHlo.tcRefs τ sig :=
  ⟨hostOps0_sub, hostOps0_1_sub, hostOps0_2_sub, hostOps0_3_sub, hostOps0_4_sub, hostOps0_5_sub⟩

/-- Every line before the launch allocates nothing. -/
theorem linesBefore_fresh : (linesBefore (F := F)).Forall fun ops => ops.Forall fun op => op.fresh = ∅ :=
  linesBefore_early.imp fun _ h => h.imp fun _ e => e.fresh

/-- The program is the lines before the launch, the region, then the lines after it: holding the launch memory it
    reduces to the region continued by the later lines, every buffer at its contents after the earlier ones. -/
theorem entry_reduces (𝒱₀ : Variants) :
    Pipeline.HMainPK (Ix := Unit) (Name := ℕ) (U := UR sig nD τ) (Lvl := ℕ) pcfgs 0 defs₀ 𝒱₀ m (main (F := F)) (atEntry m)
      (fun _ => Pipeline.chain ((linesAfter (F := F)).map StableHlo.seq)) :=
  Pipeline.hmainP_around pcfgs 0 defs₀ 𝒱₀ m main linesBefore linesAfter linesBefore_sub linesBefore_fresh main_chain

/-- An argument of the program is held at the region's entry as it was launched: no line before the launch writes
    it. -/
theorem atEntry0_args (c : Dev nD) (k : Fin 3) :
    atEntry0 m c (Proc.devRef .tc (args k)) = m (c, Proc.devRef .tc (args k)) :=
  StableHlo.after_of_forall_not_mem _ _ fun op hop => by
    obtain ⟨ops, hops, hop⟩ := List.mem_flatten.mp hop
    exact (List.forall_iff_forall_mem.mp (List.forall_iff_forall_mem.mp linesBefore_early ops hops) op hop).args k

/-- The class maps at the region's entry are the launched ones. -/
theorem atEntry_arg0 (c : Dev nD) : atEntry m c main_arg0 = m ((c : Thread nD τ).loc main_arg0) := atEntry0_args m c 0
/-- The masks at the region's entry are the launched ones. -/
theorem atEntry_arg1 (c : Dev nD) : atEntry m c main_arg1 = m ((c : Thread nD τ).loc main_arg1) := atEntry0_args m c 1
/-- The class ids at the region's entry are the launched ones. -/
theorem atEntry_arg2 (c : Dev nD) : atEntry m c main_arg2 = m ((c : Thread nD τ).loc main_arg2) := atEntry0_args m c 2

/-! ## The lines after the launch -/

/-- What is asked of a line after the launch: it allocates nothing, touches neither table the region was handed (the
    sorted class ids, the sorting permutation), and writes none of the five arrays the windows move (the class maps,
    the widened masks, the three slabs). -/
structure Late (op : HloOp τ sig (Elt F)) : Prop where
  fresh : op.fresh = ∅
  tables : ∀ k, Proc.devRef (τ := τ) .tc (pre0.ref k) ∉ op.bufs
  arrays : ∀ w, Proc.devRef (τ := τ) .tc (Pipeline.arrRef spec0 w) ∉ op.writes

/-- The unpacking of the three slabs, each read through the inverse permutation, and the test of the counts against
    zero: the slabs are read, never written. -/
theorem late0 : (hostOps1 (F := F)).Forall Late := by
  each_line <;> exact ⟨rfl, by apart pre0.ref, by apart (Pipeline.arrRef spec0)⟩
/-- The counts with one in place of a count that is not positive. -/
theorem late1 : (hostOps1_1 (F := F)).Forall Late := by
  each_line <;> exact ⟨rfl, by apart pre0.ref, by apart (Pipeline.arrRef spec0)⟩
/-- The means: the sums over the counts. -/
theorem late2 : (hostOps1_2 (F := F)).Forall Late := by
  each_line <;> exact ⟨rfl, by apart pre0.ref, by apart (Pipeline.arrRef spec0)⟩
/-- The means, zero where the count is not positive. -/
theorem late3 : (hostOps1_3 (F := F)).Forall Late := by
  each_line <;> exact ⟨rfl, by apart pre0.ref, by apart (Pipeline.arrRef spec0)⟩
/-- The variances: the mean squares less the squared means. -/
theorem late4 : (hostOps1_4 (F := F)).Forall Late := by
  each_line <;> exact ⟨rfl, by apart pre0.ref, by apart (Pipeline.arrRef spec0)⟩
/-- The variances, zero where the count is not positive. -/
theorem late5 : (hostOps1_5 (F := F)).Forall Late := by
  each_line <;> exact ⟨rfl, by apart pre0.ref, by apart (Pipeline.arrRef spec0)⟩
/-- The table of pairs of instances of one class, from the clamped ids (no table of the region: the clamped ids
    are neither the sorted ids nor the permutation). -/
theorem late6 : (hostOps1_6 (F := F)).Forall Late := by
  each_line <;> exact ⟨rfl, by apart pre0.ref, by apart (Pipeline.arrRef spec0)⟩
/-- The mask of the pairs strictly above the diagonal. -/
theorem late7 : (hostOps1_7 (F := F)).Forall Late := by
  each_line <;> exact ⟨rfl, by apart pre0.ref, by apart (Pipeline.arrRef spec0)⟩
/-- The hinge of the squared differences of the means, pair by pair, and the pairs of one class above the diagonal. -/
theorem late8 : (hostOps1_8 (F := F)).Forall Late := by
  each_line <;> exact ⟨rfl, by apart pre0.ref, by apart (Pipeline.arrRef spec0)⟩
/-- The hinge kept on the pairs of one class above the diagonal, zero elsewhere. -/
theorem late9 : (hostOps1_9 (F := F)).Forall Late := by
  each_line <;> exact ⟨rfl, by apart pre0.ref, by apart (Pipeline.arrRef spec0)⟩
/-- The three sums and the loss. -/
theorem late10 : (hostOps1_10 (F := F)).Forall Late := by
  each_line <;> exact ⟨rfl, by apart pre0.ref, by apart (Pipeline.arrRef spec0)⟩

/-- Every line after the launch is as asked. -/
theorem linesAfter_late : ∀ ops ∈ (linesAfter (F := F)), ∀ op ∈ ops, Late op := fun ops hops =>
  List.forall_iff_forall_mem.mp (List.forall_iff_forall_mem.mp
    (show (linesAfter (F := F)).Forall fun ops => ops.Forall Late from
      ⟨late0, late1, late2, late3, late4, late5, late6, late7, late8, late9, late10⟩) ops hops)

/-- Stretch by stretch, the lines after the launch touch TensorCore references only. -/
theorem linesAfter_tc : ∀ ops ∈ (linesAfter (F := F)), ∀ op ∈ ops, op.bufs ⊆ StableHlo.tcRefs τ sig := fun ops hops =>
  List.forall_iff_forall_mem.mp (List.forall_iff_forall_mem.mp
    (show (linesAfter (F := F)).Forall fun ops => ops.Forall fun op => op.bufs ⊆ StableHlo.tcRefs τ sig from
      ⟨hostOps1_sub, hostOps1_1_sub, hostOps1_2_sub, hostOps1_3_sub, hostOps1_4_sub, hostOps1_5_sub, hostOps1_6_sub,
        hostOps1_7_sub, hostOps1_8_sub, hostOps1_9_sub, hostOps1_10_sub⟩) ops hops)

/-- The lines after the launch stay within the windows' arrays and the buffers that bypass the region: each touches
    unscoped TensorCore references, none of them a table. -/
theorem lines_after_sub : ∀ ops ∈ (linesAfter (F := F)), ∀ op ∈ ops, op.bufs ⊆ Pipeline.tailRefs sig pre0 spec0 :=
  fun ops hops op hop =>
    Pipeline.sub_tailRefs pre0 spec0 op (linesAfter_tc ops hops op hop) (linesAfter_late ops hops op hop).tables

/-- They allocate nothing. -/
theorem lines_after_fresh : ∀ ops ∈ (linesAfter (F := F)), ∀ op ∈ ops, op.fresh = ∅ :=
  fun ops hops op hop => (linesAfter_late ops hops op hop).fresh

/-- And they write no array of a window: each writes its own result buffer alone. -/
theorem lines_after_keeps : ∀ ops ∈ (linesAfter (F := F)), ∀ op ∈ ops,
    ∀ w, Proc.devRef .tc (Pipeline.arrRef spec0 w) ∉ op.writes :=
  fun ops hops op hop => (linesAfter_late ops hops op hop).arrays

end Cert.KernelIdeal.Hand

end
-- ==== Proof.KI.TailArgs.lean ====
/-
  No host line after the launch writes an argument of the program.

  Each later line writes its own result buffer alone, and that buffer is none of the class maps, the masks and the
  class ids.  So whatever the buffers hold when the later lines start, the three arguments hold the same once the lines
  have run.
-/
import proofs.«409015_j49709951484027_3_alg».proof.Proof.KI.Lines
import Idealize.ShloMosaic.Lib.StableHlo.Run
import Mathlib.Data.List.Basic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- No argument of the program lies in a literal set of references: the set's entries in turn, the last by
    `apart_single`, each earlier one by `apart_insert`, the references compared by their space and index. -/
local macro "apart_args" : tactic =>
  `(tactic| (repeat (first | exact apart_single args (by decide) | refine apart_insert args (by decide) ?_)))

/-- A statement about every line of a literal stretch, as one statement per line. -/
local macro "each_line" : tactic => `(tactic| (simp only [List.Forall]; repeat' apply And.intro))

/-- A line that writes no argument of the program. -/
abbrev SparesArgs (op : HloOp τ sig (Elt F)) : Prop := ∀ k, Proc.devRef (τ := τ) .tc (args k) ∉ op.writes

/-- The unpacking of the three slabs, each read through the inverse permutation, and the test of the counts. -/
theorem spares0 : (hostOps1 (F := F)).Forall SparesArgs := by each_line <;> apart_args
/-- The counts with one in place of a count that is not positive. -/
theorem spares1 : (hostOps1_1 (F := F)).Forall SparesArgs := by each_line <;> apart_args
/-- The means. -/
theorem spares2 : (hostOps1_2 (F := F)).Forall SparesArgs := by each_line <;> apart_args
/-- The means, zero where the count is not positive. -/
theorem spares3 : (hostOps1_3 (F := F)).Forall SparesArgs := by each_line <;> apart_args
/-- The variances. -/
theorem spares4 : (hostOps1_4 (F := F)).Forall SparesArgs := by each_line <;> apart_args
/-- The variances, zero where the count is not positive. -/
theorem spares5 : (hostOps1_5 (F := F)).Forall SparesArgs := by each_line <;> apart_args
/-- The table of pairs of instances of one class. -/
theorem spares6 : (hostOps1_6 (F := F)).Forall SparesArgs := by each_line <;> apart_args
/-- The mask of the pairs strictly above the diagonal. -/
theorem spares7 : (hostOps1_7 (F := F)).Forall SparesArgs := by each_line <;> apart_args
/-- The hinge of the squared differences of the means, pair by pair. -/
theorem spares8 : (hostOps1_8 (F := F)).Forall SparesArgs := by each_line <;> apart_args
/-- The hinge kept on the pairs of one class above the diagonal. -/
theorem spares9 : (hostOps1_9 (F := F)).Forall SparesArgs := by each_line <;> apart_args
/-- The three sums and the loss. -/
theorem spares10 : (hostOps1_10 (F := F)).Forall SparesArgs := by each_line <;> apart_args

/-- No line after the launch writes an argument of the program. -/
theorem linesAfter_spare : (linesAfter (F := F)).Forall fun ops => ops.Forall SparesArgs :=
  ⟨spares0, spares1, spares2, spares3, spares4, spares5, spares6, spares7, spares8, spares9, spares10⟩

/-- An argument of the program holds after the later lines what it held before them. -/
theorem after_lines_args (W : Valuation τ sig (Elt F)) (k : Fin 3) :
    StableHlo.after (linesAfter (F := F)).flatten W (Proc.devRef .tc (args k)) = W (Proc.devRef .tc (args k)) :=
  StableHlo.after_of_forall_not_mem _ _ fun op hop => by
    obtain ⟨ops, hops, hop⟩ := List.mem_flatten.mp hop
    exact List.forall_iff_forall_mem.mp (List.forall_iff_forall_mem.mp linesAfter_spare ops hops) op hop k

/-- The class maps after the later lines are the class maps before them. -/
theorem after_lines_arg0 (W : Valuation τ sig (Elt F)) :
    StableHlo.after (linesAfter (F := F)).flatten W (Proc.devRef .tc main_arg0) = W (Proc.devRef .tc main_arg0) :=
  after_lines_args W 0
/-- The masks after the later lines are the masks before them. -/
theorem after_lines_arg1 (W : Valuation τ sig (Elt F)) :
    StableHlo.after (linesAfter (F := F)).flatten W (Proc.devRef .tc main_arg1) = W (Proc.devRef .tc main_arg1) :=
  after_lines_args W 1
/-- The class ids after the later lines are the class ids before them. -/
theorem after_lines_arg2 (W : Valuation τ sig (Elt F)) :
    StableHlo.after (linesAfter (F := F)).flatten W (Proc.devRef .tc main_arg2) = W (Proc.devRef .tc main_arg2) :=
  after_lines_args W 2

end Cert.KernelIdeal.Hand

end
-- ==== Proof.KI.Frame.lean ====
/-
  The frame of the program: it runs to the end, faults nowhere, and leaves its three arguments unchanged.

  @main is host lines, the one kernel region with its two prefetched tables, and host lines again.  The library's
  frame run for that shape takes: the body obligation at every point, what the lines before the region leave
  (the region's arrays and the tables' contents), and that the lines after it touch no table, allocate nothing
  and write none of the region's arrays.  Its post names every array of the pipeline after the last write-back
  and every other buffer after the later lines; the class maps are an input array no one writes, and the masks
  and the class ids are buffers no line writes.
-/
import proofs.«409015_j49709951484027_3_alg».proof.Proof.KI.Body
import proofs.«409015_j49709951484027_3_alg».proof.Proof.KI.TailArgs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data as a family over the one pipeline and the cores. -/
abbrev dats (h : InRange m) (p : Fin 1) (c : Dev nD) : Dat τ (Elt F) Unit ℕ (UR sig nD τ) ℕ (pipeAt m h) c := dat m h c p

/-- Every buffer after the whole program: the region's arrays after the last write-back, everything else after the
    lines that follow the region. -/
abbrev atEnd (h : InRange m) : (c : Dev nD) → (b : Ref sig .tc) → Buf (Elt F) ((c.tc : Thread nD τ).loc b) :=
  Pipeline.afterTail pcfgs (fun _ => admAt m h) (dats m h) 0 (atEntry0 m) (linesAfter (F := F))

set_option backward.isDefEq.respectTransparency.types false in
/-- Every weakly fair execution of @main terminates, and in its final state every array of the pipeline holds what
    the write-backs leave and every other unscoped buffer what the later lines leave. -/
theorem run_main (h : InRange m) :
    θ_run defs (onTc (τ := τ) (main (F := F))) (s₀ m ρ)
      (Pipeline.FramePost (Pipeline.pin pcfgs fun _ => admAt m h) (dats m h) 0 (atEnd m h)) :=
  Pipeline.θ_run_frameP_around pcfgs (fun _ => admAt m h) (dats m h) (0 : Fin 1) launch0 defs₀ Variants.none m ρ main
    (hbody := fun c => (body_obligation m h c).loose) (hshare := fun c => (dat m h c 0).share_full fun _ => rfl)
    (howed := fun _ _ => rfl) (V₀ := atEntry0 m) (opss := linesAfter) (hsub := lines_after_sub) (hfresh := lines_after_fresh)
    (hkeep := lines_after_keeps) (hmain := entry_reduces m Variants.none) (hA := fun c w => dat_A m h c w)
    (hpf := atEntry_table m) (hΦ := fun _ _ => rfl)

/-- The masks end as launched: no window stages them and no line writes them. -/
theorem atEnd_arg1 (h : InRange m) (c : Dev nD) : atEnd m h c main_arg1 = m ((c : Thread nD τ).loc main_arg1) := by
  unfold atEnd Pipeline.afterTail
  rw [after_lines_arg1,
    Pipeline.withArrays_of_ne _ c (atEntry0 m c) _ main_arg1 (by exact (by decide : ∀ w, Pipeline.arrRef spec0 w ≠ main_arg1))]
  exact atEntry_arg1 m c

/-- So do the class ids. -/
theorem atEnd_arg2 (h : InRange m) (c : Dev nD) : atEnd m h c main_arg2 = m ((c : Thread nD τ).loc main_arg2) := by
  unfold atEnd Pipeline.afterTail
  rw [after_lines_arg2,
    Pipeline.withArrays_of_ne _ c (atEntry0 m c) _ main_arg2 (by exact (by decide : ∀ w, Pipeline.arrRef spec0 w ≠ main_arg2))]
  exact atEntry_arg2 m c

/-- THE FRAME, at any float family, under the tables' range condition. -/
theorem frame (h : InRange m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hp c =>
    ⟨((hp c).1 0).trans (((dat m h c 0).arrAt_in 0 rfl _).trans ((dat_A m h c 0).trans (atEntry_arg0 m c))),
     ((hp c).2 main_arg1 (Pipeline.mem_restRefs_of main_arg1 (by decide) (by exact (by decide : ∀ w, (spec0 w).arr.view.ref ≠ main_arg1)))).trans (atEnd_arg1 m h c),
     ((hp c).2 main_arg2 (Pipeline.mem_restRefs_of main_arg2 (by decide) (by exact (by decide : ∀ w, (spec0 w).arr.view.ref ≠ main_arg2)))).trans (atEnd_arg2 m h c)⟩)
    (run_main m ρ h)

end Cert.KernelIdeal.Hand

end
-- ==== Proof.LossTail.lean ====
/-
  The reference's loss as a function of the per-instance statistics.

  From the count of mask pixels, the masked sum and the masked sum of squares of each of the 100 instances, and
  the class ids, the loss is: the hinge max(1 − (mean j − mean k)², 0) summed over the pairs j < k of one class,
  plus the mean of the squared means, plus the mean of the variances; means and variances are zero for an
  instance with an empty mask. `lossTail` is that function of four plain vectors, at the exact (extended-real)
  values, written operation by operation as the program computes it.
-/
import proofs.«409015_j49709951484027_3_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.StableHlo

/-! ## The loss as a function of the three statistics and the ids -/

/-- The vector of length 100 every entry of which is the float the word `b` encodes. -/
def fill100 (b : BitVec 32) : FVec Ideal S100 .f32 :=
  broadcastInDim S100 ![] bcast_S_S100 (constant (F := Ideal) S_ .f32 b)

/-- The 100 × 100 array every entry of which is the float the word `b` encodes. -/
def fill100x100 (b : BitVec 32) : FVec Ideal S100x100 .f32 :=
  broadcastInDim S100x100 ![] bcast_S_S100x100 (constant (F := Ideal) S_ .f32 b)

/-- A vector `v` laid along the rows of a square: entry (j, k) is `v j`. -/
def alongRows {α : Type} (v : S100.Idx → α) : S100x100.Idx → α :=
  broadcastInDim S100x100 ![0, 1] bcast_S100x1_S100x100_0_1 (broadcastInDim S100x1 ![0] bcast_S100_S100x1_0 v)

/-- A vector `v` laid along the columns of a square: entry (j, k) is `v k`. -/
def alongCols {α : Type} (v : S100.Idx → α) : S100x100.Idx → α :=
  broadcastInDim S100x100 ![0, 1] bcast_S1x100_S100x100_0_1 (broadcastInDim S1x100 ![1] bcast_S100_S1x100_1 v)

/-- Which instances have a nonempty mask: the count is positive. -/
def hasPixels (cnt : FVec Ideal S100 .f32) : IVec S100 1 :=
  cmpf (F := Ideal) .ogt cnt (fill100 0x00000000#32)

/-- The count where it is positive, one elsewhere: the divisor of the two means. -/
def safeCount (cnt : FVec Ideal S100 .f32) : FVec Ideal S100 .f32 :=
  select (hasPixels cnt) cnt (fill100 0x3F800000#32)

/-- The mean of the selected class map over the mask; zero for an empty mask. -/
def objMean (cnt s1 : FVec Ideal S100 .f32) : FVec Ideal S100 .f32 :=
  select (hasPixels cnt) (Host.divf s1 (safeCount cnt)) (fill100 0x00000000#32)

/-- The population variance over the mask, mean of squares minus squared mean; zero for an empty mask. -/
def objVar (cnt s1 s2 : FVec Ideal S100 .f32) : FVec Ideal S100 .f32 :=
  select (hasPixels cnt)
    (subf (Host.divf s2 (safeCount cnt)) (mulf (objMean cnt s1) (objMean cnt s1)))
    (fill100 0x00000000#32)

/-- The pairs (j, k) of instances of one class. -/
def sameClass (ids : IVec S100 32) : IVec S100x100 1 :=
  cmpi .eq (alongRows ids) (alongCols ids)

/-- The strict upper triangle j < k of the square: a square of ones with the entries at and below the
    diagonal (row coordinate ≥ column coordinate) cleared. -/
def strictUpper : IVec S100x100 1 :=
  select
    (cmpi .sge
      (addi (iotaInDim S100x100 32 0) (broadcastInDim S100x100 ![] bcast_S_S100x100 (constantI S_ 32 0#32)))
      (iotaInDim S100x100 32 1))
    (broadcastInDim S100x100 ![] bcast_S_S100x100 (constantI S_ 1 0#1))
    (broadcastInDim S100x100 ![] bcast_S_S100x100 (constantI S_ 1 1#1))

/-- The hinge max(1 − (m j − m k)², 0) on every pair of means. -/
def pairHinge (m : FVec Ideal S100 .f32) : FVec Ideal S100x100 .f32 :=
  maximumf
    (subf (fill100x100 0x3F800000#32)
      (mulf (subf (alongRows m) (alongCols m)) (subf (alongRows m) (alongCols m))))
    (fill100x100 0x00000000#32)

/-- The inter-instance term: the hinge summed over the pairs j < k of one class. -/
def lossInter (m : FVec Ideal S100 .f32) (ids : IVec S100 32) : FVec Ideal S_ .f32 :=
  Host.reduceAdd
    (select (andi (sameClass ids) strictUpper) (pairHinge m) (fill100x100 0x00000000#32))
    (constant (F := Ideal) S_ .f32 0x00000000#32) reducesTo_S100x100_S_d0_1 h_S_

/-- The mean over the 100 instances of a vector: its sum divided by 100. -/
def mean100 (v : FVec Ideal S100 .f32) : FVec Ideal S_ .f32 :=
  Host.divf
    (Host.reduceAdd v (constant (F := Ideal) S_ .f32 0x00000000#32) reducesTo_S100_S_d0 h_S_)
    (constant (F := Ideal) S_ .f32 0x42C80000#32)

/-- THE TAIL of the reference: from the per-instance count `cnt`, masked sum `s1`, masked sum of squares `s2`
    and the class ids to the loss, 1 · inter + 1 · mean(mean²) + 1 · mean(variance), as an array of one element. -/
def lossTail (cnt s1 s2 : FVec Ideal S100 .f32) (ids : IVec S100 32) : FVec Ideal S1 .f32 :=
  shapeCast _
    (addf
      (addf
        (mulf (constant (F := Ideal) S_ .f32 0x3F800000#32) (lossInter (objMean cnt s1) ids))
        (mulf (constant (F := Ideal) S_ .f32 0x3F800000#32)
          (mean100 (mulf (objMean cnt s1) (objMean cnt s1)))))
      (mulf (constant (F := Ideal) S_ .f32 0x3F800000#32) (mean100 (objVar cnt s1 s2))))
    shapeCasts_S_S1

end Cert.ReferenceIdeal.RefValue

end
-- ==== Proof.KI.TailValue.lean ====
/-
  The value of the program's result after the host lines that follow the kernel region.

  The later lines read the three per-core slabs (counts, sums, sums of squares), the inverse of the sorting permutation
  and the clamped class ids; everything else they read they wrote themselves.  They unpack each slab into a vector of
  100 entries (`unpack`: the slab's two rows of 1024 words, the first 50 of each), read it through the inverse permutation
  (`unperm`), and from the three vectors and the ids compute the loss by the very operations of the reference's second
  half.  So the result buffer after the lines holds the reference's loss function at those three vectors and the ids.

  The two re-indexings are then read at an entry: entry 50 k + j of an unpacked slab is the word at core k, sublane
  j / 128, lane j % 128, and an entry read through a word that is a position of the vector is the vector there.
-/
import proofs.«409015_j49709951484027_3_alg».proof.Proof.KI.TailArgs
import proofs.«409015_j49709951484027_3_alg».proof.Proof.LossTail
import Idealize.ShloMosaic.Lib.StableHlo.Run
import Idealize.ShloMosaic.Lib.StableHlo.Predicate
import Idealize.ShloMosaic.Lib.SortFacts
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL.Sem
open Idealize.ShloMosaic.StableHlo Idealize.ShloMosaic.ValueIdx
open Cert.KernelIdeal Cert.KernelIdeal.Gen

/-! ## The two re-indexings of a slab -/

/-- The per-instance vector a per-core slab packs: the slab's two rows of 1024 words, the first 50 of each row, one
    row after the other. -/
def unpack (x : FVec Ideal S2x8x128 .f32) : FVec Ideal S100 .f32 :=
  shapeCast S100
    (extractStridedSlice S2x50 ![0, 0] (shapeCast S2x1024 x shapeCasts_S2x8x128_S2x1024) slices_S2x1024_S2x50_0_0)
    shapeCasts_S2x50_S100

/-- The vector `v` read through the words of `q`: entry `i` is `v` at the position word `i` of `q` names, a negative
    word counted from the end. -/
def unperm (v : FVec Ideal S100 .f32) (q : IVec S100 32) : FVec Ideal S100 .f32 :=
  Host.gather gather_S100_S100x1_S100_n_0_n_n_0_1_1 v
    (broadcastInDim S100x1 ![0] bcast_S100_S100x1_0
      (select (cmpi .slt q (broadcastInDim S100 ![] bcast_S_S100 (constantI S_ 32 0#32)))
        (addi q (broadcastInDim S100 ![] bcast_S_S100 (constantI S_ 32 100#32))) q))

/-! ## The result after the later lines -/

-- one pass over the 108 lines: each buffer a line reads is followed back to the line that writes it
set_option maxHeartbeats 1000000 in
/-- THE RESULT AFTER THE LATER LINES, from any contents `W` of the buffers when they start: the reference's loss
    function at the three slabs, each unpacked and read through the inverse permutation, and the clamped class ids.
    The lines compose to that term operation by operation. -/
theorem after_lines_result (W : Valuation τ sig (Elt Ideal)) :
    StableHlo.after (linesAfter (F := Ideal)).flatten W (Proc.devRef .tc main_v81)
      = Cert.ReferenceIdeal.RefValue.lossTail
          (unperm (unpack (W (Proc.devRef .tc main_v11_0))) (W (Proc.devRef .tc main_v9)))
          (unperm (unpack (W (Proc.devRef .tc main_v11_1))) (W (Proc.devRef .tc main_v9)))
          (unperm (unpack (W (Proc.devRef .tc main_v11_2))) (W (Proc.devRef .tc main_v9)))
          (W (Proc.devRef .tc main_v0)) := by
  simp only [linesAfter, hostOps1, hostOps1_1, hostOps1_2, hostOps1_3, hostOps1_4, hostOps1_5, hostOps1_6, hostOps1_7,
    hostOps1_8, hostOps1_9, hostOps1_10, List.flatten_cons, List.flatten_nil, List.append_nil, List.cons_append,
    List.nil_append]
  after_results_simp
  rfl

/-! ## The two re-indexings read at an entry -/

/-- Entry `50 k + j` of the unpacked vector is word `j` of row `k` of the slab: sublane `j / 128`, lane `j % 128`
    of core `k`'s tile. -/
theorem unpack_apply (x : FVec Ideal S2x8x128 .f32) (k : Fin 2) (j : Fin 50) :
    unpack x (ix1 ⟨50 * k.val + j.val, by omega⟩)
      = x (ix3 k ⟨j.val / 128, by omega⟩ ⟨j.val % 128, Nat.mod_lt _ (by decide)⟩) := by
  unfold unpack
  refine (shapeCast_apply _ shapeCasts_S2x50_S100 _ (ix2 k j) (by
    rw [Shape.rowMajor_val_two, Shape.rowMajor_val_one]
    show k.val * 50 + j.val = 50 * k.val + j.val
    omega)).trans ?_
  refine (extractStridedSlice_apply ![0, 0] _ slices_S2x1024_S2x50_0_0 (ix2 k j) (ix2 k (⟨j.val, by omega⟩ : Fin 1024))
    (fun a => by
      match a with
      | ⟨0, _⟩ => exact (Nat.zero_add _).symm
      | ⟨1, _⟩ => exact (Nat.zero_add _).symm)).trans ?_
  exact shapeCast_apply x shapeCasts_S2x8x128_S2x1024 _ _ (by
    rw [Shape.rowMajor_val_three, Shape.rowMajor_val_two]
    show (k.val * 8 + j.val / 128) * 128 + j.val % 128 = k.val * 1024 + j.val
    omega)

/-- The read of a vector at a column of positions: where word `i` of `w` is a position of the vector (below 100), entry
    `i` is the vector at that position, the word being neither negative nor past the end. -/
theorem take_apply (v : FVec Ideal S100 .f32) (w : IVec S100 32) (i : Fin 100) (h : (w (ix1 i)).toNat < 100) :
    Host.gather gather_S100_S100x1_S100_n_0_n_n_0_1_1 v (broadcastInDim S100x1 ![0] bcast_S100_S100x1_0 w) (ix1 i)
      = v (ix1 ⟨(w (ix1 i)).toNat, h⟩) := by
  have e : (ix1 i : S100.Idx) = Shape.Idx.ofFin i := Shape.Idx.eq_ofFin (ix1 i)
  refine (congrArg (Host.gather gather_S100_S100x1_S100_n_0_n_n_0_1_1 v _) e).trans ?_
  refine (Predicate.gather_take gather_S100_S100x1_S100_n_0_n_n_0_1_1 rfl rfl rfl rfl v _ i (by decide)).trans ?_
  congr 1
  funext a
  have ha : a = 0 := Subsingleton.elim _ _
  subst ha
  refine Fin.ext ?_
  show min (BitVec.toInt (broadcastInDim S100x1 ![0] bcast_S100_S100x1_0 w (Predicate.ixP i))).toNat (100 - 1)
    = (w (ix1 i)).toNat
  rw [Predicate.bcast_col1, ← e, Predicate.toInt_eq_toNat_of_lt (by omega)]
  simp only [Int.toNat_natCast]
  omega

/-- Where word `i` of `q` is a position of the vector (below 100), entry `i` of the vector read through `q` is the
    vector at that position: the word is not negative, so the wrap keeps it as it is. -/
theorem unperm_apply (v : FVec Ideal S100 .f32) (q : IVec S100 32) (i : Fin 100) (h : (q (ix1 i)).toNat < 100) :
    unperm v q (ix1 i) = v (ix1 ⟨(q (ix1 i)).toNat, h⟩) := by
  have hnn : IntOp.cmpi .slt (q (ix1 i)) 0#32 = 0#1 := by
    have hi : (q (ix1 i)).toInt = ((q (ix1 i)).toNat : Int) := Predicate.toInt_eq_toNat_of_lt (by omega)
    simp only [IntOp.cmpi, BitVec.slt, hi, show (0#32 : BitVec 32).toInt = 0 from by decide]
    have : ¬ (((q (ix1 i)).toNat : Int) < 0) := by omega
    simp [this]
  have hs : select (cmpi .slt q (broadcastInDim S100 ![] bcast_S_S100 (constantI S_ 32 0#32)))
      (addi q (broadcastInDim S100 ![] bcast_S_S100 (constantI S_ 32 100#32))) q (ix1 i) = q (ix1 i) := by
    show Scalar.select (IntOp.cmpi .slt (q (ix1 i)) 0#32) _ _ = _
    rw [hnn]; exact select_zero _ _
  unfold unperm
  exact (take_apply v _ i (hs.symm ▸ h)).trans (congrArg v (congrArg ix1 (Fin.ext (congrArg BitVec.toNat hs))))

end Cert.KernelIdeal.Hand

end
-- ==== Proof.KI.Result.lean ====
/-
  The idealized program's result.

  After the region the later lines start from the pipeline's arrays at what the write-backs left and every other
  buffer at what the region found.  They unpack the three slab arrays into vectors over the hundred sorted
  positions, read each through the inverse permutation, and apply the loss's tail to the three vectors and the
  clamped class ids.  Reading sorted position `invPerm i` of a slab gives instance `i`'s own statistic, because the
  block the pipeline staged at that position was chosen by `sortPerm (invPerm i) = i`; and on a label in [0, 80)
  the clamp is the identity.  So the result is the reference's tail of the reference's statistics.
-/
import proofs.«409015_j49709951484027_3_alg».proof.Proof.KI.Frame
import proofs.«409015_j49709951484027_3_alg».proof.Proof.KI.Tables
import proofs.«409015_j49709951484027_3_alg».proof.Proof.KI.TailValue

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (h : InRange m) (c : Dev nD)

/-! ## What the later lines start from -/

/-- The contents the later lines start from: the pipeline's arrays after the last write-back, every other
    buffer as the region found it. -/
abbrev atExit : Valuation τ sig (Elt Ideal) :=
  Pipeline.withArrays (Pipeline.pin pcfgs (fun _ => admAt m h) 0).spec c (atEntry0 m c)
    (fun w => (dats m h 0 c).arrAt w (Pipeline.pin pcfgs (fun _ => admAt m h) 0).N)

theorem atEnd_eq (b : Ref sig .tc) :
    atEnd m h c b = StableHlo.after (linesAfter (F := Ideal)).flatten (atExit m h c) (Proc.devRef .tc b) := rfl

/-- The three slab arrays are the pipeline's output arrays. -/
theorem atExit_slab2 : atExit m h c (Proc.devRef .tc main_v11_0) = (dat m h c 0).arrAt 2 (pipeAt m h).N :=
  Pipeline.withArrays_arr spec0 winFacts0.arr_inj c _ _ 2
theorem atExit_slab3 : atExit m h c (Proc.devRef .tc main_v11_1) = (dat m h c 0).arrAt 3 (pipeAt m h).N :=
  Pipeline.withArrays_arr spec0 winFacts0.arr_inj c _ _ 3
theorem atExit_slab4 : atExit m h c (Proc.devRef .tc main_v11_2) = (dat m h c 0).arrAt 4 (pipeAt m h).N :=
  Pipeline.withArrays_arr spec0 winFacts0.arr_inj c _ _ 4

/-- The inverse permutation and the clamped ids are buffers the region leaves alone. -/
theorem atExit_v9 : atExit m h c (Proc.devRef .tc main_v9) = invPerm (idsOf m c) :=
  (Pipeline.withArrays_of_ne _ c (atEntry0 m c) _ main_v9 (by exact (by decide : ∀ w, Pipeline.arrRef spec0 w ≠ main_v9))).trans
    (atEntry_v9 m c)
theorem atExit_v0 : atExit m h c (Proc.devRef .tc main_v0) = clampedIds (idsOf m c) :=
  (Pipeline.withArrays_of_ne _ c (atEntry0 m c) _ main_v0 (by exact (by decide : ∀ w, Pipeline.arrRef spec0 w ≠ main_v0))).trans
    (atEntry_v0 m c)

/-- The result buffer after the whole program: the loss's tail of the three un-permuted slab vectors and the
    clamped ids. -/
theorem atEnd_result :
    atEnd m h c main_v81
      = Cert.ReferenceIdeal.RefValue.lossTail
          (unperm (unpack ((dat m h c 0).arrAt 2 (pipeAt m h).N)) (invPerm (idsOf m c)))
          (unperm (unpack ((dat m h c 0).arrAt 3 (pipeAt m h).N)) (invPerm (idsOf m c)))
          (unperm (unpack ((dat m h c 0).arrAt 4 (pipeAt m h).N)) (invPerm (idsOf m c)))
          (clampedIds (idsOf m c)) := by
  rw [atEnd_eq, after_lines_result, atExit_slab2, atExit_slab3, atExit_slab4, atExit_v9, atExit_v0]

/-- On a label in [0, 80) the clamp into [0, 79] is the identity. -/
theorem clamp_label (w : BitVec 32) (h0 : 0 ≤ w.toInt) (h1 : w.toInt < 80) : IntOp.minsi 79#32 (IntOp.maxsi 0#32 w) = w := by
  have e0 : (0#32 : BitVec 32).toInt = 0 := by decide
  have e79 : (79#32 : BitVec 32).toInt = 79 := by decide
  have hmax : IntOp.maxsi 0#32 w = w := by
    unfold IntOp.maxsi
    split
    · rename_i hlt
      have := BitVec.slt_iff_toInt_lt.mp hlt
      omega
    · rfl
  rw [hmax]
  unfold IntOp.minsi
  split
  · rename_i hlt
    have := BitVec.slt_iff_toInt_lt.mp hlt
    omega
  · rfl

/-- The run of the idealized program with its result named. -/
theorem run_result : θ_run defs (onTc (τ := τ) (main (F := Ideal))) ⟨m, fun _ => 0, ρ⟩ (fun r => ∀ c : Dev nD,
      r.2.mem ((c.tc : Thread nD τ).loc main_v81) = atEnd m h c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hp c =>
    ⟨(hp c).2 main_v81 (Pipeline.mem_restRefs_of main_v81 (by decide) (by exact (by decide : ∀ w, (spec0 w).arr.view.ref ≠ main_v81))),
     ((hp c).1 0).trans (((dat m h c 0).arrAt_in 0 rfl _).trans ((dat_A m h c 0).trans (atEntry_arg0 m c))),
     ((hp c).2 main_arg1 (Pipeline.mem_restRefs_of main_arg1 (by decide) (by exact (by decide : ∀ w, (spec0 w).arr.view.ref ≠ main_arg1)))).trans (atEnd_arg1 m h c),
     ((hp c).2 main_arg2 (Pipeline.mem_restRefs_of main_arg2 (by decide) (by exact (by decide : ∀ w, (spec0 w).arr.view.ref ≠ main_arg2)))).trans (atEnd_arg2 m h c)⟩)
    (run_main m ρ h)

end Cert.KernelIdeal.Hand

end
-- ==== Proof.KI.Payload.lean ====
/-
  The pure payloads of the kernel body, read at an index on the extended reals.

  The body is handed one class map `x4` (a [1, 512, 512] block of reals) and one mask `x5` (a [1, 512, 512] block of
  32-bit words).  It turns the mask into the real array that is 1 where the word is not zero and 0 where it is,
  multiplies, and takes three total sums over the 512 × 512 positions: the number of masked positions, the sum of the
  class map over them, and the sum of its squares over them.  Each total is a sum along the lanes (one value per
  row), then a sum of the 512 row values; the shape changes between the two are re-indexings.  The three totals are
  added into three [1, 8, 128] slabs at the one slab position whose flat number `sublane · 128 + lane` equals the inner
  grid coordinate.
-/
import proofs.«409015_j49709951484027_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen
open scoped BigOperators

/-! ## A total sum taken in two steps -/

/-- The sum along the lanes of a [512, 512] array of reals, read at row `r`: the sum of that row. -/
theorem laneSum_apply (src : FVec Ideal S512x512 .f32) (h : S512x512.Reduces [1] S512) (hφ : FKind.Formats .f32)
    (hacc : (0x00000000#32 : BitVec 32) = FKind.add.neutral .f32 hφ) (r : Fin 512) :
    multiReduction .add [1] S512 src 0x00000000#32 h hφ hacc (ix1 r) = ∑ q : Fin 512, src (ix2 r q) := by
  refine (Ideal.multiReduction_add_single src 0x00000000#32 h hφ hacc (ix1 r)).trans ?_
  refine Finset.sum_congr rfl fun q _ => congrArg src ?_
  funext a
  match a with
  | ⟨0, _⟩ => rfl
  | ⟨1, _⟩ => rfl

/-- The sum down the one column of a [512, 1] array of reals: the sum of its 512 entries. -/
theorem columnSum_apply (src : FVec Ideal S512x1 .f32) (h : S512x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ r : Fin 512, src (ix2 r u) := by
  refine (Ideal.multiReduction_add_single src 0x00000000#32 h hφ hacc (ix1 u)).trans ?_
  refine Finset.sum_congr rfl fun r _ => congrArg src ?_
  funext a
  match a with
  | ⟨0, _⟩ => rfl
  | ⟨1, _⟩ => rfl

/-- A vector of 512 entries re-laid as a [512, 1] column reads, at `(r, u)`, the entry `r`. -/
theorem column_apply {α : Type} (v : S512.Idx → α) (h : S512.ShapeCasts S512x1) (r : Fin 512) (u : Fin 1) :
    shapeCast S512x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- The body's total of a [512, 512] array of reals — sum along the lanes, re-lay the 512 row sums as a column, sum
    down the column, re-lay the one value as [1, 1], take it out — is the double sum over rows and lanes. -/
theorem total_apply (src : FVec Ideal S512x512 .f32) (h₁ : S512x512.Reduces [1] S512) (hφ₁ : FKind.Formats .f32)
    (hacc₁ : (0x00000000#32 : BitVec 32) = FKind.add.neutral .f32 hφ₁) (c₁ : S512.ShapeCasts S512x1)
    (h₂ : S512x1.Reduces [0] S1) (hφ₂ : FKind.Formats .f32)
    (hacc₂ : (0x00000000#32 : BitVec 32) = FKind.add.neutral .f32 hφ₂) (c₂ : S1.ShapeCasts S1x1)
    (hp : ∀ a, (![0, 0] : Fin 2 → Nat) a < S1x1.size a) :
    extractAt ![0, 0]
        (shapeCast S1x1
          (multiReduction .add [0] S1
            (shapeCast S512x1 (multiReduction .add [1] S512 src 0x00000000#32 h₁ hφ₁ hacc₁) c₁)
            0x00000000#32 h₂ hφ₂ hacc₂) c₂) hp
      = ∑ r : Fin 512, ∑ q : Fin 512, src (ix2 r q) := by
  have e : (fun a => (⟨(![0, 0] : Fin 2 → Nat) a, hp a⟩ : Fin (S1x1.size a))) = ix2 (0 : Fin 1) (0 : Fin 1) := by
    funext a
    match a with
    | ⟨0, _⟩ => rfl
    | ⟨1, _⟩ => rfl
  unfold extractAt
  rw [e, shapeCast_a_1a_apply, columnSum_apply]
  refine Finset.sum_congr rfl fun r _ => ?_
  rw [column_apply, laneSum_apply]

/-! ## The mask and the three totals -/

/-- The mask as a real: 1 where the word of `x5` at row `r`, lane `q` is not zero, 0 where it is. -/
def maskK (x5 : Vec Ideal S1x512x512 .i32) (r q : Fin 512) : EReal :=
  if x5 (ix3 (0 : Fin 1) r q) = 0#32 then 0 else 1

/-- The number of masked positions: the sum of the mask over the 512 rows and 512 lanes. -/
def cntOf (x5 : Vec Ideal S1x512x512 .i32) : EReal :=
  ∑ r : Fin 512, ∑ q : Fin 512, maskK x5 r q

/-- The sum of the class map over the masked positions. -/
def s1Of (x4 : Vec Ideal S1x512x512 .f32) (x5 : Vec Ideal S1x512x512 .i32) : EReal :=
  ∑ r : Fin 512, ∑ q : Fin 512, x4 (ix3 (0 : Fin 1) r q) * maskK x5 r q

/-- The sum of the squares of the class map over the masked positions, in the body's bracketing `x · (x · mask)`. -/
def s2Of (x4 : Vec Ideal S1x512x512 .f32) (x5 : Vec Ideal S1x512x512 .i32) : EReal :=
  ∑ r : Fin 512, ∑ q : Fin 512, x4 (ix3 (0 : Fin 1) r q) * (x4 (ix3 (0 : Fin 1) r q) * maskK x5 r q)

/-- The word "not equal to zero" of a 32-bit word, widened to 32 bits and read as a signed integer, is 0 for the
    zero word and 1 for every other. -/
theorem sitofp_ne_zero (w : BitVec 32) :
    (FloatOps.sitofp .f32 ((IntOp.cmpi .ne w 0#32).setWidth 32) : Ideal .f32) = if w = 0#32 then 0 else 1 := by
  by_cases h : w = 0#32
  · subst h
    rw [if_pos rfl]
    show ((((IntOp.cmpi .ne (0#32 : BitVec 32) 0#32).setWidth 32).toInt : ℝ) : EReal) = 0
    have : ((IntOp.cmpi .ne (0#32 : BitVec 32) 0#32).setWidth 32).toInt = 0 := by decide
    rw [this]; simp
  · rw [if_neg h]
    have hc : IntOp.cmpi .ne w 0#32 = 1#1 := by
      show BitVec.ofBool (w != 0#32) = 1#1
      rw [bne_iff_ne.mpr h]; rfl
    rw [hc]
    show ((((1#1 : BitVec 1).setWidth 32).toInt : ℝ) : EReal) = 1
    have : ((1#1 : BitVec 1).setWidth 32).toInt = 1 := by decide
    rw [this]; simp

/-- The class map re-laid as [512, 512] reads, at `(r, q)`, the block at `(0, r, q)`. -/
theorem pay7_apply (x4 : Vec Ideal S1x512x512 .f32) (r q : Fin 512) :
    k0_pay7 (F := Ideal) x4 (ix2 r q) = x4 (ix3 (0 : Fin 1) r q) := by
  unfold k0_pay7
  exact shapeCast_1ab_ab_apply x4 _ r q

/-- The mask converted to reals reads, at `(r, q)`, 1 where the word at `(0, r, q)` is not zero and 0 where it is. -/
theorem pay8_apply (x5 : Vec Ideal S1x512x512 .i32) (r q : Fin 512) :
    k0_pay8 (F := Ideal) x5 (ix2 r q) = maskK x5 r q := by
  unfold k0_pay8 maskK
  show (FloatOps.sitofp .f32 ((IntOp.cmpi .ne
      (shapeCast S512x512 x5 shapeCasts_S1x512x512_S512x512 (ix2 r q)) 0#32).setWidth 32) : Ideal .f32) = _
  rw [shapeCast_1ab_ab_apply x5 _ r q]
  exact sitofp_ne_zero _

/-- The masked class map reads, at `(r, q)`, the class map's value times the mask. -/
theorem pay9_apply (x4 : Vec Ideal S1x512x512 .f32) (x5 : Vec Ideal S1x512x512 .i32) (r q : Fin 512) :
    k0_pay9 (F := Ideal) x4 x5 (ix2 r q) = x4 (ix3 (0 : Fin 1) r q) * maskK x5 r q := by
  unfold k0_pay9
  show k0_pay7 (F := Ideal) x4 (ix2 r q) * k0_pay8 (F := Ideal) x5 (ix2 r q) = _
  rw [pay7_apply, pay8_apply]

/-- (a) The count payload is, at every slab position, the number of masked positions. -/
theorem pay14_apply (x5 : Vec Ideal S1x512x512 .i32) (y : S1x8x128.Idx) :
    k0_pay14 (F := Ideal) x5 y = cntOf x5 := by
  unfold k0_pay14 cntOf
  show broadcast S1x8x128 _ y = _
  rw [broadcast_apply]
  refine (total_apply (k0_pay8 (F := Ideal) x5) _ _ _ _ _ _ _ _ _).trans ?_
  exact Finset.sum_congr rfl fun r _ => Finset.sum_congr rfl fun q _ => pay8_apply x5 r q

/-- (a) The first-moment payload is the sum of the class map over the masked positions. -/
theorem pay10_eq (x4 : Vec Ideal S1x512x512 .f32) (x5 : Vec Ideal S1x512x512 .i32) :
    k0_pay10 (F := Ideal) x4 x5 = s1Of x4 x5 := by
  unfold k0_pay10 s1Of
  refine (total_apply (k0_pay9 (F := Ideal) x4 x5) _ _ _ _ _ _ _ _ _).trans ?_
  exact Finset.sum_congr rfl fun r _ => Finset.sum_congr rfl fun q _ => pay9_apply x4 x5 r q

/-- (a) The second-moment payload is the sum of the squares of the class map over the masked positions. -/
theorem pay11_eq (x4 : Vec Ideal S1x512x512 .f32) (x5 : Vec Ideal S1x512x512 .i32) :
    k0_pay11 (F := Ideal) x4 x5 = s2Of x4 x5 := by
  unfold k0_pay11 s2Of
  refine (total_apply (mulf (k0_pay7 (F := Ideal) x4) (k0_pay9 (F := Ideal) x4 x5)) _ _ _ _ _ _ _ _ _).trans ?_
  refine Finset.sum_congr rfl fun r _ => Finset.sum_congr rfl fun q _ => ?_
  show k0_pay7 (F := Ideal) x4 (ix2 r q) * k0_pay9 (F := Ideal) x4 x5 (ix2 r q) = _
  rw [pay7_apply, pay9_apply]

/-! ## The one-hot slab -/

/-- Two naturals below 2^32 are equal as 32-bit words exactly when they are equal. -/
theorem ofNat32_eq_iff {a b : Nat} (ha : a < 2 ^ 32) (hb : b < 2 ^ 32) :
    BitVec.ofNat 32 a = BitVec.ofNat 32 b ↔ a = b := by
  constructor
  · intro h
    have e := congrArg BitVec.toNat h
    rwa [BitVec.toNat_ofNat, BitVec.toNat_ofNat, Nat.mod_eq_of_lt ha, Nat.mod_eq_of_lt hb] at e
  · rintro rfl
    rfl

/-- The flat number of slab position `(s, l)`, computed on 32-bit words as `s · 128 + l`, does not wrap. -/
theorem flatWord (s : Fin 8) (l : Fin 128) :
    BitVec.ofNat 32 s.val * 128#32 + BitVec.ofNat 32 l.val = BitVec.ofNat 32 (s.val * 128 + l.val) := by
  apply BitVec.eq_of_toNat_eq
  have hs := s.isLt
  have hl := l.isLt
  rw [BitVec.toNat_add, BitVec.toNat_mul, BitVec.toNat_ofNat, BitVec.toNat_ofNat, BitVec.toNat_ofNat,
    BitVec.toNat_ofNat]
  omega

/-- (b) The one-hot slab at position `(0, s, l)`: the bit "the flat number `s · 128 + l` is the inner grid
    coordinate". -/
theorem pay12_apply (i : grid0.Coords) (s : Fin 8) (l : Fin 128) :
    k0_pay12 i (ix3 (0 : Fin 1) s l) = if s.val * 128 + l.val = (i 1).val then 1#1 else 0#1 := by
  have hi : (i 1).val < 50 := (i 1).isLt
  have hs := s.isLt
  have hl := l.isLt
  unfold k0_pay12
  show IntOp.cmpi .eq
      (IntOp.addi (IntOp.muli (iota .tc S1x8x128 32 [1] iota_S1x8x128_d1_w32 (ix3 (0 : Fin 1) s l)) 128#32)
        (iota .tc S1x8x128 32 [2] iota_S1x8x128_d2_w32 (ix3 (0 : Fin 1) s l)))
      (BitVec.ofNat 32 (i 1).val) = _
  rw [iota_single_apply, iota_single_apply]
  show BitVec.ofBool (BitVec.ofNat 32 s.val * 128#32 + BitVec.ofNat 32 l.val == BitVec.ofNat 32 (i 1).val) = _
  rw [flatWord]
  by_cases hc : s.val * 128 + l.val = (i 1).val
  · rw [if_pos hc, hc, beq_self_eq_true]
    rfl
  · rw [if_neg hc, beq_eq_false_iff_ne.mpr fun h => hc ((ofNat32_eq_iff (by omega) (by omega)).mp h)]
    rfl

/-- A choice on the one-hot bit at `(0, s, l)` is the choice on "`s · 128 + l` is the inner grid coordinate". -/
theorem ite_pay12 {α : Type} (i : grid0.Coords) (s : Fin 8) (l : Fin 128) (a b : α) :
    (if k0_pay12 i (ix3 (0 : Fin 1) s l) = 1#1 then a else b)
      = if s.val * 128 + l.val = (i 1).val then a else b := by
  rw [pay12_apply]
  by_cases hc : s.val * 128 + l.val = (i 1).val
  · rw [if_pos hc, if_pos hc, if_pos rfl]
  · rw [if_neg hc, if_neg hc, if_neg (by decide)]

/-! ## The accumulate payloads, the re-laid slab and the zero slabs -/

/-- (c) The count slab's new value: the old value plus, where the bit is set, the count (elsewhere the constant). -/
theorem pay1_apply (v33 : IVec S1x8x128 1) (v35 : FVec Ideal S1x8x128 .f32) (cst : Ideal .f32)
    (v36 : FVec Ideal S1x8x128 .f32) (y : S1x8x128.Idx) :
    k0_pay1 (F := Ideal) v33 v35 cst v36 y = v35 y + (if v33 y = 1#1 then v36 y else cst) := rfl

/-- (c) The first-moment slab's new value: the old value plus, where the bit is set, the first moment. -/
theorem pay2_apply (v20 : Ideal .f32) (v33 : IVec S1x8x128 1) (v41 : Vec Ideal S1x8x128 .f32) (y : S1x8x128.Idx) :
    k0_pay2 (F := Ideal) v20 v33 v41 y = v41 y + (if v33 y = 1#1 then v20 else 0) := by
  unfold k0_pay2
  show shapeCast S1x8x128 v41 shapeCasts_S1x8x128_S1x8x128 y
      + (if v33 y = 1#1 then v20 else Ideal.ofBits .f32 0x00000000#32) = _
  rw [shapeCast_self, Ideal.ofBits_zero_f32]

/-- (c) The second-moment slab's new value: the old value plus, where the bit is set, the second moment. -/
theorem pay3_apply (v26 : Ideal .f32) (v33 : IVec S1x8x128 1) (v48 : Vec Ideal S1x8x128 .f32) (y : S1x8x128.Idx) :
    k0_pay3 (F := Ideal) v26 v33 v48 y = v48 y + (if v33 y = 1#1 then v26 else 0) := by
  unfold k0_pay3
  show shapeCast S1x8x128 v48 shapeCasts_S1x8x128_S1x8x128 y
      + (if v33 y = 1#1 then v26 else Ideal.ofBits .f32 0x00000000#32) = _
  rw [shapeCast_self, Ideal.ofBits_zero_f32]

/-- The re-lay of a loaded slab to its own shape changes nothing. -/
theorem pay13_apply (x : Vec Ideal S1x8x128 .f32) (y : S1x8x128.Idx) : k0_pay13 (F := Ideal) x y = x y := by
  unfold k0_pay13
  rw [shapeCast_self]

/-- The slab a first grid step stores into the count output is zero everywhere. -/
theorem pay4_apply (y : S1x8x128.Idx) : k0_pay4 (F := Ideal) y = 0 := Ideal.ofBits_zero_f32

/-- The slab a first grid step stores into the first-moment output is zero everywhere. -/
theorem pay5_apply (y : S1x8x128.Idx) : k0_pay5 (F := Ideal) y = 0 := Ideal.ofBits_zero_f32

/-- The slab a first grid step stores into the second-moment output is zero everywhere. -/
theorem pay6_apply (y : S1x8x128.Idx) : k0_pay6 (F := Ideal) y = 0 := Ideal.ofBits_zero_f32

end Cert.KernelIdeal.Hand

end
-- ==== Proof.KI.Values.lean ====
/-
  What the three per-core slabs hold after every step, in closed form.

  A step of the kernel body at grid point t (core t / 50, step t % 50 of that core's half) takes the point's mask block
  and class-map block, forms three totals over the block's 512 × 512 positions (the number of masked positions, the
  sum of the class map over them, the sum of its squares over them) and adds each into its slab at the one slab
  position whose flat number 128 · sublane + lane is the step's number; the first step of a half clears the slabs
  before it adds.  On the extended reals adding zero changes nothing, so at one slab position the running value is:
  zero until the position's own step, that step's total from then on.

  The module proves this in three layers: what one step leaves at one slab position, for any contents (the payloads
  read at an index); the same at a grid point of the pipeline; and the accumulation over a half, by induction on the
  position, through an arithmetic lemma about one value per step added at the step's own position.
-/
import proofs.«409015_j49709951484027_3_alg».proof.Proof.KI.Data
import proofs.«409015_j49709951484027_3_alg».proof.Proof.KI.Payload
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

/-! ## One value per step, added at the step's own position -/

/-- One value per step added at the step's own position, starting afresh at each multiple of fifty: after step n the
    position j of the running slab holds step j's value for every j up to n % 50 and zero beyond. -/
theorem accum_at {N : ℕ} (val : ℕ → EReal) (j : ℕ) (slab : (n : ℕ) → n < N → EReal)
    (hfirst : ∀ n (hn : n < N), n % 50 = 0 → slab n hn = if j = n % 50 then val n else 0)
    (hlater : ∀ n (hn : n < N), n % 50 ≠ 0 →
      slab n hn = slab (n - 1) (Nat.lt_of_le_of_lt (Nat.sub_le _ _) hn) + if j = n % 50 then val n else 0) :
    ∀ n (hn : n < N), slab n hn = if j ≤ n % 50 then val (50 * (n / 50) + j) else 0 := by
  intro n
  induction n with
  | zero =>
    intro hn
    rw [hfirst 0 hn rfl]
    by_cases hj : j = 0
    · subst hj; simp
    · rw [if_neg (by omega), if_neg (by omega)]
  | succ n ih =>
    intro hn
    by_cases h0 : (n + 1) % 50 = 0
    · rw [hfirst (n + 1) hn h0]
      by_cases hj : j = (n + 1) % 50
      · rw [if_pos hj, if_pos (by omega)]
        exact congrArg val (by omega)
      · rw [if_neg hj, if_neg (by omega)]
    · rw [hlater (n + 1) hn h0]
      have ihn := ih (Nat.lt_of_succ_lt hn)
      show slab n _ + _ = _
      rw [ihn]
      rcases Nat.lt_trichotomy j ((n + 1) % 50) with hlt | heq | hgt
      · rw [if_pos (by omega), if_neg (by omega), if_pos (by omega), add_zero]
        exact congrArg val (by omega)
      · rw [if_neg (by omega), if_pos heq, if_pos (by omega), zero_add]
        exact congrArg val (by omega)
      · rw [if_neg (by omega), if_neg (by omega), if_neg (by omega), add_zero]

/-! ## What one step leaves at one slab position -/

section Step

variable (c : Dev nD) (i : grid0.Coords)
  (arg2 : Memref sig .tc .smem S100 .i32) (harg2 : arg2.IsWhole) (arg3 : Memref sig .tc .smem S100 .i32) (harg3 : arg3.IsWhole)
  (arg4 : Memref sig .tc .vmem S1x512x512 .f32) (harg4 : arg4.IsWhole) (arg5 : Memref sig .tc .vmem S1x512x512 .i32) (harg5 : arg5.IsWhole)
  (arg6 : Memref sig .tc .vmem S1x8x128 .f32) (harg6 : arg6.IsWhole) (arg7 : Memref sig .tc .vmem S1x8x128 .f32) (harg7 : arg7.IsWhole)
  (arg8 : Memref sig .tc .vmem S1x8x128 .f32) (harg8 : arg8.IsWhole)

/-- The zero bit pattern is the real zero. -/
theorem zero_bits : (Scalar.ofBits .f32 0x00000000#32 : Ideal .f32) = (0 : EReal) := Ideal.ofBits_zero_f32

/-- A first step leaves at a position of the slab of counts the step's count if the position is the step's, else zero. -/
theorem first6_at (hc : atFirst i) (x4 : Vec Ideal S1x512x512 .f32) (x5 : Vec Ideal S1x512x512 .i32) (s : Fin 8) (l : Fin 128) :
    leftFirst6 c i arg2 harg2 arg3 harg3 arg4 harg4 arg5 harg5 arg6 harg6 arg7 harg7 arg8 harg8 hc x4 x5 (ix3 (0 : Fin 1) s l)
      = if s.val * 128 + l.val = (i 1).val then cntOf x5 else 0 := by
  rw [leftFirst6_eq, pay1_apply, pay13_apply, pay4_apply, pay14_apply, zero_bits, zero_add]
  exact ite_pay12 i s l _ _

theorem first7_at (hc : atFirst i) (x4 : Vec Ideal S1x512x512 .f32) (x5 : Vec Ideal S1x512x512 .i32) (s : Fin 8) (l : Fin 128) :
    leftFirst7 c i arg2 harg2 arg3 harg3 arg4 harg4 arg5 harg5 arg6 harg6 arg7 harg7 arg8 harg8 hc x4 x5 (ix3 (0 : Fin 1) s l)
      = if s.val * 128 + l.val = (i 1).val then s1Of x4 x5 else 0 := by
  rw [leftFirst7_eq, pay2_apply, pay5_apply, pay10_eq, zero_add]
  exact ite_pay12 i s l _ _

theorem first8_at (hc : atFirst i) (x4 : Vec Ideal S1x512x512 .f32) (x5 : Vec Ideal S1x512x512 .i32) (s : Fin 8) (l : Fin 128) :
    leftFirst8 c i arg2 harg2 arg3 harg3 arg4 harg4 arg5 harg5 arg6 harg6 arg7 harg7 arg8 harg8 hc x4 x5 (ix3 (0 : Fin 1) s l)
      = if s.val * 128 + l.val = (i 1).val then s2Of x4 x5 else 0 := by
  rw [leftFirst8_eq, pay3_apply, pay6_apply, pay11_eq, zero_add]
  exact ite_pay12 i s l _ _

/-- A later step adds, at a position of the slab of counts, the step's count if the position is the step's. -/
theorem later6_at (hc : ¬ atFirst i) (x4 : Vec Ideal S1x512x512 .f32) (x5 : Vec Ideal S1x512x512 .i32)
    (xo6 xo7 xo8 : Vec Ideal S1x8x128 .f32) (s : Fin 8) (l : Fin 128) :
    leftLater6 c i arg2 harg2 arg3 harg3 arg4 harg4 arg5 harg5 arg6 harg6 arg7 harg7 arg8 harg8 hc x4 x5 xo6 xo7 xo8 (ix3 (0 : Fin 1) s l)
      = xo6 (ix3 (0 : Fin 1) s l) + if s.val * 128 + l.val = (i 1).val then cntOf x5 else 0 := by
  rw [leftLater6_eq, pay1_apply, pay13_apply, pay14_apply, zero_bits]
  exact congrArg (xo6 (ix3 (0 : Fin 1) s l) + ·) (ite_pay12 i s l _ _)

theorem later7_at (hc : ¬ atFirst i) (x4 : Vec Ideal S1x512x512 .f32) (x5 : Vec Ideal S1x512x512 .i32)
    (xo6 xo7 xo8 : Vec Ideal S1x8x128 .f32) (s : Fin 8) (l : Fin 128) :
    leftLater7 c i arg2 harg2 arg3 harg3 arg4 harg4 arg5 harg5 arg6 harg6 arg7 harg7 arg8 harg8 hc x4 x5 xo6 xo7 xo8 (ix3 (0 : Fin 1) s l)
      = xo7 (ix3 (0 : Fin 1) s l) + if s.val * 128 + l.val = (i 1).val then s1Of x4 x5 else 0 := by
  rw [leftLater7_eq, pay2_apply, pay10_eq]
  exact congrArg (xo7 (ix3 (0 : Fin 1) s l) + ·) (ite_pay12 i s l _ _)

theorem later8_at (hc : ¬ atFirst i) (x4 : Vec Ideal S1x512x512 .f32) (x5 : Vec Ideal S1x512x512 .i32)
    (xo6 xo7 xo8 : Vec Ideal S1x8x128 .f32) (s : Fin 8) (l : Fin 128) :
    leftLater8 c i arg2 harg2 arg3 harg3 arg4 harg4 arg5 harg5 arg6 harg6 arg7 harg7 arg8 harg8 hc x4 x5 xo6 xo7 xo8 (ix3 (0 : Fin 1) s l)
      = xo8 (ix3 (0 : Fin 1) s l) + if s.val * 128 + l.val = (i 1).val then s2Of x4 x5 else 0 := by
  rw [leftLater8_eq, pay3_apply, pay11_eq]
  exact congrArg (xo8 (ix3 (0 : Fin 1) s l) + ·) (ite_pay12 i s l _ _)

end Step

/-! ## The slabs after every step -/

section Values

variable (m : (ℓ : Loc nD τ sig) → Buf (Elt Ideal) ℓ) (h : InRange m) (c : Dev nD)

/-- The grid has a hundred points. -/
theorem nPoints : (pipeAt m h).N = 100 := N_0

/-- The inner coordinate of point t is t % 50. -/
theorem inner_coord (t : Fin (pipeAt m h).N) : ((grid0.coords t) 1).val = t.val % 50 :=
  (by decide +kernel : ∀ t : Fin grid0.N, ((grid0.coords t) 1).val = t.val % 50) t

/-- Step j of the half that holds position n is a grid point. -/
theorem stepPt_lt {n : ℕ} (hn : n < (pipeAt m h).N) {j : ℕ} (hj : j ≤ n % 50) : 50 * (n / 50) + j < (pipeAt m h).N := by
  have := nPoints m h; omega

/-- The count, the sum and the sum of squares of the blocks of a grid point given by its number (zero past the grid). -/
def cntAt (t : ℕ) : EReal := if ht : t < (pipeAt m h).N then cntOf (blockAt m h c 1 ⟨t, ht⟩) else 0
def s1At (t : ℕ) : EReal := if ht : t < (pipeAt m h).N then s1Of (blockAt m h c 0 ⟨t, ht⟩) (blockAt m h c 1 ⟨t, ht⟩) else 0
def s2At (t : ℕ) : EReal := if ht : t < (pipeAt m h).N then s2Of (blockAt m h c 0 ⟨t, ht⟩) (blockAt m h c 1 ⟨t, ht⟩) else 0

theorem cntAt_of_lt {t : ℕ} (ht : t < (pipeAt m h).N) : cntAt m h c t = cntOf (blockAt m h c 1 ⟨t, ht⟩) := dif_pos ht
theorem s1At_of_lt {t : ℕ} (ht : t < (pipeAt m h).N) :
    s1At m h c t = s1Of (blockAt m h c 0 ⟨t, ht⟩) (blockAt m h c 1 ⟨t, ht⟩) := dif_pos ht
theorem s2At_of_lt {t : ℕ} (ht : t < (pipeAt m h).N) :
    s2At m h c t = s2Of (blockAt m h c 0 ⟨t, ht⟩) (blockAt m h c 1 ⟨t, ht⟩) := dif_pos ht

/-! ## One step at a grid point -/

/-- A first step of a half leaves, at a position of the slab of counts, the point's value if the position is the step's, else zero. -/
theorem firstAt_counts (t : Fin (pipeAt m h).N) (hc : atFirst (grid0.coords t)) (s : Fin 8) (l : Fin 128) :
    (firstAt m h c t hc).1 (ix3 (0 : Fin 1) s l) = if s.val * 128 + l.val = t.val % 50 then cntOf (blockAt m h c 1 t) else 0 := by
  have e := first6_at c (grid0.coords t) tab0 (Memref.isWhole_whole _) tab1 (Memref.isWhole_whole _) (stg0 m h t) (stg0_whole m h t)
    (stg1 m h t) (stg1_whole m h t) (stg2 m h t) (stg2_whole m h t) (stg3 m h t) (stg3_whole m h t) (stg4 m h t) (stg4_whole m h t) hc
    (blockAt m h c 0 t) (blockAt m h c 1 t) s l
  rw [inner_coord m h t] at e
  dsimp only [firstAt]
  exact e

/-- A later step adds, at a position of the slab of counts, the point's value if the position is the step's. -/
theorem laterAt_counts (t : Fin (pipeAt m h).N) (hc : ¬ atFirst (grid0.coords t)) (prev : Slabs Ideal) (s : Fin 8) (l : Fin 128) :
    (laterAt m h c t hc prev).1 (ix3 (0 : Fin 1) s l)
      = prev.1 (ix3 (0 : Fin 1) s l) + if s.val * 128 + l.val = t.val % 50 then cntOf (blockAt m h c 1 t) else 0 := by
  have e := later6_at c (grid0.coords t) tab0 (Memref.isWhole_whole _) tab1 (Memref.isWhole_whole _) (stg0 m h t) (stg0_whole m h t)
    (stg1 m h t) (stg1_whole m h t) (stg2 m h t) (stg2_whole m h t) (stg3 m h t) (stg3_whole m h t) (stg4 m h t) (stg4_whole m h t) hc
    (blockAt m h c 0 t) (blockAt m h c 1 t) prev.1 prev.2.1 prev.2.2 s l
  rw [inner_coord m h t] at e
  dsimp only [laterAt]
  exact e

/-- A first step of a half leaves, at a position of the slab of sums, the point's value if the position is the step's, else zero. -/
theorem firstAt_sums (t : Fin (pipeAt m h).N) (hc : atFirst (grid0.coords t)) (s : Fin 8) (l : Fin 128) :
    (firstAt m h c t hc).2.1 (ix3 (0 : Fin 1) s l) = if s.val * 128 + l.val = t.val % 50 then s1Of (blockAt m h c 0 t) (blockAt m h c 1 t) else 0 := by
  have e := first7_at c (grid0.coords t) tab0 (Memref.isWhole_whole _) tab1 (Memref.isWhole_whole _) (stg0 m h t) (stg0_whole m h t)
    (stg1 m h t) (stg1_whole m h t) (stg2 m h t) (stg2_whole m h t) (stg3 m h t) (stg3_whole m h t) (stg4 m h t) (stg4_whole m h t) hc
    (blockAt m h c 0 t) (blockAt m h c 1 t) s l
  rw [inner_coord m h t] at e
  dsimp only [firstAt]
  exact e

/-- A later step adds, at a position of the slab of sums, the point's value if the position is the step's. -/
theorem laterAt_sums (t : Fin (pipeAt m h).N) (hc : ¬ atFirst (grid0.coords t)) (prev : Slabs Ideal) (s : Fin 8) (l : Fin 128) :
    (laterAt m h c t hc prev).2.1 (ix3 (0 : Fin 1) s l)
      = prev.2.1 (ix3 (0 : Fin 1) s l) + if s.val * 128 + l.val = t.val % 50 then s1Of (blockAt m h c 0 t) (blockAt m h c 1 t) else 0 := by
  have e := later7_at c (grid0.coords t) tab0 (Memref.isWhole_whole _) tab1 (Memref.isWhole_whole _) (stg0 m h t) (stg0_whole m h t)
    (stg1 m h t) (stg1_whole m h t) (stg2 m h t) (stg2_whole m h t) (stg3 m h t) (stg3_whole m h t) (stg4 m h t) (stg4_whole m h t) hc
    (blockAt m h c 0 t) (blockAt m h c 1 t) prev.1 prev.2.1 prev.2.2 s l
  rw [inner_coord m h t] at e
  dsimp only [laterAt]
  exact e

/-- A first step of a half leaves, at a position of the slab of sums of squares, the point's value if the position is the step's, else zero. -/
theorem firstAt_squares (t : Fin (pipeAt m h).N) (hc : atFirst (grid0.coords t)) (s : Fin 8) (l : Fin 128) :
    (firstAt m h c t hc).2.2 (ix3 (0 : Fin 1) s l) = if s.val * 128 + l.val = t.val % 50 then s2Of (blockAt m h c 0 t) (blockAt m h c 1 t) else 0 := by
  have e := first8_at c (grid0.coords t) tab0 (Memref.isWhole_whole _) tab1 (Memref.isWhole_whole _) (stg0 m h t) (stg0_whole m h t)
    (stg1 m h t) (stg1_whole m h t) (stg2 m h t) (stg2_whole m h t) (stg3 m h t) (stg3_whole m h t) (stg4 m h t) (stg4_whole m h t) hc
    (blockAt m h c 0 t) (blockAt m h c 1 t) s l
  rw [inner_coord m h t] at e
  dsimp only [firstAt]
  exact e

/-- A later step adds, at a position of the slab of sums of squares, the point's value if the position is the step's. -/
theorem laterAt_squares (t : Fin (pipeAt m h).N) (hc : ¬ atFirst (grid0.coords t)) (prev : Slabs Ideal) (s : Fin 8) (l : Fin 128) :
    (laterAt m h c t hc prev).2.2 (ix3 (0 : Fin 1) s l)
      = prev.2.2 (ix3 (0 : Fin 1) s l) + if s.val * 128 + l.val = t.val % 50 then s2Of (blockAt m h c 0 t) (blockAt m h c 1 t) else 0 := by
  have e := later8_at c (grid0.coords t) tab0 (Memref.isWhole_whole _) tab1 (Memref.isWhole_whole _) (stg0 m h t) (stg0_whole m h t)
    (stg1 m h t) (stg1_whole m h t) (stg2 m h t) (stg2_whole m h t) (stg3 m h t) (stg3_whole m h t) (stg4 m h t) (stg4_whole m h t) hc
    (blockAt m h c 0 t) (blockAt m h c 1 t) prev.1 prev.2.1 prev.2.2 s l
  rw [inner_coord m h t] at e
  dsimp only [laterAt]
  exact e

/-! ## The accumulation over a half -/

/-- The slab of counts after position n, at the position with flat number 128 s + l, by the points' numbers. -/
theorem counts_num (n : ℕ) (hn : n < (pipeAt m h).N) (s : Fin 8) (l : Fin 128) :
    (slabsAt m h c n hn).1 (ix3 (0 : Fin 1) s l)
      = if s.val * 128 + l.val ≤ n % 50 then cntAt m h c (50 * (n / 50) + (s.val * 128 + l.val)) else 0 := by
  refine accum_at (cntAt m h c) (s.val * 128 + l.val) (fun n hn => (slabsAt m h c n hn).1 (ix3 (0 : Fin 1) s l)) ?_ ?_ n hn
  · intro n hn h0
    have e := slabsAt_first m h c ⟨n, hn⟩ h0
    have e' := firstAt_counts m h c ⟨n, hn⟩ ((atFirst_iff ⟨n, hn⟩).mpr h0) s l
    rw [← e] at e'
    rw [cntAt_of_lt m h c hn]
    exact e'
  · intro n hn h0
    have e := slabsAt_later m h c ⟨n, hn⟩ h0
    have e' := laterAt_counts m h c ⟨n, hn⟩ (fun hh => h0 ((atFirst_iff ⟨n, hn⟩).mp hh))
      (slabsAt m h c (n - 1) (Nat.lt_of_le_of_lt (Nat.sub_le _ _) hn)) s l
    rw [← e] at e'
    rw [cntAt_of_lt m h c hn]
    exact e'

/-- The slab of sums after position n, at the position with flat number 128 s + l, by the points' numbers. -/
theorem sums_num (n : ℕ) (hn : n < (pipeAt m h).N) (s : Fin 8) (l : Fin 128) :
    (slabsAt m h c n hn).2.1 (ix3 (0 : Fin 1) s l)
      = if s.val * 128 + l.val ≤ n % 50 then s1At m h c (50 * (n / 50) + (s.val * 128 + l.val)) else 0 := by
  refine accum_at (s1At m h c) (s.val * 128 + l.val) (fun n hn => (slabsAt m h c n hn).2.1 (ix3 (0 : Fin 1) s l)) ?_ ?_ n hn
  · intro n hn h0
    have e := slabsAt_first m h c ⟨n, hn⟩ h0
    have e' := firstAt_sums m h c ⟨n, hn⟩ ((atFirst_iff ⟨n, hn⟩).mpr h0) s l
    rw [← e] at e'
    rw [s1At_of_lt m h c hn]
    exact e'
  · intro n hn h0
    have e := slabsAt_later m h c ⟨n, hn⟩ h0
    have e' := laterAt_sums m h c ⟨n, hn⟩ (fun hh => h0 ((atFirst_iff ⟨n, hn⟩).mp hh))
      (slabsAt m h c (n - 1) (Nat.lt_of_le_of_lt (Nat.sub_le _ _) hn)) s l
    rw [← e] at e'
    rw [s1At_of_lt m h c hn]
    exact e'

/-- The slab of sums of squares after position n, at the position with flat number 128 s + l, by the points' numbers. -/
theorem squares_num (n : ℕ) (hn : n < (pipeAt m h).N) (s : Fin 8) (l : Fin 128) :
    (slabsAt m h c n hn).2.2 (ix3 (0 : Fin 1) s l)
      = if s.val * 128 + l.val ≤ n % 50 then s2At m h c (50 * (n / 50) + (s.val * 128 + l.val)) else 0 := by
  refine accum_at (s2At m h c) (s.val * 128 + l.val) (fun n hn => (slabsAt m h c n hn).2.2 (ix3 (0 : Fin 1) s l)) ?_ ?_ n hn
  · intro n hn h0
    have e := slabsAt_first m h c ⟨n, hn⟩ h0
    have e' := firstAt_squares m h c ⟨n, hn⟩ ((atFirst_iff ⟨n, hn⟩).mpr h0) s l
    rw [← e] at e'
    rw [s2At_of_lt m h c hn]
    exact e'
  · intro n hn h0
    have e := slabsAt_later m h c ⟨n, hn⟩ h0
    have e' := laterAt_squares m h c ⟨n, hn⟩ (fun hh => h0 ((atFirst_iff ⟨n, hn⟩).mp hh))
      (slabsAt m h c (n - 1) (Nat.lt_of_le_of_lt (Nat.sub_le _ _) hn)) s l
    rw [← e] at e'
    rw [s2At_of_lt m h c hn]
    exact e'

/-! ## The slabs after every step -/

/-- After step n of its half, position j = 128 s + l of the slab of counts holds step j's value for every j up to n % 50, and zero beyond. -/
theorem slab_counts (n : ℕ) (hn : n < (pipeAt m h).N) (s : Fin 8) (l : Fin 128) :
    (slabsAt m h c n hn).1 (ix3 (0 : Fin 1) s l)
      = if hle : s.val * 128 + l.val ≤ n % 50 then cntOf (blockAt m h c 1 ⟨50 * (n / 50) + (s.val * 128 + l.val), stepPt_lt m h hn hle⟩) else 0 := by
  rw [counts_num]
  by_cases hle : s.val * 128 + l.val ≤ n % 50
  · rw [if_pos hle, dif_pos hle, cntAt_of_lt m h c (stepPt_lt m h hn hle)]
  · rw [if_neg hle, dif_neg hle]

/-- After step n of its half, position j = 128 s + l of the slab of sums holds step j's value for every j up to n % 50, and zero beyond. -/
theorem slab_sums (n : ℕ) (hn : n < (pipeAt m h).N) (s : Fin 8) (l : Fin 128) :
    (slabsAt m h c n hn).2.1 (ix3 (0 : Fin 1) s l)
      = if hle : s.val * 128 + l.val ≤ n % 50 then s1Of (blockAt m h c 0 ⟨50 * (n / 50) + (s.val * 128 + l.val), stepPt_lt m h hn hle⟩) (blockAt m h c 1 ⟨50 * (n / 50) + (s.val * 128 + l.val), stepPt_lt m h hn hle⟩) else 0 := by
  rw [sums_num]
  by_cases hle : s.val * 128 + l.val ≤ n % 50
  · rw [if_pos hle, dif_pos hle, s1At_of_lt m h c (stepPt_lt m h hn hle)]
  · rw [if_neg hle, dif_neg hle]

/-- After step n of its half, position j = 128 s + l of the slab of sums of squares holds step j's value for every j up to n % 50, and zero beyond. -/
theorem slab_squares (n : ℕ) (hn : n < (pipeAt m h).N) (s : Fin 8) (l : Fin 128) :
    (slabsAt m h c n hn).2.2 (ix3 (0 : Fin 1) s l)
      = if hle : s.val * 128 + l.val ≤ n % 50 then s2Of (blockAt m h c 0 ⟨50 * (n / 50) + (s.val * 128 + l.val), stepPt_lt m h hn hle⟩) (blockAt m h c 1 ⟨50 * (n / 50) + (s.val * 128 + l.val), stepPt_lt m h hn hle⟩) else 0 := by
  rw [squares_num]
  by_cases hle : s.val * 128 + l.val ≤ n % 50
  · rw [if_pos hle, dif_pos hle, s2At_of_lt m h c (stepPt_lt m h hn hle)]
  · rw [if_neg hle, dif_neg hle]

end Values

end Cert.KernelIdeal.Hand

end
-- ==== Proof.KI.Final.lean ====
/-
  The region's results, read.

  The three output arrays of shape [2, 8, 128] are staged through slabs of shape [1, 8, 128] whose block index is the
  core coordinate alone.  A slab is written back exactly after the last step of a core's half of the grid, the two
  blocks written are disjoint and together cover the array: so block k of each final array is what the slab held
  after step 49 of half k.

  The class-map and mask blocks the body reads at a point are blocks of their arrays whose position along the first
  axis is a word of a table: the word at position 50 · core + step, which is the point's number.
-/
import proofs.«409015_j49709951484027_3_alg».proof.Proof.KI.Data
import Idealize.ShloMosaic.Lib.Pipeline.Value
import Idealize.ShloMosaic.Lib.ValueIdx
import Idealize.ShloMosaic.Lib.SortFacts

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-! ## The final slab arrays -/

section Slabs

variable (a : (pcfg0 (F := F)).Adm)

/-- The slabs' index maps over the hundred points: the core coordinate, then zeros. -/
theorem slab_index_val : ∀ t : Fin grid0.N, cc0_transform_2 (grid0.coords t) = ![t.val / 50, 0, 0]
    ∧ cc0_transform_3 (grid0.coords t) = ![t.val / 50, 0, 0] ∧ cc0_transform_4 (grid0.coords t) = ![t.val / 50, 0, 0] := by
  decide +kernel

variable {c : Dev nD} (D : Dat τ (Elt F) Unit ℕ (UR sig nD τ) ℕ (cfg0 a) c)

/-! ### Window 2 -/

/-- Window 2's block index at a point is the core coordinate on the first axis and zero on the others, whatever
    the tables hold. -/
theorem slab2_index (t : Fin (cfg0 a).N) : ((cfg0 a).win 2).index t = ![t.val / 50, 0, 0] :=
  (rfl : ((cfg0 a).win 2).index t = cc0_transform_2 (grid0.coords t)).trans (slab_index_val t).1

/-- An index of the array lies in the block of point `t` iff each coordinate is in the block's range on its axis. -/
theorem mem_blk2 (t : Fin (cfg0 a).N) (i : S2x8x128.Idx) :
    i ∈ (((cfg0 a).win 2).blk t).view.set ↔ ∀ ax : Fin 3, ((cfg0 a).win 2).index t ax * S1x8x128.size ax ≤ (i ax).val ∧ (i ax).val < ((cfg0 a).win 2).index t ax * S1x8x128.size ax + S1x8x128.size ax := by
  have e : (((cfg0 a).win 2).blk t).view.set = (((cfg0 a).win 2).rect t).set :=
    View.set_slice_whole main_v11_0 (((cfg0 a).win 2).rect t)
  exact (Finset.ext_iff.mp e i).trans Rect.mem_set_unit

/-- The two blocks written back (after the last step of each half) are disjoint: they differ in the first coordinate. -/
theorem slab2_disjoint (t t' : Fin (cfg0 a).N) (hf : ((cfg0 a).win 2).flush t = true) (hf' : ((cfg0 a).win 2).flush t' = true)
    (hne : t ≠ t') : Disjoint (((cfg0 a).win 2).blk t).view.set (((cfg0 a).win 2).blk t').view.set := by
  rw [Finset.disjoint_left]
  intro i hi hi'
  have b := (mem_blk2 a t i).mp hi 0
  have b' := (mem_blk2 a t' i).mp hi' 0
  rw [slab2_index] at b b'
  have q : t.val % 50 = 49 := (slab2_flush a t).mp hf
  have q' : t'.val % 50 = 49 := (slab2_flush a t').mp hf'
  have z : (![t.val / 50, 0, 0] : Fin 3 → ℕ) 0 = t.val / 50 := rfl
  have z' : (![t'.val / 50, 0, 0] : Fin 3 → ℕ) 0 = t'.val / 50 := rfl
  have s1 : S1x8x128.size (0 : Fin 3) = 1 := rfl
  rw [z, s1] at b
  rw [z', s1] at b'
  exact hne (Fin.ext (by omega))

/-- Block `k` of the final array is what the slab held after the last step of half `k`. -/
theorem slab2_final (k : Fin 2) (s : Fin 8) (l : Fin 128) (hk : 50 * k.val + 49 < (cfg0 a).N) :
    D.arrAt 2 (cfg0 a).N (ix3 k s l) = D.after 2 ⟨50 * k.val + 49, hk⟩ (ix3 (0 : Fin 1) s l) := by
  have hf : ((cfg0 a).win 2).flush ⟨50 * k.val + 49, hk⟩ = true :=
    (slab2_flush a _).mpr (by show (50 * k.val + 49) % 50 = 49; omega)
  have h := D.arrAt_emb_eq_flushed 2 (slab2_disjoint a) ⟨50 * k.val + 49, hk⟩ hf (ix3 (0 : Fin 1) s l)
  have he : (((cfg0 a).win 2).blk ⟨50 * k.val + 49, hk⟩).view.emb (ix3 (0 : Fin 1) s l) = ix3 k s l := by
    have e := slab2_index a ⟨50 * k.val + 49, hk⟩
    funext ax; apply Fin.ext
    match ax with
    | ⟨0, _⟩ =>
      show ((cfg0 a).win 2).index ⟨50 * k.val + 49, hk⟩ (0 : Fin 3) * 1 + 1 * 0 = k.val
      rw [e]; show (50 * k.val + 49) / 50 * 1 + 1 * 0 = k.val; omega
    | ⟨1, _⟩ =>
      show ((cfg0 a).win 2).index ⟨50 * k.val + 49, hk⟩ (1 : Fin 3) * 8 + 1 * s.val = s.val
      rw [e]; show 0 * 8 + 1 * s.val = s.val; omega
    | ⟨2, _⟩ =>
      show ((cfg0 a).win 2).index ⟨50 * k.val + 49, hk⟩ (2 : Fin 3) * 128 + 1 * l.val = l.val
      rw [e]; show 0 * 128 + 1 * l.val = l.val; omega
  rw [he] at h
  exact h.trans (cast_eq _ _)

/-! ### Window 3 -/

/-- Window 3's block index at a point is the core coordinate on the first axis and zero on the others, whatever
    the tables hold. -/
theorem slab3_index (t : Fin (cfg0 a).N) : ((cfg0 a).win 3).index t = ![t.val / 50, 0, 0] :=
  (rfl : ((cfg0 a).win 3).index t = cc0_transform_3 (grid0.coords t)).trans (slab_index_val t).2.1

/-- An index of the array lies in the block of point `t` iff each coordinate is in the block's range on its axis. -/
theorem mem_blk3 (t : Fin (cfg0 a).N) (i : S2x8x128.Idx) :
    i ∈ (((cfg0 a).win 3).blk t).view.set ↔ ∀ ax : Fin 3, ((cfg0 a).win 3).index t ax * S1x8x128.size ax ≤ (i ax).val ∧ (i ax).val < ((cfg0 a).win 3).index t ax * S1x8x128.size ax + S1x8x128.size ax := by
  have e : (((cfg0 a).win 3).blk t).view.set = (((cfg0 a).win 3).rect t).set :=
    View.set_slice_whole main_v11_1 (((cfg0 a).win 3).rect t)
  exact (Finset.ext_iff.mp e i).trans Rect.mem_set_unit

/-- The two blocks written back (after the last step of each half) are disjoint: they differ in the first coordinate. -/
theorem slab3_disjoint (t t' : Fin (cfg0 a).N) (hf : ((cfg0 a).win 3).flush t = true) (hf' : ((cfg0 a).win 3).flush t' = true)
    (hne : t ≠ t') : Disjoint (((cfg0 a).win 3).blk t).view.set (((cfg0 a).win 3).blk t').view.set := by
  rw [Finset.disjoint_left]
  intro i hi hi'
  have b := (mem_blk3 a t i).mp hi 0
  have b' := (mem_blk3 a t' i).mp hi' 0
  rw [slab3_index] at b b'
  have q : t.val % 50 = 49 := (slab3_flush a t).mp hf
  have q' : t'.val % 50 = 49 := (slab3_flush a t').mp hf'
  have z : (![t.val / 50, 0, 0] : Fin 3 → ℕ) 0 = t.val / 50 := rfl
  have z' : (![t'.val / 50, 0, 0] : Fin 3 → ℕ) 0 = t'.val / 50 := rfl
  have s1 : S1x8x128.size (0 : Fin 3) = 1 := rfl
  rw [z, s1] at b
  rw [z', s1] at b'
  exact hne (Fin.ext (by omega))

/-- Block `k` of the final array is what the slab held after the last step of half `k`. -/
theorem slab3_final (k : Fin 2) (s : Fin 8) (l : Fin 128) (hk : 50 * k.val + 49 < (cfg0 a).N) :
    D.arrAt 3 (cfg0 a).N (ix3 k s l) = D.after 3 ⟨50 * k.val + 49, hk⟩ (ix3 (0 : Fin 1) s l) := by
  have hf : ((cfg0 a).win 3).flush ⟨50 * k.val + 49, hk⟩ = true :=
    (slab3_flush a _).mpr (by show (50 * k.val + 49) % 50 = 49; omega)
  have h := D.arrAt_emb_eq_flushed 3 (slab3_disjoint a) ⟨50 * k.val + 49, hk⟩ hf (ix3 (0 : Fin 1) s l)
  have he : (((cfg0 a).win 3).blk ⟨50 * k.val + 49, hk⟩).view.emb (ix3 (0 : Fin 1) s l) = ix3 k s l := by
    have e := slab3_index a ⟨50 * k.val + 49, hk⟩
    funext ax; apply Fin.ext
    match ax with
    | ⟨0, _⟩ =>
      show ((cfg0 a).win 3).index ⟨50 * k.val + 49, hk⟩ (0 : Fin 3) * 1 + 1 * 0 = k.val
      rw [e]; show (50 * k.val + 49) / 50 * 1 + 1 * 0 = k.val; omega
    | ⟨1, _⟩ =>
      show ((cfg0 a).win 3).index ⟨50 * k.val + 49, hk⟩ (1 : Fin 3) * 8 + 1 * s.val = s.val
      rw [e]; show 0 * 8 + 1 * s.val = s.val; omega
    | ⟨2, _⟩ =>
      show ((cfg0 a).win 3).index ⟨50 * k.val + 49, hk⟩ (2 : Fin 3) * 128 + 1 * l.val = l.val
      rw [e]; show 0 * 128 + 1 * l.val = l.val; omega
  rw [he] at h
  exact h.trans (cast_eq _ _)

/-! ### Window 4 -/

/-- Window 4's block index at a point is the core coordinate on the first axis and zero on the others, whatever
    the tables hold. -/
theorem slab4_index (t : Fin (cfg0 a).N) : ((cfg0 a).win 4).index t = ![t.val / 50, 0, 0] :=
  (rfl : ((cfg0 a).win 4).index t = cc0_transform_4 (grid0.coords t)).trans (slab_index_val t).2.2

/-- An index of the array lies in the block of point `t` iff each coordinate is in the block's range on its axis. -/
theorem mem_blk4 (t : Fin (cfg0 a).N) (i : S2x8x128.Idx) :
    i ∈ (((cfg0 a).win 4).blk t).view.set ↔ ∀ ax : Fin 3, ((cfg0 a).win 4).index t ax * S1x8x128.size ax ≤ (i ax).val ∧ (i ax).val < ((cfg0 a).win 4).index t ax * S1x8x128.size ax + S1x8x128.size ax := by
  have e : (((cfg0 a).win 4).blk t).view.set = (((cfg0 a).win 4).rect t).set :=
    View.set_slice_whole main_v11_2 (((cfg0 a).win 4).rect t)
  exact (Finset.ext_iff.mp e i).trans Rect.mem_set_unit

/-- The two blocks written back (after the last step of each half) are disjoint: they differ in the first coordinate. -/
theorem slab4_disjoint (t t' : Fin (cfg0 a).N) (hf : ((cfg0 a).win 4).flush t = true) (hf' : ((cfg0 a).win 4).flush t' = true)
    (hne : t ≠ t') : Disjoint (((cfg0 a).win 4).blk t).view.set (((cfg0 a).win 4).blk t').view.set := by
  rw [Finset.disjoint_left]
  intro i hi hi'
  have b := (mem_blk4 a t i).mp hi 0
  have b' := (mem_blk4 a t' i).mp hi' 0
  rw [slab4_index] at b b'
  have q : t.val % 50 = 49 := (slab4_flush a t).mp hf
  have q' : t'.val % 50 = 49 := (slab4_flush a t').mp hf'
  have z : (![t.val / 50, 0, 0] : Fin 3 → ℕ) 0 = t.val / 50 := rfl
  have z' : (![t'.val / 50, 0, 0] : Fin 3 → ℕ) 0 = t'.val / 50 := rfl
  have s1 : S1x8x128.size (0 : Fin 3) = 1 := rfl
  rw [z, s1] at b
  rw [z', s1] at b'
  exact hne (Fin.ext (by omega))

/-- Block `k` of the final array is what the slab held after the last step of half `k`. -/
theorem slab4_final (k : Fin 2) (s : Fin 8) (l : Fin 128) (hk : 50 * k.val + 49 < (cfg0 a).N) :
    D.arrAt 4 (cfg0 a).N (ix3 k s l) = D.after 4 ⟨50 * k.val + 49, hk⟩ (ix3 (0 : Fin 1) s l) := by
  have hf : ((cfg0 a).win 4).flush ⟨50 * k.val + 49, hk⟩ = true :=
    (slab4_flush a _).mpr (by show (50 * k.val + 49) % 50 = 49; omega)
  have h := D.arrAt_emb_eq_flushed 4 (slab4_disjoint a) ⟨50 * k.val + 49, hk⟩ hf (ix3 (0 : Fin 1) s l)
  have he : (((cfg0 a).win 4).blk ⟨50 * k.val + 49, hk⟩).view.emb (ix3 (0 : Fin 1) s l) = ix3 k s l := by
    have e := slab4_index a ⟨50 * k.val + 49, hk⟩
    funext ax; apply Fin.ext
    match ax with
    | ⟨0, _⟩ =>
      show ((cfg0 a).win 4).index ⟨50 * k.val + 49, hk⟩ (0 : Fin 3) * 1 + 1 * 0 = k.val
      rw [e]; show (50 * k.val + 49) / 50 * 1 + 1 * 0 = k.val; omega
    | ⟨1, _⟩ =>
      show ((cfg0 a).win 4).index ⟨50 * k.val + 49, hk⟩ (1 : Fin 3) * 8 + 1 * s.val = s.val
      rw [e]; show 0 * 8 + 1 * s.val = s.val; omega
    | ⟨2, _⟩ =>
      show ((cfg0 a).win 4).index ⟨50 * k.val + 49, hk⟩ (2 : Fin 3) * 128 + 1 * l.val = l.val
      rw [e]; show 0 * 128 + 1 * l.val = l.val; omega
  rw [he] at h
  exact h.trans (cast_eq _ _)

end Slabs

/-! ## The input blocks, read through the tables -/

section Inputs

/-- Over the hundred points: position 50 · core + step is the point's number. -/
theorem point_number : ∀ t : Fin grid0.N, 50 * (grid0.coords t 0).val + (grid0.coords t 1).val = t.val := by decide +kernel

/-- A point's number is below one hundred. -/
theorem point_lt (t : Fin grid0.N) : t.val < 100 := lt_of_lt_of_eq t.isLt N_0

section AtContents

variable (pf : pre0.Contents (Elt F))

/-! ### Window 0 -/

/-- The word an index map reads of table 0 at a point is the table's word at the point's number. -/
theorem word0_eq (t : Fin grid0.N) :
    pf.at 0 (Rect.unit (s := S100) (k0_off1 (grid0.coords t)) S1.size (Facts₀.k0_off1_inb (grid0.coords t))) Facts₀.numel1_S1
      = pf 0 (Shape.Idx.ofFin ⟨t.val, point_lt t⟩) := by
  refine congrArg (pf 0) ?_
  funext ax; apply Fin.ext
  match ax with
  | ⟨0, _⟩ =>
    show k0_off1 (grid0.coords t) (0 : Fin 1) + 1 * 0 = t.val
    rw [k0_off1_eq]
    show 50 * (grid0.coords t 0).val + (grid0.coords t 1).val + 1 * 0 = t.val
    have := point_number t; omega

/-- Window 0's index map at a point: that word, then zeros. -/
theorem transform0_eq (t : Fin grid0.N) :
    cc0_transform_0 Facts₀.k0_off1_inb Facts₀.numel1_S1 pf (grid0.coords t) = ![(pf 0 (Shape.Idx.ofFin ⟨t.val, point_lt t⟩)).toNat, 0, 0] :=
  congrArg (fun w : BitVec 32 => (![w.toNat, 0, 0] : Fin 3 → ℕ)) (word0_eq pf t)

/-- Where every block lies inside its array the word is below 80. -/
theorem word0_lt (hok : ok0 pf) (t : Fin grid0.N) : (pf 0 (Shape.Idx.ofFin ⟨t.val, point_lt t⟩)).toNat < 80 := by
  obtain ⟨hb, -⟩ := hok.1 (grid0.coords t)
  have b := hb 0
  rw [transform0_eq pf t] at b
  have b' : ((pf 0 (Shape.Idx.ofFin ⟨t.val, point_lt t⟩)).toNat + 1) * 1 ≤ 80 := b
  omega

/-! ### Window 1 -/

/-- The word an index map reads of table 1 at a point is the table's word at the point's number. -/
theorem word1_eq (t : Fin grid0.N) :
    pf.at 1 (Rect.unit (s := S100) (k0_off1 (grid0.coords t)) S1.size (Facts₀.k0_off1_inb (grid0.coords t))) Facts₀.numel1_S1
      = pf 1 (Shape.Idx.ofFin ⟨t.val, point_lt t⟩) := by
  refine congrArg (pf 1) ?_
  funext ax; apply Fin.ext
  match ax with
  | ⟨0, _⟩ =>
    show k0_off1 (grid0.coords t) (0 : Fin 1) + 1 * 0 = t.val
    rw [k0_off1_eq]
    show 50 * (grid0.coords t 0).val + (grid0.coords t 1).val + 1 * 0 = t.val
    have := point_number t; omega

/-- Window 1's index map at a point: that word, then zeros. -/
theorem transform1_eq (t : Fin grid0.N) :
    cc0_transform_1 Facts₀.k0_off1_inb Facts₀.numel1_S1 pf (grid0.coords t) = ![(pf 1 (Shape.Idx.ofFin ⟨t.val, point_lt t⟩)).toNat, 0, 0] :=
  congrArg (fun w : BitVec 32 => (![w.toNat, 0, 0] : Fin 3 → ℕ)) (word1_eq pf t)

/-- Where every block lies inside its array the word is below 100. -/
theorem word1_lt (hok : ok0 pf) (t : Fin grid0.N) : (pf 1 (Shape.Idx.ofFin ⟨t.val, point_lt t⟩)).toNat < 100 := by
  obtain ⟨hb, -⟩ := hok.2 (grid0.coords t)
  have b := hb 0
  rw [transform1_eq pf t] at b
  have b' : ((pf 1 (Shape.Idx.ofFin ⟨t.val, point_lt t⟩)).toNat + 1) * 1 ≤ 100 := b
  omega

end AtContents

section AtAdmissible

variable (a : (pcfg0 (F := F)).Adm) (pf : pre0.Contents (Elt F))

/-- Window 0's block index at a point, at admissible tables `a` whose contents are `pf`. -/
theorem in0_index (hpf : a.1 = pf) (t : Fin (cfg0 a).N) :
    ((cfg0 a).win 0).index t = ![(pf 0 (Shape.Idx.ofFin ⟨t.val, point_lt t⟩)).toNat, 0, 0] := by
  subst hpf
  exact (rfl : ((cfg0 a).win 0).index t = cc0_transform_0 Facts₀.k0_off1_inb Facts₀.numel1_S1 a.1 (grid0.coords t)).trans (transform0_eq a.1 t)

/-- Window 0's block at a point, read off contents `A` of its array: `A` at the block the table's word names. -/
theorem in0_read (hpf : a.1 = pf) {c : Dev nD} (A : Buf (Elt F) ((c : Thread nD τ).loc (Pipeline.arrRef spec0 0))) (t : Fin (cfg0 a).N) (r q : Fin 512)
    (hlt : (pf 0 (Shape.Idx.ofFin ⟨t.val, point_lt t⟩)).toNat < 80) :
    (((cfg0 a).win 0).blk t).view.read (Elt F) A (ix3 (0 : Fin 1) r q)
      = A (ix3 (⟨(pf 0 (Shape.Idx.ofFin ⟨t.val, point_lt t⟩)).toNat, hlt⟩ : Fin 80) r q) := by
  show A ((((cfg0 a).win 0).blk t).view.emb (ix3 (0 : Fin 1) r q)) = A _
  refine congrArg A ?_
  have e := in0_index a pf hpf t
  funext ax; apply Fin.ext
  match ax with
  | ⟨0, _⟩ =>
    show ((cfg0 a).win 0).index t (0 : Fin 3) * 1 + 1 * 0 = (pf 0 (Shape.Idx.ofFin ⟨t.val, point_lt t⟩)).toNat
    rw [e]; show (pf 0 (Shape.Idx.ofFin ⟨t.val, point_lt t⟩)).toNat * 1 + 1 * 0 = _; omega
  | ⟨1, _⟩ =>
    show ((cfg0 a).win 0).index t (1 : Fin 3) * 512 + 1 * r.val = r.val
    rw [e]; show 0 * 512 + 1 * r.val = r.val; omega
  | ⟨2, _⟩ =>
    show ((cfg0 a).win 0).index t (2 : Fin 3) * 512 + 1 * q.val = q.val
    rw [e]; show 0 * 512 + 1 * q.val = q.val; omega

/-- Window 1's block index at a point, at admissible tables `a` whose contents are `pf`. -/
theorem in1_index (hpf : a.1 = pf) (t : Fin (cfg0 a).N) :
    ((cfg0 a).win 1).index t = ![(pf 1 (Shape.Idx.ofFin ⟨t.val, point_lt t⟩)).toNat, 0, 0] := by
  subst hpf
  exact (rfl : ((cfg0 a).win 1).index t = cc0_transform_1 Facts₀.k0_off1_inb Facts₀.numel1_S1 a.1 (grid0.coords t)).trans (transform1_eq a.1 t)

/-- Window 1's block at a point, read off contents `A` of its array: `A` at the block the table's word names. -/
theorem in1_read (hpf : a.1 = pf) {c : Dev nD} (A : Buf (Elt F) ((c : Thread nD τ).loc (Pipeline.arrRef spec0 1))) (t : Fin (cfg0 a).N) (r q : Fin 512)
    (hlt : (pf 1 (Shape.Idx.ofFin ⟨t.val, point_lt t⟩)).toNat < 100) :
    (((cfg0 a).win 1).blk t).view.read (Elt F) A (ix3 (0 : Fin 1) r q)
      = A (ix3 (⟨(pf 1 (Shape.Idx.ofFin ⟨t.val, point_lt t⟩)).toNat, hlt⟩ : Fin 100) r q) := by
  show A ((((cfg0 a).win 1).blk t).view.emb (ix3 (0 : Fin 1) r q)) = A _
  refine congrArg A ?_
  have e := in1_index a pf hpf t
  funext ax; apply Fin.ext
  match ax with
  | ⟨0, _⟩ =>
    show ((cfg0 a).win 1).index t (0 : Fin 3) * 1 + 1 * 0 = (pf 1 (Shape.Idx.ofFin ⟨t.val, point_lt t⟩)).toNat
    rw [e]; show (pf 1 (Shape.Idx.ofFin ⟨t.val, point_lt t⟩)).toNat * 1 + 1 * 0 = _; omega
  | ⟨1, _⟩ =>
    show ((cfg0 a).win 1).index t (1 : Fin 3) * 512 + 1 * r.val = r.val
    rw [e]; show 0 * 512 + 1 * r.val = r.val; omega
  | ⟨2, _⟩ =>
    show ((cfg0 a).win 1).index t (2 : Fin 3) * 512 + 1 * q.val = q.val
    rw [e]; show 0 * 512 + 1 * q.val = q.val; omega

end AtAdmissible

end Inputs

/-! ## At the region's tables -/

section Final

variable (m : (ℓ : Loc nD τ sig) → Buf (Elt F) ℓ) (h : InRange m) (c : Dev nD)

/-- The last step of half `k` is a point of the grid. -/
theorem lastStep_lt (k : Fin 2) : 50 * k.val + 49 < (pipeAt m h).N := by
  show 50 * k.val + 49 < grid0.N
  rw [N_0]; omega

/-- THE ARRAY OF COUNTS after the region: block `k` is what the slab of counts held after the last step of half `k`. -/
theorem final_slab2 (k : Fin 2) (s : Fin 8) (l : Fin 128) (hk : 50 * k.val + 49 < (pipeAt m h).N) :
    (dat m h c 0).arrAt 2 (pipeAt m h).N (ix3 k s l) = (slabsAt m h c (50 * k.val + 49) hk).1 (ix3 (0 : Fin 1) s l) := by
  have e := slab2_final (admAt m h) (dat m h c 0) k s l hk
  rw [after_slab2] at e
  exact e

/-- THE ARRAY OF SUMS after the region: block `k` is what the slab of sums held after the last step of half `k`. -/
theorem final_slab3 (k : Fin 2) (s : Fin 8) (l : Fin 128) (hk : 50 * k.val + 49 < (pipeAt m h).N) :
    (dat m h c 0).arrAt 3 (pipeAt m h).N (ix3 k s l) = (slabsAt m h c (50 * k.val + 49) hk).2.1 (ix3 (0 : Fin 1) s l) := by
  have e := slab3_final (admAt m h) (dat m h c 0) k s l hk
  rw [after_slab3] at e
  exact e

/-- THE ARRAY OF SUMS OF SQUARES after the region: block `k` is what the slab of sums of squares held after the last step of half `k`. -/
theorem final_slab4 (k : Fin 2) (s : Fin 8) (l : Fin 128) (hk : 50 * k.val + 49 < (pipeAt m h).N) :
    (dat m h c 0).arrAt 4 (pipeAt m h).N (ix3 k s l) = (slabsAt m h c (50 * k.val + 49) hk).2.2 (ix3 (0 : Fin 1) s l) := by
  have e := slab4_final (admAt m h) (dat m h c 0) k s l hk
  rw [after_slab4] at e
  exact e

/-- The word of table 0 at a point's number names a class map: it is below 80. -/
theorem table0_lt (t : Fin (pipeAt m h).N) : (tables m 0 (Shape.Idx.ofFin ⟨t.val, point_lt t⟩)).toNat < 80 :=
  word0_lt (tables m) h t

/-- The word of table 1 at a point's number names a mask: it is below 100. -/
theorem table1_lt (t : Fin (pipeAt m h).N) : (tables m 1 (Shape.Idx.ofFin ⟨t.val, point_lt t⟩)).toNat < 100 :=
  word1_lt (tables m) h t

/-- THE CLASS-MAP BLOCK at point `t`: the class map whose number is the word of table 0 at position `t`. -/
theorem blockAt0_apply (t : Fin (pipeAt m h).N) (r q : Fin 512)
    (hlt : (tables m 0 (Shape.Idx.ofFin ⟨t.val, point_lt t⟩)).toNat < 80) :
    blockAt m h c 0 t (ix3 (0 : Fin 1) r q)
      = atEntry m c main_arg0 (ix3 (⟨(tables m 0 (Shape.Idx.ofFin ⟨t.val, point_lt t⟩)).toNat, hlt⟩ : Fin 80) r q) :=
  in0_read (admAt m h) (tables m) rfl (atEntry m c (Pipeline.arrRef spec0 0)) t r q hlt

/-- THE MASK BLOCK at point `t`: the mask whose number is the word of table 1 at position `t`. -/
theorem blockAt1_apply (t : Fin (pipeAt m h).N) (r q : Fin 512)
    (hlt : (tables m 1 (Shape.Idx.ofFin ⟨t.val, point_lt t⟩)).toNat < 100) :
    blockAt m h c 1 t (ix3 (0 : Fin 1) r q)
      = atEntry m c main_v10 (ix3 (⟨(tables m 1 (Shape.Idx.ofFin ⟨t.val, point_lt t⟩)).toNat, hlt⟩ : Fin 100) r q) :=
  in1_read (admAt m h) (tables m) rfl (atEntry m c (Pipeline.arrRef spec0 1)) t r q hlt

end Final

end Cert.KernelIdeal.Hand

end
-- ==== Proof.KI.SlabRead.lean ====
/-
  A sorted position's statistic, read off the final slab arrays.

  Each of the three output arrays is [2, 8, 128]: half `k` holds what the slab held after the last step `50 k + 49` of
  core `k`'s half of the grid, and that slab holds at flat position `j = sublane · 128 + lane`, for `j ≤ 49`, the
  statistic of step `50 k + j`.  The host unpacks an array to a vector of 100 entries, entry `50 k + j` read at half
  `k`, flat position `j`.  So entry `p` of the unpacked array is the statistic of step `p`.
-/
import proofs.«409015_j49709951484027_3_alg».proof.Proof.KI.Values
import proofs.«409015_j49709951484027_3_alg».proof.Proof.KI.Final
import proofs.«409015_j49709951484027_3_alg».proof.Proof.KI.TailValue

set_option maxRecDepth 16384

noncomputable section

namespace Cert.KernelIdeal.Hand

open Idealize.ShloMosaic Idealize.ShloMosaic.ValueIdx
open Idealize.ShloMosaic.Pipeline (Dat Cfg Window)
open Cert.KernelIdeal Cert.KernelIdeal.Gen

/-! ## Reading a sorted position off the packed slabs: the arithmetic -/

/-- THE READ, over an abstract statistic and `N = 100` steps.  Let a [2, 8, 128] array `A` hold, in half `k`, what a
    slab holds after the last step `50 k + 49` of that half; let the slab after step `n` hold at flat position `x`
    (sublane `x / 128`, lane `x % 128`) the statistic of step `50 (n / 50) + x` when `x ≤ n % 50`; and let `unpack`
    read entry `50 k + j` (`j < 50`) of the unpacked vector at half `k`, flat position `j`.  Then entry `p` of the
    unpacked array is the statistic of step `p`: write `p = 50 (p / 50) + p % 50`; the flat position `p % 50` is
    below 128, so its sublane is 0 and its lane `p % 50`; it is at most `49 = (50 k + 49) % 50`; and
    `(50 k + 49) / 50 = k`. -/
theorem unpack_read {V : Type} {N : ℕ} (hN : N = 100) (unpack : V → S100.Idx → EReal)
    (at3 : V → S2x8x128.Idx → EReal)
    (hU : ∀ (x : V) (k : Fin 2) (j : Fin 50) (hlt : 50 * k.val + j.val < 100) (hs : j.val / 128 < 8)
      (hl : j.val % 128 < 128),
      unpack x (ix1 ⟨50 * k.val + j.val, hlt⟩) = at3 x (ix3 k ⟨j.val / 128, hs⟩ ⟨j.val % 128, hl⟩))
    (A : V) (slab : (n : ℕ) → n < N → S1x8x128.Idx → EReal) (stat : Fin N → EReal)
    (hF : ∀ (k : Fin 2) (s : Fin 8) (l : Fin 128) (hn : 50 * k.val + 49 < N),
      at3 A (ix3 k s l) = slab (50 * k.val + 49) hn (ix3 (0 : Fin 1) s l))
    (hV : ∀ (n : ℕ) (hn : n < N) (s : Fin 8) (l : Fin 128) (hle : s.val * 128 + l.val ≤ n % 50)
      (ht : 50 * (n / 50) + (s.val * 128 + l.val) < N),
      slab n hn (ix3 (0 : Fin 1) s l) = stat ⟨50 * (n / 50) + (s.val * 128 + l.val), ht⟩)
    (p : Fin 100) (hp' : p.val < N) : unpack A (ix1 p) = stat ⟨p.val, hp'⟩ := by
  subst hN
  obtain ⟨pv, hp⟩ := p
  have hk : pv / 50 < 2 := by omega
  have hj : pv % 50 < 50 := by omega
  have hlt : 50 * (⟨pv / 50, hk⟩ : Fin 2).val + (⟨pv % 50, hj⟩ : Fin 50).val < 100 := by
    show 50 * (pv / 50) + pv % 50 < 100
    omega
  have e : (⟨pv, hp⟩ : Fin 100) = ⟨50 * (⟨pv / 50, hk⟩ : Fin 2).val + (⟨pv % 50, hj⟩ : Fin 50).val, hlt⟩ :=
    Fin.ext (by show pv = 50 * (pv / 50) + pv % 50; omega)
  have hs : (⟨pv % 50, hj⟩ : Fin 50).val / 128 < 8 := by show pv % 50 / 128 < 8; omega
  have hl : (⟨pv % 50, hj⟩ : Fin 50).val % 128 < 128 := by show pv % 50 % 128 < 128; omega
  have hn : 50 * (⟨pv / 50, hk⟩ : Fin 2).val + 49 < 100 := by show 50 * (pv / 50) + 49 < 100; omega
  rw [e, hU A ⟨pv / 50, hk⟩ ⟨pv % 50, hj⟩ hlt hs hl, hF ⟨pv / 50, hk⟩ _ _ hn,
    hV _ hn _ _ (by show pv % 50 / 128 * 128 + pv % 50 % 128 ≤ (50 * (pv / 50) + 49) % 50; omega)
      (by show 50 * ((50 * (pv / 50) + 49) / 50) + (pv % 50 / 128 * 128 + pv % 50 % 128) < 100; omega)]
  exact congrArg stat (Fin.ext (by
    show 50 * ((50 * (pv / 50) + 49) / 50) + (pv % 50 / 128 * 128 + pv % 50 % 128) = 50 * (pv / 50) + pv % 50
    omega))

/-! ## The three reads -/

section Reads

variable (m : (ℓ : Loc nD τ sig) → Buf (Elt Ideal) ℓ) (h : InRange m) (c : Dev nD)

/-- The count of sorted position `p` is entry `p` of the unpacked count array. -/
theorem unpack_cnt (p : Fin 100) (hp : p.val < (pipeAt m h).N) :
    unpack ((dat m h c 0).arrAt 2 (pipeAt m h).N) (ix1 p) = cntOf (blockAt m h c 1 ⟨p.val, hp⟩) :=
  unpack_read (V := FVec Ideal S2x8x128 .f32) (N := (pipeAt m h).N) rfl unpack (fun x => x)
    (fun x k j _ _ _ => unpack_apply x k j)
    ((dat m h c 0).arrAt 2 (pipeAt m h).N) (fun n hn => (slabsAt m h c n hn).1)
    (fun t => cntOf (blockAt m h c 1 t))
    (fun k s l hn => final_slab2 m h c k s l hn)
    (fun n hn s l hle _ => (slab_counts m h c n hn s l).trans (dif_pos hle)) p hp

/-- The masked sum of sorted position `p` is entry `p` of the unpacked sum array. -/
theorem unpack_s1 (p : Fin 100) (hp : p.val < (pipeAt m h).N) :
    unpack ((dat m h c 0).arrAt 3 (pipeAt m h).N) (ix1 p)
      = s1Of (blockAt m h c 0 ⟨p.val, hp⟩) (blockAt m h c 1 ⟨p.val, hp⟩) :=
  unpack_read (V := FVec Ideal S2x8x128 .f32) (N := (pipeAt m h).N) rfl unpack (fun x => x)
    (fun x k j _ _ _ => unpack_apply x k j)
    ((dat m h c 0).arrAt 3 (pipeAt m h).N) (fun n hn => (slabsAt m h c n hn).2.1)
    (fun t => s1Of (blockAt m h c 0 t) (blockAt m h c 1 t))
    (fun k s l hn => final_slab3 m h c k s l hn)
    (fun n hn s l hle _ => (slab_sums m h c n hn s l).trans (dif_pos hle)) p hp

/-- The masked sum of squares of sorted position `p` is entry `p` of the unpacked sum-of-squares array. -/
theorem unpack_s2 (p : Fin 100) (hp : p.val < (pipeAt m h).N) :
    unpack ((dat m h c 0).arrAt 4 (pipeAt m h).N) (ix1 p)
      = s2Of (blockAt m h c 0 ⟨p.val, hp⟩) (blockAt m h c 1 ⟨p.val, hp⟩) :=
  unpack_read (V := FVec Ideal S2x8x128 .f32) (N := (pipeAt m h).N) rfl unpack (fun x => x)
    (fun x k j _ _ _ => unpack_apply x k j)
    ((dat m h c 0).arrAt 4 (pipeAt m h).N) (fun n hn => (slabsAt m h c n hn).2.2)
    (fun t => s2Of (blockAt m h c 0 t) (blockAt m h c 1 t))
    (fun k s l hn => final_slab4 m h c k s l hn)
    (fun n hn s l hle _ => (slab_squares m h c n hn s l).trans (dif_pos hle)) p hp

end Reads

end Cert.KernelIdeal.Hand

end
-- ==== Proof.LibReduceTwoAxes.lean ====
/-
  A sum over the two trailing axes of a rank-3 array, read at an index.

  The host's float sum of an array of shape [a, b, c] over its axes 1 and 2 into shape [a], at the exact
  (extended-real) values, is at position k the initial value plus the double sum over the two dropped
  coordinates of the entries (k, r, l). The sum over the index set of the array that projects to k is
  re-indexed through the pairs (r, l) of dropped coordinates.
-/
import Idealize.ShloMosaic.Lib.ValueIdx
import Idealize.ShloMosaic.PureOps.Reduce
import Idealize.ShloMosaic.PureOps.Ideal.Laws

noncomputable section

open scoped BigOperators

namespace Idealize.ShloMosaic.ReduceTwoAxes

open Idealize.ShloMosaic Idealize.ShloMosaic.ValueIdx

variable {a b c : Nat}

/-- Dropping axes 1 and 2 of a rank-3 index keeps its leading coordinate. -/
theorem drop12_val (h : (⟨3, ![a, b, c]⟩ : Shape).ReducesTo [1, 2] ⟨1, ![a]⟩)
    (i : (⟨3, ![a, b, c]⟩ : Shape).Idx) : ((h.drop i 0 : Fin _) : Nat) = (i 0 : Fin _) :=
  Shape.ReducesTo.drop_apply_val h i 0

/-- An index of [a, b, c] projects to `k` exactly when its leading coordinate is `k`. -/
theorem drop12_eq_iff (h : (⟨3, ![a, b, c]⟩ : Shape).ReducesTo [1, 2] ⟨1, ![a]⟩)
    (i : (⟨3, ![a, b, c]⟩ : Shape).Idx) (k : Fin a) : h.drop i = ix1 k ↔ i 0 = k := by
  constructor
  · intro e
    have h0 := drop12_val h i
    rw [e] at h0
    exact Fin.ext h0.symm
  · intro e
    funext d
    obtain rfl : d = 0 := Subsingleton.elim _ _
    refine Fin.ext ?_
    rw [drop12_val h i, e]
    rfl

/-- THE TWO-AXIS SUM AT AN INDEX: the exact sum of an [a, b, c] array over axes 1 and 2, at `k`, is the initial
    value plus the sum over `r` and `l` of the entry (k, r, l). -/
theorem hostReduceAdd_axes12 (h : (⟨3, ![a, b, c]⟩ : Shape).ReducesTo [1, 2] ⟨1, ![a]⟩)
    (x : (⟨3, ![a, b, c]⟩ : Shape).Idx → EReal) (init : EReal) (k : Fin a) :
    Ideal.hostReduceAdd h x init (ix1 k) = init + ∑ r : Fin b, ∑ l : Fin c, x (ix3 k r l) := by
  unfold Ideal.hostReduceAdd
  congr 1
  rw [← Finset.sum_product']
  symm
  refine Finset.sum_bij (fun p _ => ix3 k p.1 p.2) ?_ ?_ ?_ ?_
  · intro p _
    rw [Finset.mem_filter]
    exact ⟨Finset.mem_univ _, (drop12_eq_iff h _ k).2 rfl⟩
  · intro p _ q _ e
    have e1 := congrFun e 1
    have e2 := congrFun e 2
    exact Prod.ext e1 e2
  · intro i hi
    rw [Finset.mem_filter] at hi
    have hk : i 0 = k := (drop12_eq_iff h i k).1 hi.2
    refine ⟨(i 1, i 2), Finset.mem_product.2 ⟨Finset.mem_univ _, Finset.mem_univ _⟩, ?_⟩
    show ix3 k (i 1) (i 2) = i
    rw [← hk]
    exact (eq_ix3 i).symm
  · intro p _
    rfl

end Idealize.ShloMosaic.ReduceTwoAxes

end
-- ==== Proof.RefValue.lean ====
/-
  The reference's value: what its one result holds, as a function of the three argument arrays.

  The reference computes, per instance k, three statistics of the class map its id selects under its mask —
  the count of mask pixels, the masked sum and the masked sum of squares — and then a scalar loss from those
  three vectors and the ids alone (`lossTail`). The statistics are read at an index as double sums over the
  two spatial coordinates.
-/
import proofs.«409015_j49709951484027_3_alg».proof.Proof.RefRun
import proofs.«409015_j49709951484027_3_alg».proof.Proof.RefRead
import proofs.«409015_j49709951484027_3_alg».proof.Proof.LossTail
import proofs.«409015_j49709951484027_3_alg».proof.Proof.LibReduceTwoAxes
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx
open scoped BigOperators

/-! ## The result is the tail at the three statistics -/

/-- The reference's result is the tail at its three statistics and its ids. -/
theorem result_eq_lossTail (x0 : (⟨S80x512x512, .f32⟩ : BufTy).Contents (Elt Ideal))
    (x1 : (⟨S100x512x512, .i1⟩ : BufTy).Contents (Elt Ideal)) (x2 : (⟨S100, .i32⟩ : BufTy).Contents (Elt Ideal)) :
    Read.val_main_v53 (F := Ideal) x0 x1 x2
      = lossTail (Read.val_main_v8 (F := Ideal) x1) (Read.val_main_v10 (F := Ideal) x0 x1 x2)
          (Read.val_main_v13 (F := Ideal) x0 x1 x2) x2 := by
  rfl

/-! ## The gather: row k of the gathered array is the class map the clamped start index names -/

/-- The gather's dimension numbers: operand [80, 512, 512], start indices [100, 1], result [100, 512, 512]; the
    operand's leading axis is collapsed and indexed, its two trailing axes are the result's offset axes. -/
abbrev gd := gather_S80x512x512_S100x1_S100x512x512_12_0_n_n_0_1_1512512

theorem gd_startIndexMap : gd.startIndexMap = [0] := rfl
theorem gd_sKept : gd.sKept = [1, 2] := by decide

/-- On the operand's leading axis the gather reads at the start index of the result's row, read signed and clamped
    into [0, 79]. -/
theorem gd_operandIdx_0 (j : S100x512x512.Idx) (idx : IVec S100x1 32) :
    ((gd.operandIdx j idx 0 : Fin _) : Nat) = min (idx (ix2 (j 0) 0)).toInt.toNat 79 := by
  show gd.start j idx 0 + gd.batchCoord j 0 + gd.offCoord j 0 = _
  have hb : gd.batchCoord j 0 = 0 := GatherDims.batchCoord_eq_zero _ _ _ List.not_mem_nil
  have ho : gd.offCoord j 0 = 0 := GatherDims.offCoord_eq_zero _ _ _ (by rw [gd_sKept]; decide)
  rw [hb, ho, Nat.add_zero]
  have hm : (0 : Fin 3) ∈ gd.startIndexMap := by rw [gd_startIndexMap]; decide
  unfold GatherDims.start
  rw [dif_pos hm]
  have hsi : gd.siIdx j ⟨List.idxOf (0 : Fin 3) gd.startIndexMap, List.idxOf_lt_length_iff.2 hm⟩ = ix2 (j 0) 0 := by
    funext b
    refine Fin.ext ?_
    match b with
    | ⟨0, _⟩ => rfl
    | ⟨1, _⟩ => rfl
  rw [hsi]
  rfl

/-- On the operand's middle axis the gather reads at the result's middle coordinate. -/
theorem gd_operandIdx_1 (j : S100x512x512.Idx) (idx : IVec S100x1 32) :
    ((gd.operandIdx j idx 1 : Fin _) : Nat) = (j 1 : Fin _) := by
  show gd.start j idx 1 + gd.batchCoord j 1 + gd.offCoord j 1 = _
  have hb : gd.batchCoord j 1 = 0 := GatherDims.batchCoord_eq_zero _ _ _ List.not_mem_nil
  have hs : gd.start j idx 1 = 0 := by
    unfold GatherDims.start
    exact dif_neg (by rw [gd_startIndexMap]; decide)
  rw [hb, hs, Nat.add_zero, Nat.zero_add]
  have hm : (1 : Fin 3) ∈ gd.sKept := by rw [gd_sKept]; decide
  unfold GatherDims.offCoord
  rw [dif_pos hm]
  have hi : List.idxOf (1 : Fin 3) gd.sKept = 0 := by rw [gd_sKept]; decide
  simp only [hi]
  rfl

/-- On the operand's last axis the gather reads at the result's last coordinate. -/
theorem gd_operandIdx_2 (j : S100x512x512.Idx) (idx : IVec S100x1 32) :
    ((gd.operandIdx j idx 2 : Fin _) : Nat) = (j 2 : Fin _) := by
  show gd.start j idx 2 + gd.batchCoord j 2 + gd.offCoord j 2 = _
  have hb : gd.batchCoord j 2 = 0 := GatherDims.batchCoord_eq_zero _ _ _ List.not_mem_nil
  have hs : gd.start j idx 2 = 0 := by
    unfold GatherDims.start
    exact dif_neg (by rw [gd_startIndexMap]; decide)
  rw [hb, hs, Nat.add_zero, Nat.zero_add]
  have hm : (2 : Fin 3) ∈ gd.sKept := by rw [gd_sKept]; decide
  unfold GatherDims.offCoord
  rw [dif_pos hm]
  have hi : List.idxOf (2 : Fin 3) gd.sKept = 1 := by rw [gd_sKept]; decide
  simp only [hi]
  rfl

/-- THE GATHER AT (k, r, l): the operand at (c, r, l), c the start index of row k read signed and clamped into
    [0, 79]. -/
theorem gather_apply {α : Type} (x : S80x512x512.Idx → α) (idx : IVec S100x1 32) (k : Fin 100) (r l : Fin 512) :
    Host.gather gd x idx (ix3 k r l)
      = x (ix3 (⟨min (idx (ix2 k 0)).toInt.toNat 79, by omega⟩ : Fin 80) r l) := by
  unfold Host.gather
  congr 1
  funext a
  refine Fin.ext ?_
  match a with
  | ⟨0, _⟩ => exact gd_operandIdx_0 (ix3 k r l) idx
  | ⟨1, _⟩ => exact gd_operandIdx_1 (ix3 k r l) idx
  | ⟨2, _⟩ => exact gd_operandIdx_2 (ix3 k r l) idx

/-! ## The class of an instance -/

/-- An id as the program indexes with it: a negative id counts from the end of the 80 classes. -/
def wrapId (w : BitVec 32) : BitVec 32 := Scalar.select (IntOp.cmpi .slt w 0#32) (IntOp.addi w 80#32) w

/-- The class map instance k reads: its wrapped id, read signed and clamped into [0, 79]. -/
def cls (x2 : IVec S100 32) (k : Fin 100) : Fin 80 := ⟨min (wrapId (x2 (ix1 k))).toInt.toNat 79, by omega⟩

/-- The start index of row k is the wrapped id of instance k. -/
theorem startIdx_apply (x2 : IVec S100 32) (k : Fin 100) :
    Read.val_main_v6 (F := Ideal) x2 (ix2 k 0) = wrapId (x2 (ix1 k)) := by
  rw [Read.val_main_v6_apply]
  have hi : Read.idx_main_v6 (ix2 k (0 : Fin 1)) = ix1 k := by
    funext a
    match a with
    | ⟨0, _⟩ => rfl
  rw [hi, Read.val_main_v5_apply, Read.val_main_v2_apply, Read.val_main_v4_apply, Read.val_main_v1_apply,
    Read.val_main_v3_apply]
  rfl

/-- Row k of the gathered array is class map `cls k`. -/
theorem embs_apply (x0 : FVec Ideal S80x512x512 .f32) (x2 : IVec S100 32) (k : Fin 100) (r l : Fin 512) :
    Read.val_main_v7 (F := Ideal) x0 x2 (ix3 k r l) = x0 (ix3 (cls x2 k) r l) := by
  unfold Read.val_main_v7
  rw [gather_apply]
  simp only [startIdx_apply]
  rfl

/-- An id that is a class number, 0 ≤ id < 80, is neither wrapped nor clamped: the class is the id. -/
theorem cls_val_of_inRange (x2 : IVec S100 32)
    (hids : ∀ k : Fin 100, 0 ≤ (x2 (ix1 k)).toInt ∧ (x2 (ix1 k)).toInt < 80) (k : Fin 100) :
    ((cls x2 k : Fin 80) : Nat) = (x2 (ix1 k)).toNat := by
  obtain ⟨h0, h1⟩ := hids k
  show min (wrapId (x2 (ix1 k))).toInt.toNat 79 = (x2 (ix1 k)).toNat
  generalize x2 (ix1 k) = w at h0 h1 ⊢
  have hslt : IntOp.cmpi .slt w 0#32 = 0#1 := by
    unfold IntOp.cmpi
    have : w.slt 0#32 = false := by
      simp only [BitVec.slt, BitVec.toInt_zero, decide_eq_false_iff_not, not_lt]
      exact h0
    rw [this]; rfl
  have hw : wrapId w = w := by
    unfold wrapId
    rw [hslt]
    exact select_zero _ _
  rw [hw]
  have hmsb : w.msb = false := by
    by_contra hm
    have hm' : w.msb = true := by simpa using hm
    have := BitVec.toInt_neg_of_msb_true hm'
    omega
  have hti : w.toInt = (w.toNat : Int) := BitVec.toInt_eq_toNat_of_msb hmsb
  omega

/-! ## The three statistics at an index: double sums over the two spatial coordinates -/

/-- The mask as floats: 1 on a mask pixel, 0 off it. -/
def maskf (x1 : IVec S100x512x512 1) : FVec Ideal S100x512x512 .f32 := uitofp (F := Ideal) .f32 x1

/-- A mask entry as a float is 1 where the bit is set and 0 where it is clear. -/
theorem maskf_apply (x1 : IVec S100x512x512 1) (i : S100x512x512.Idx) :
    maskf x1 i = if x1 i = 1#1 then 1 else 0 := by
  show (((x1 i).toNat : ℝ) : EReal) = _
  rcases BitVec.eq_zero_or_eq_one (x1 i) with h | h <;> rw [h] <;> simp

/-- The count of instance k is the sum of its mask over the 512 × 512 positions. -/
theorem cnt_apply (x1 : IVec S100x512x512 1) (k : Fin 100) :
    Read.val_main_v8 (F := Ideal) x1 (ix1 k) = ∑ r : Fin 512, ∑ l : Fin 512, maskf x1 (ix3 k r l) := by
  show Ideal.hostReduceAdd reducesTo_S100x512x512_S100_d1_2 (Read.val_main_v0 (F := Ideal) x1)
    (Read.val_main_cst (F := Ideal) (Shape.Idx.first h_S_)) (ix1 k) = _
  rw [ReduceTwoAxes.hostReduceAdd_axes12,
    show Read.val_main_cst (F := Ideal) (Shape.Idx.first h_S_) = 0 from Ideal.ofBits_zero_f32, zero_add]
  rfl

/-- The masked sum of instance k: its class map times its mask, summed over the positions. -/
theorem s1_apply (x0 : FVec Ideal S80x512x512 .f32) (x1 : IVec S100x512x512 1) (x2 : IVec S100 32) (k : Fin 100) :
    Read.val_main_v10 (F := Ideal) x0 x1 x2 (ix1 k)
      = ∑ r : Fin 512, ∑ l : Fin 512, x0 (ix3 (cls x2 k) r l) * maskf x1 (ix3 k r l) := by
  show Ideal.hostReduceAdd reducesTo_S100x512x512_S100_d1_2 (Read.val_main_v9 (F := Ideal) x0 x1 x2)
    (Read.val_main_cst_1 (F := Ideal) (Shape.Idx.first h_S_)) (ix1 k) = _
  rw [ReduceTwoAxes.hostReduceAdd_axes12,
    show Read.val_main_cst_1 (F := Ideal) (Shape.Idx.first h_S_) = 0 from Ideal.ofBits_zero_f32, zero_add]
  refine Finset.sum_congr rfl fun r _ => Finset.sum_congr rfl fun l _ => ?_
  rw [Read.val_main_v9_apply, embs_apply]
  rfl

/-- The masked sum of squares of instance k: its class map squared times its mask, summed over the positions. -/
theorem s2_apply (x0 : FVec Ideal S80x512x512 .f32) (x1 : IVec S100x512x512 1) (x2 : IVec S100 32) (k : Fin 100) :
    Read.val_main_v13 (F := Ideal) x0 x1 x2 (ix1 k)
      = ∑ r : Fin 512, ∑ l : Fin 512,
          (x0 (ix3 (cls x2 k) r l) * x0 (ix3 (cls x2 k) r l)) * maskf x1 (ix3 k r l) := by
  show Ideal.hostReduceAdd reducesTo_S100x512x512_S100_d1_2 (Read.val_main_v12 (F := Ideal) x0 x1 x2)
    (Read.val_main_cst_2 (F := Ideal) (Shape.Idx.first h_S_)) (ix1 k) = _
  rw [ReduceTwoAxes.hostReduceAdd_axes12,
    show Read.val_main_cst_2 (F := Ideal) (Shape.Idx.first h_S_) = 0 from Ideal.ofBits_zero_f32, zero_add]
  refine Finset.sum_congr rfl fun r _ => Finset.sum_congr rfl fun l _ => ?_
  rw [Read.val_main_v12_apply, Read.val_main_v11_apply, embs_apply]
  rfl

/-! ## The reference's run, with its result as the tail of the statistics -/

/-- On every device, from any memory with zero counters, every weakly fair execution of the reference terminates with
    its result the tail at the three statistics of the arguments' launch contents, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53)
          = lossTail (Read.val_main_v8 (F := Ideal) (m ((c.tc : Thread nD τ).loc main_arg1)))
              (Read.val_main_v10 (F := Ideal) (m ((c.tc : Thread nD τ).loc main_arg0))
                (m ((c.tc : Thread nD τ).loc main_arg1)) (m ((c.tc : Thread nD τ).loc main_arg2)))
              (Read.val_main_v13 (F := Ideal) (m ((c.tc : Thread nD τ).loc main_arg0))
                (m ((c.tc : Thread nD τ).loc main_arg1)) (m ((c.tc : Thread nD τ).loc main_arg2)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨((h c).1.trans (Read.val_main_v53_eq m c)).trans (result_eq_lossTail _ _ _), (h c).2⟩)
    (Value.run (F := Ideal) m ρ)

end Cert.ReferenceIdeal.RefValue

end
-- ==== Proof.StatsBridge.lean ====
/-
  The kernel's three per-block sums are the reference's three statistics.

  For instance k the kernel is handed one class map (the block of the class maps at the instance's class) and the
  instance's mask as 32-bit words, each word the mask bit widened with zeros. Its mask-as-real (1 where the word is
  not zero) is then the reference's (1 where the bit is set), so its count, its masked sum and its masked sum of
  squares are the reference's at k, the last after re-bracketing x · (x · m) as (x · x) · m.
-/
import proofs.«409015_j49709951484027_3_alg».proof.Proof.RefValue
import proofs.«409015_j49709951484027_3_alg».proof.Proof.KI.Payload

noncomputable section

namespace Cert.Proof.Bridge

open Idealize.ShloMosaic Idealize.ShloMosaic.ValueIdx
open Cert.ReferenceIdeal.RefValue (maskf maskf_apply cls cls_val_of_inRange cnt_apply s1_apply s2_apply)
open Cert.KernelIdeal.Hand (maskK cntOf s1Of s2Of)
open scoped BigOperators

/-- A bit widened with zeros to 32 bits is the zero word exactly when the bit is clear. -/
theorem widened_eq_zero_iff (b : BitVec 1) : b.setWidth 32 = 0#32 ↔ b = 0#1 := by
  rcases BitVec.eq_zero_or_eq_one b with h | h <;> rw [h] <;> decide

/-- Where the kernel's mask block holds the widened bits of instance k's mask, its mask-as-real is the reference's. -/
theorem maskK_eq_maskf (x1 : IVec Cert.ReferenceIdeal.S100x512x512 1) (k : Fin 100)
    (x5 : Vec Ideal Cert.KernelIdeal.S1x512x512 .i32)
    (hx5 : ∀ r q : Fin 512, x5 (ix3 (0 : Fin 1) r q) = (x1 (ix3 k r q)).setWidth 32) (r q : Fin 512) :
    maskK x5 r q = maskf x1 (ix3 k r q) := by
  unfold maskK
  rw [hx5 r q, maskf_apply]
  rcases BitVec.eq_zero_or_eq_one (x1 (ix3 k r q)) with h | h
  · rw [h, if_pos (by decide), if_neg (by decide)]
  · rw [h, if_neg (by decide), if_pos rfl]

/-- The kernel's count over the block is the reference's count of instance k. -/
theorem cnt_bridge (x1 : IVec Cert.ReferenceIdeal.S100x512x512 1) (k : Fin 100)
    (x5 : Vec Ideal Cert.KernelIdeal.S1x512x512 .i32)
    (hx5 : ∀ r q : Fin 512, x5 (ix3 (0 : Fin 1) r q) = (x1 (ix3 k r q)).setWidth 32) :
    cntOf x5 = Cert.ReferenceIdeal.Read.val_main_v8 (F := Ideal) x1 (ix1 k) := by
  rw [cnt_apply]
  unfold cntOf
  exact Finset.sum_congr rfl fun r _ => Finset.sum_congr rfl fun q _ => maskK_eq_maskf x1 k x5 hx5 r q

/-- The kernel's masked sum over the block is the reference's masked sum of instance k, when the class-map block is
    the class map of the instance's id. -/
theorem s1_bridge (x0 : FVec Ideal Cert.ReferenceIdeal.S80x512x512 .f32)
    (x1 : IVec Cert.ReferenceIdeal.S100x512x512 1) (x2 : IVec Cert.ReferenceIdeal.S100 32)
    (hids : ∀ k : Fin 100, 0 ≤ (x2 (ix1 k)).toInt ∧ (x2 (ix1 k)).toInt < 80) (k : Fin 100) (cl : Fin 80)
    (hcl : cl.val = (x2 (ix1 k)).toNat) (x4 : Vec Ideal Cert.KernelIdeal.S1x512x512 .f32)
    (hx4 : ∀ r q : Fin 512, x4 (ix3 (0 : Fin 1) r q) = x0 (ix3 cl r q))
    (x5 : Vec Ideal Cert.KernelIdeal.S1x512x512 .i32)
    (hx5 : ∀ r q : Fin 512, x5 (ix3 (0 : Fin 1) r q) = (x1 (ix3 k r q)).setWidth 32) :
    s1Of x4 x5 = Cert.ReferenceIdeal.Read.val_main_v10 (F := Ideal) x0 x1 x2 (ix1 k) := by
  have hc : cl = cls x2 k := Fin.ext (hcl.trans (cls_val_of_inRange x2 hids k).symm)
  rw [s1_apply, ← hc]
  unfold s1Of
  refine Finset.sum_congr rfl fun r _ => Finset.sum_congr rfl fun q _ => ?_
  rw [hx4 r q, maskK_eq_maskf x1 k x5 hx5 r q]

/-- The kernel's masked sum of squares over the block is the reference's of instance k: the kernel's product
    x · (x · m) is the reference's (x · x) · m. -/
theorem s2_bridge (x0 : FVec Ideal Cert.ReferenceIdeal.S80x512x512 .f32)
    (x1 : IVec Cert.ReferenceIdeal.S100x512x512 1) (x2 : IVec Cert.ReferenceIdeal.S100 32)
    (hids : ∀ k : Fin 100, 0 ≤ (x2 (ix1 k)).toInt ∧ (x2 (ix1 k)).toInt < 80) (k : Fin 100) (cl : Fin 80)
    (hcl : cl.val = (x2 (ix1 k)).toNat) (x4 : Vec Ideal Cert.KernelIdeal.S1x512x512 .f32)
    (hx4 : ∀ r q : Fin 512, x4 (ix3 (0 : Fin 1) r q) = x0 (ix3 cl r q))
    (x5 : Vec Ideal Cert.KernelIdeal.S1x512x512 .i32)
    (hx5 : ∀ r q : Fin 512, x5 (ix3 (0 : Fin 1) r q) = (x1 (ix3 k r q)).setWidth 32) :
    s2Of x4 x5 = Cert.ReferenceIdeal.Read.val_main_v13 (F := Ideal) x0 x1 x2 (ix1 k) := by
  have hc : cl = cls x2 k := Fin.ext (hcl.trans (cls_val_of_inRange x2 hids k).symm)
  rw [s2_apply, ← hc]
  unfold s2Of
  refine Finset.sum_congr rfl fun r _ => Finset.sum_congr rfl fun q _ => ?_
  rw [hx4 r q, maskK_eq_maskf x1 k x5 hx5 r q, mul_assoc]

end Cert.Proof.Bridge

end
-- ==== Proof.KI.Instance.lean ====
/-
  Each instance's statistics, at its sorted position.

  The region visits the hundred instances in the order of their clamped class ids: at point p it is handed the mask
  whose number is word p of the sorting permutation and the class map whose number is word p of the sorted ids.  For
  an original instance i let p be the position the inverse permutation names for i.  The sorting permutation holds i
  at p, so the mask block at p is instance i's mask, each bit widened to a word; and the sorted id at p is the clamped
  id of instance i, which is the id itself when the id is a class (between 0 and 79), so the class-map block at p is
  the class map of instance i's id.  Hence the three totals the body takes of the blocks at p are the reference's
  count, masked sum and masked sum of squares of instance i.
-/
import proofs.«409015_j49709951484027_3_alg».proof.Proof.KI.Final
import proofs.«409015_j49709951484027_3_alg».proof.Proof.KI.Tables
import proofs.«409015_j49709951484027_3_alg».proof.Proof.KI.Payload
import proofs.«409015_j49709951484027_3_alg».proof.Proof.KI.Lines
import proofs.«409015_j49709951484027_3_alg».proof.Proof.StatsBridge

set_option maxRecDepth 16384

noncomputable section

namespace Cert.KernelIdeal.Hand

open Idealize.ShloMosaic Idealize.ShloMosaic.TcCoe
open Idealize.SL.Sem
open Idealize.ShloMosaic.ValueIdx
open Cert.KernelIdeal Cert.KernelIdeal.Gen

/-! ## Words -/

/-- The two spellings of the rank-one index at coordinate `k`. -/
theorem ix1_eq_ofFin {n : ℕ} (k : Fin n) : (ix1 k : (⟨1, ![n]⟩ : Shape).Idx) = Shape.Idx.ofFin k := by
  funext a
  have : a = 0 := Subsingleton.elim _ _
  subst this
  exact (Shape.Idx.ofFin_zero k).symm

/-- A signed word between 0 and 79 is left as it is by raising it to at least 0 and lowering it to at most 79. -/
theorem clamp_id (w : BitVec 32) (h0 : 0 ≤ w.toInt) (h1 : w.toInt < 80) :
    IntOp.minsi 79#32 (IntOp.maxsi 0#32 w) = w := by
  have e0 : (0#32 : BitVec 32).toInt = 0 := by decide
  have e79 : (79#32 : BitVec 32).toInt = 79 := by decide
  have n0 : ¬ (w.slt 0#32 = true) := by
    simp only [BitVec.slt, e0, decide_eq_true_eq, not_lt]; exact h0
  have hmax : IntOp.maxsi 0#32 w = w := if_neg n0
  rw [hmax]
  have n79 : ¬ ((79#32 : BitVec 32).slt w = true) := by
    simp only [BitVec.slt, e79, decide_eq_true_eq, not_lt]; omega
  exact if_neg n79

/-- Such a word, read unsigned, is below 80. -/
theorem toNat_lt_of_class (w : BitVec 32) (h0 : 0 ≤ w.toInt) (h1 : w.toInt < 80) : w.toNat < 80 := by
  have e := BitVec.toInt_eq_toNat_cond w
  have := w.isLt
  omega

/-! ## The blocks at a point whose word of the sorting permutation is known -/

section AtPoint

variable (m : (ℓ : Loc nD τ sig) → Buf (Elt Ideal) ℓ) (h : InRange m) (c : Dev nD)

/-- Where the sorting permutation holds `i` at point `t`, the mask block at `t` is block `i` of the widened masks. -/
theorem maskBlock_row (t : Fin (pipeAt m h).N) (i : Fin 100)
    (hw : sortPerm (idsOf m c) (Shape.Idx.ofFin ⟨t.val, point_lt t⟩) = BitVec.ofNat 32 i.val) (r q : Fin 512) :
    blockAt m h c 1 t (ix3 (0 : Fin 1) r q) = atEntry m c main_v10 (ix3 i r q) := by
  obtain rfl : c = 0 := Subsingleton.elim _ _
  have hrow : (tables m 1 (Shape.Idx.ofFin ⟨t.val, point_lt t⟩)).toNat = i.val := by
    rw [tables_one, hw]
    exact Cert.LibArgsort.toNat_ofNat_of_lt (by have := i.isLt; omega)
  have hlt : (tables m 1 (Shape.Idx.ofFin ⟨t.val, point_lt t⟩)).toNat < 100 := by rw [hrow]; exact i.isLt
  refine (blockAt1_apply m h 0 t r q hlt).trans ?_
  exact congrArg (fun j : Fin 100 => atEntry m 0 main_v10 (ix3 j r q)) (Fin.ext hrow)

/-- A widened mask word is the launched mask bit widened with zeros. -/
theorem widened_apply (i : Fin 100) (r q : Fin 512) :
    atEntry m c main_v10 (ix3 i r q) = BitVec.setWidth 32 (m ((c : Thread nD τ).loc main_arg1) (ix3 i r q)) := by
  rw [atEntry_v10]
  rfl

/-- Where the sorting permutation holds `i` at point `t`, the mask block at `t` is instance `i`'s mask, each bit
    widened with zeros to a word. -/
theorem maskBlock_of_word (t : Fin (pipeAt m h).N) (i : Fin 100)
    (hw : sortPerm (idsOf m c) (Shape.Idx.ofFin ⟨t.val, point_lt t⟩) = BitVec.ofNat 32 i.val) (r q : Fin 512) :
    blockAt m h c 1 t (ix3 (0 : Fin 1) r q)
      = BitVec.setWidth 32 (m ((c : Thread nD τ).loc main_arg1) (ix3 i r q)) :=
  (maskBlock_row m h c t i hw r q).trans (widened_apply m c i r q)
/-- Where the sorting permutation holds `i` at point `t` and instance `i`'s id is the class `cl`, the class-map
    block at `t` is the class map of `cl`. -/
theorem classBlock_of_word (t : Fin (pipeAt m h).N) (i : Fin 100)
    (hw : sortPerm (idsOf m c) (Shape.Idx.ofFin ⟨t.val, point_lt t⟩) = BitVec.ofNat 32 i.val)
    (hi : 0 ≤ (idsOf m c (ix1 i)).toInt ∧ (idsOf m c (ix1 i)).toInt < 80) (cl : Fin 80)
    (hcl : cl.val = (idsOf m c (ix1 i)).toNat) (r q : Fin 512) :
    blockAt m h c 0 t (ix3 (0 : Fin 1) r q) = m ((c : Thread nD τ).loc main_arg0) (ix3 cl r q) := by
  obtain rfl : c = 0 := Subsingleton.elim _ _
  have hval : (sortPerm (idsOf m 0) (Shape.Idx.ofFin ⟨t.val, point_lt t⟩)).toNat = i.val := by
    rw [hw]; exact Cert.LibArgsort.toNat_ofNat_of_lt (by have := i.isLt; omega)
  have hs : sortedIds (idsOf m 0) (Shape.Idx.ofFin ⟨t.val, point_lt t⟩) = idsOf m 0 (ix1 i) := by
    refine (sortedIds_apply (idsOf m 0) _).trans ?_
    refine (congrArg (fun k : Fin 100 => clampedIds (idsOf m 0) (Shape.Idx.ofFin k)) (Fin.ext hval)).trans ?_
    show clampedIds (idsOf m 0) (Shape.Idx.ofFin i) = _
    rw [clampedIds_apply, ← ix1_eq_ofFin]
    exact clamp_id _ hi.1 hi.2
  have hrow : (tables m 0 (Shape.Idx.ofFin ⟨t.val, point_lt t⟩)).toNat = cl.val := by
    rw [tables_zero, hs, hcl]
  have hlt : (tables m 0 (Shape.Idx.ofFin ⟨t.val, point_lt t⟩)).toNat < 80 := by rw [hrow]; exact cl.isLt
  refine (blockAt0_apply m h 0 t r q hlt).trans ?_
  refine (congrArg (fun j : Fin 80 => atEntry m 0 main_arg0 (ix3 j r q)) (Fin.ext hrow)).trans ?_
  show atEntry m 0 main_arg0 (ix3 cl r q) = _
  rw [atEntry_arg0]

end AtPoint

/-! ## Each instance at its sorted position -/

section Instances

variable (m : (ℓ : Loc nD τ sig) → Buf (Elt Ideal) ℓ) (h : InRange m) (c : Dev nD)

/-- The sorted position of instance `i`, as a point of the grid: the position the inverse permutation names for `i`. -/
def instPoint (i : Fin 100) : Fin (pipeAt m h).N :=
  ⟨(invPerm (idsOf m c) (Shape.Idx.ofFin i)).toNat, by
    show _ < grid0.N
    rw [N_0]; exact invPerm_lt (idsOf m c) _⟩

theorem instPoint_val (i : Fin 100) : (instPoint m h c i).val = (invPerm (idsOf m c) (Shape.Idx.ofFin i)).toNat := rfl

/-- The sorting permutation holds `i` at instance `i`'s sorted position. -/
theorem word_at_instPoint (i : Fin 100) :
    sortPerm (idsOf m c) (Shape.Idx.ofFin ⟨(instPoint m h c i).val, point_lt (instPoint m h c i)⟩) = BitVec.ofNat 32 i.val :=
  sortPerm_invPerm (idsOf m c) i

/-- THE COUNT: the body's count of the mask block at instance `i`'s sorted position is the reference's count of `i`. -/
theorem inst_cnt (i : Fin 100) :
    cntOf (blockAt m h c 1 (instPoint m h c i))
      = Cert.ReferenceIdeal.Read.val_main_v8 (F := Ideal) (m ((c : Thread nD τ).loc main_arg1)) (ix1 i) :=
  Cert.Proof.Bridge.cnt_bridge (m ((c : Thread nD τ).loc main_arg1)) i (blockAt m h c 1 (instPoint m h c i))
    (fun r q => maskBlock_of_word m h c (instPoint m h c i) i (word_at_instPoint m h c i) r q)

/-- The class of instance `i`, when every id is a class. -/
def instClass (hids : ∀ k : Fin 100, 0 ≤ (idsOf m c (ix1 k)).toInt ∧ (idsOf m c (ix1 k)).toInt < 80) (i : Fin 100) : Fin 80 :=
  ⟨(idsOf m c (ix1 i)).toNat, toNat_lt_of_class _ (hids i).1 (hids i).2⟩

/-- THE MASKED SUM: the body's masked sum of the blocks at instance `i`'s sorted position is the reference's of `i`. -/
theorem inst_s1 (hids : ∀ k : Fin 100, 0 ≤ (idsOf m c (ix1 k)).toInt ∧ (idsOf m c (ix1 k)).toInt < 80) (i : Fin 100) :
    s1Of (blockAt m h c 0 (instPoint m h c i)) (blockAt m h c 1 (instPoint m h c i))
      = Cert.ReferenceIdeal.Read.val_main_v10 (F := Ideal) (m ((c : Thread nD τ).loc main_arg0))
          (m ((c : Thread nD τ).loc main_arg1)) (idsOf m c) (ix1 i) :=
  Cert.Proof.Bridge.s1_bridge (m ((c : Thread nD τ).loc main_arg0)) (m ((c : Thread nD τ).loc main_arg1)) (idsOf m c) hids i
    (instClass m c hids i) rfl (blockAt m h c 0 (instPoint m h c i))
    (fun r q => classBlock_of_word m h c (instPoint m h c i) i (word_at_instPoint m h c i) (hids i) (instClass m c hids i) rfl r q)
    (blockAt m h c 1 (instPoint m h c i))
    (fun r q => maskBlock_of_word m h c (instPoint m h c i) i (word_at_instPoint m h c i) r q)

/-- THE MASKED SUM OF SQUARES: likewise. -/
theorem inst_s2 (hids : ∀ k : Fin 100, 0 ≤ (idsOf m c (ix1 k)).toInt ∧ (idsOf m c (ix1 k)).toInt < 80) (i : Fin 100) :
    s2Of (blockAt m h c 0 (instPoint m h c i)) (blockAt m h c 1 (instPoint m h c i))
      = Cert.ReferenceIdeal.Read.val_main_v13 (F := Ideal) (m ((c : Thread nD τ).loc main_arg0))
          (m ((c : Thread nD τ).loc main_arg1)) (idsOf m c) (ix1 i) :=
  Cert.Proof.Bridge.s2_bridge (m ((c : Thread nD τ).loc main_arg0)) (m ((c : Thread nD τ).loc main_arg1)) (idsOf m c) hids i
    (instClass m c hids i) rfl (blockAt m h c 0 (instPoint m h c i))
    (fun r q => classBlock_of_word m h c (instPoint m h c i) i (word_at_instPoint m h c i) (hids i) (instClass m c hids i) rfl r q)
    (blockAt m h c 1 (instPoint m h c i))
    (fun r q => maskBlock_of_word m h c (instPoint m h c i) i (word_at_instPoint m h c i) r q)

end Instances

end Cert.KernelIdeal.Hand

end
-- ==== Proof.KI.Equal.lean ====
/-
  The idealized program's result is the reference's.

  Position `invPerm i` of each un-packed slab array holds the statistic of the block staged at that sorted
  position; that block is instance `i`'s own mask and the class map of `i`'s own label, because the sorting
  permutation's word there is `i`.  So the three un-permuted vectors are the reference's count, sum and sum of
  squares, entry by entry; and the clamped ids are the ids.  The loss's tail is the same function on both sides.
-/
import proofs.«409015_j49709951484027_3_alg».proof.Proof.KI.Result
import proofs.«409015_j49709951484027_3_alg».proof.Proof.KI.SlabRead
import proofs.«409015_j49709951484027_3_alg».proof.Proof.KI.Instance

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (h : InRange m) (c : Dev nD)

/-- Instance `i`'s sorted position, as the inverse permutation's word names it, is the point `instPoint i`. -/
theorem sortedPos_eq (i : Fin 100) (hlt : (invPerm (idsOf m c) (ix1 i)).toNat < (pipeAt m h).N) :
    (⟨(invPerm (idsOf m c) (ix1 i)).toNat, hlt⟩ : Fin (pipeAt m h).N) = instPoint m h c i :=
  by
  apply Fin.ext
  show (invPerm (idsOf m c) (ix1 i)).toNat = (invPerm (idsOf m c) (Shape.Idx.ofFin i)).toNat
  rw [ix1_eq_ofFin]

/-- THE VALUE: under the label range the program's result is the loss's tail of the reference's three statistics
    and the ids. -/
theorem result_value (hids : ∀ k : Fin 100, 0 ≤ (idsOf m c (ix1 k)).toInt ∧ (idsOf m c (ix1 k)).toInt < 80) :
    atEnd m h c main_v81
      = Cert.ReferenceIdeal.RefValue.lossTail
          (Cert.ReferenceIdeal.Read.val_main_v8 (F := Ideal) (m ((c : Thread nD τ).loc main_arg1)))
          (Cert.ReferenceIdeal.Read.val_main_v10 (F := Ideal) (m ((c : Thread nD τ).loc main_arg0)) (m ((c : Thread nD τ).loc main_arg1)) (idsOf m c))
          (Cert.ReferenceIdeal.Read.val_main_v13 (F := Ideal) (m ((c : Thread nD τ).loc main_arg0)) (m ((c : Thread nD τ).loc main_arg1)) (idsOf m c))
          (idsOf m c) := by
  rw [atEnd_result]
  have hlt : ∀ i : Fin 100, (invPerm (idsOf m c) (ix1 i)).toNat < 100 := fun i => invPerm_lt _ _
  have hpt : ∀ i : Fin 100, (invPerm (idsOf m c) (ix1 i)).toNat < (pipeAt m h).N :=
    fun i => lt_of_lt_of_eq (hlt i) (nPoints m h).symm
  refine congr (congr (congr (congrArg _ ?_) ?_) ?_) ?_
  · funext j
    obtain ⟨i, rfl⟩ : ∃ i : Fin 100, j = ix1 i := ⟨j 0, eq_ix1 j⟩
    refine (unperm_apply _ _ i (hlt i)).trans ?_
    refine (unpack_cnt m h c ⟨_, hlt i⟩ (hpt i)).trans ?_
    exact (congrArg (fun t => cntOf (blockAt m h c 1 t)) (sortedPos_eq m h c i (hpt i))).trans (inst_cnt m h c i)
  · funext j
    obtain ⟨i, rfl⟩ : ∃ i : Fin 100, j = ix1 i := ⟨j 0, eq_ix1 j⟩
    refine (unperm_apply _ _ i (hlt i)).trans ?_
    refine (unpack_s1 m h c ⟨_, hlt i⟩ (hpt i)).trans ?_
    exact (congrArg (fun t => s1Of (blockAt m h c 0 t) (blockAt m h c 1 t)) (sortedPos_eq m h c i (hpt i))).trans (inst_s1 m h c hids i)
  · funext j
    obtain ⟨i, rfl⟩ : ∃ i : Fin 100, j = ix1 i := ⟨j 0, eq_ix1 j⟩
    refine (unperm_apply _ _ i (hlt i)).trans ?_
    refine (unpack_s2 m h c ⟨_, hlt i⟩ (hpt i)).trans ?_
    exact (congrArg (fun t => s2Of (blockAt m h c 0 t) (blockAt m h c 1 t)) (sortedPos_eq m h c i (hpt i))).trans (inst_s2 m h c hids i)
  · funext j
    obtain ⟨i, rfl⟩ : ∃ i : Fin 100, j = ix1 i := ⟨j 0, eq_ix1 j⟩
    rw [clampedIds_apply]
    exact clamp_label _ (hids i).1 (hids i).2

end Cert.KernelIdeal.Hand

end
-- ==== Proof.PreRange.lean ====
/-
  The precondition read back: every class id lies in the label range [0, 80).

  The printed precondition is the conjunction of two `all`s: every class-map entry is finite, and every class id
  is at least 0 and below 80 as a signed word.  A reduction by `and` that came out 1 met a 1 at every index, and a
  comparison word that is 1 says what it compares.
-/
import proofs.«409015_j49709951484027_3_alg».proof.Proof.Gen.Pre_finite_inputs
import Idealize.ShloMosaic.Lib.ReduceAll
import Idealize.ShloMosaic.Lib.ValueIdx

noncomputable section

namespace Cert.Pre_finite_inputs.Hand

open Idealize.ShloMosaic Cert.Pre_finite_inputs Cert.Pre_finite_inputs.Facts

variable {F : FTy → Type} [FloatOps F]

/-- The rank-0 shape has one index. -/
instance : Subsingleton S_.Idx := ⟨fun a b => funext fun d => d.elim0⟩

/-- Under the precondition every class id is a signed word in [0, 80). -/
theorem ids_in_range (x0 : FVec F S80x512x512 .f32) (x1 : IVec S100x512x512 1) (x2 : IVec S100 32)
    (h : fn (F := F) x0 x1 x2 = fun _ => 1#1) (j : S100.Idx) :
    0 ≤ (x2 j).toInt ∧ (x2 j).toInt < 80 := by
  have h0 := congrFun h ValueIdx.ix0
  dsimp only [fn] at h0
  obtain ⟨-, h9⟩ := IntOp.andi_eq_one.1 h0
  have h8 := Host.reduce_andi_all _ _ _ _ _ h9 j
  obtain ⟨h5, h7⟩ := IntOp.andi_eq_one.1 h8
  have a := IntOp.cmpi_sge.1 h5
  have b := IntOp.cmpi_slt.1 h7
  simp only [broadcastInDim, constantI] at a b
  exact ⟨by simpa using a, by simpa using b⟩

end Cert.Pre_finite_inputs.Hand

end
-- ==== Proof.lean ====
/-
  The certificate: per-instance masked statistics of class-embedding maps and the loss built from them, a
  pipelined kernel with a class-sorted schedule against the plain reference.

  For each of 100 instances k with class id cls k and boolean mask M k over a 512 x 512 map, both programs form
  cnt k = sum of M k, s1 k = sum of E (cls k) * M k, s2 k = sum of E (cls k)^2 * M k over the map's pixels, where
  E is the stack of 80 class maps, and then the same loss of (cnt, s1, s2, cls).  The reference reads E (cls k)
  directly.  The kernel sorts the instances by class so that equal classes are consecutive, lets a two-core
  pipeline visit the sorted instances (core c, step j handles sorted position 50 c + j, reading the class map and
  the mask through two tables of words: the sorted ids and the sorting permutation), accumulates the three sums
  of step j into position j of a per-core slab, and afterwards reads the slabs back through the inverse
  permutation.  Sorting then inverting is the identity, so instance k receives exactly its own sums.

  The class ids are labels in [0, 80): the precondition says so, and under it the kernel's clamp of the ids and
  the reference's wrap of negative ids are both the identity.

  The three frames: the two kernel programs by the library's frame run for host lines, a region with prefetched
  tables, host lines (the tables are in range whatever the ids are, because the kernel clamps them and the
  sorting permutation's words are positions); the reference by its run.  No rewrite was made by the idealization,
  so there is nothing to preserve.  The algebraic claim is the bridge above, index by index on the extended reals;
  it needs no finiteness: only associativity of the product and that adding zero changes nothing.
-/
import proofs.«409015_j49709951484027_3_alg».proof.Defs
import proofs.«409015_j49709951484027_3_alg».proof.Proof.Gen.Kernel
import proofs.«409015_j49709951484027_3_alg».proof.Proof.Gen.KernelIdeal
import proofs.«409015_j49709951484027_3_alg».proof.Proof.Gen.ReferenceIdeal
import proofs.«409015_j49709951484027_3_alg».proof.Proof.Gen.Pre_finite_inputs
import proofs.«409015_j49709951484027_3_alg».proof.Proof.KB.Frame
import proofs.«409015_j49709951484027_3_alg».proof.Proof.KB.Tables
import proofs.«409015_j49709951484027_3_alg».proof.Proof.KI.Tables
import proofs.«409015_j49709951484027_3_alg».proof.Proof.KI.Frame
import proofs.«409015_j49709951484027_3_alg».proof.Proof.KI.Equal
import proofs.«409015_j49709951484027_3_alg».proof.Proof.PreRange
import proofs.«409015_j49709951484027_3_alg».proof.Proof.RefValue
import Idealize.ShloMosaic.Adequacy
import Idealize.ShloMosaic.Init

noncomputable section

namespace Cert.Proof

open Idealize.ShloMosaic Idealize.SL.Sem

/-- The program as printed runs and keeps its arguments: the tables are in range for every input. -/
theorem frame_k : Cert.frame_Kernel := fun m ρ _ => Cert.Kernel.Hand.frame m ρ (Cert.Kernel.Hand.inRange m)

/-- So does its idealization. -/
theorem frame_ki : Cert.frame_KernelIdeal := fun m ρ _ => Cert.KernelIdeal.Hand.frame m ρ (Cert.KernelIdeal.Hand.inRange m)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs run; the kernel's result is the loss's tail of the
    three un-permuted slab vectors, the reference's the same tail of its three statistics, and under the label
    range these are the same vectors. -/
theorem algebraic : Cert.algebraic_KernelIdeal_ReferenceIdeal := by
  intro m ρ m' ρ' hpre hagree
  have hR := Cert.KernelIdeal.Hand.inRange m
  have hids : ∀ (c : Dev Cert.KernelIdeal.nD) (k : Fin 100),
      0 ≤ (Cert.KernelIdeal.Hand.idsOf m c (ValueIdx.ix1 k)).toInt ∧ (Cert.KernelIdeal.Hand.idsOf m c (ValueIdx.ix1 k)).toInt < 80 :=
    fun c k => Cert.Pre_finite_inputs.Hand.ids_in_range _ _ _ (hpre c) _
  refine ⟨fun c => Cert.KernelIdeal.Hand.atEnd m hR c Cert.KernelIdeal.main_v81, Cert.KernelIdeal.Hand.run_result m ρ hR, ?_⟩
  refine (θ_run Cert.ReferenceIdeal.defs _ _).mono (fun _ hq c => ⟨(hq c).1.trans ?_, (hq c).2⟩)
    (Cert.ReferenceIdeal.RefValue.ref_run m' ρ')
  rw [(hagree c).1, (hagree c).2.1, (hagree c).2.2]
  exact (Cert.KernelIdeal.Hand.result_value m hR c (hids c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
